-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  IdealRules.named_const.Statement Cert.KernelIdeal.κ "inv_temp" .f32 0x41649249#32 ((134217728 / 9395241 : ℝ) : EReal)
  ∧ IdealRules.named_const.Statement Cert.KernelIdeal.κ "neg_big" .f32 0xF149F2CA#32 ⊥

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x1024 : Shape := ⟨2, ![8192, 1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel

variable [Facts]

def fn {F : FTy → Type} [FloatOps F] (main_arg0 : FVec F S8192x1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  main_v3
-- ==== Kernel.lean ====
abbrev S8192x1024 : Shape := ⟨2, ![8192, 1024]⟩
abbrev S1024x1024 : Shape := ⟨2, ![1024, 1024]⟩
abbrev S1024 : Shape := ⟨1, ![1024]⟩
abbrev S1024x1 : Shape := ⟨2, ![1024, 1]⟩
abbrev S8192x1 : Shape := ⟨2, ![8192, 1]⟩
abbrev S512x1024 : Shape := ⟨2, ![512, 1024]⟩
abbrev S512x1 : Shape := ⟨2, ![512, 1]⟩
abbrev S1024x512 : Shape := ⟨2, ![1024, 512]⟩
abbrev S512x512 : Shape := ⟨2, ![512, 512]⟩
abbrev S1x512 : Shape := ⟨2, ![1, 512]⟩
abbrev S512 : Shape := ⟨1, ![512]⟩
abbrev S_ : Shape := ⟨0, ![]⟩

abbrev nBuf : Space → Nat
  | .hbm => 10
  | .vmem => 15
  | .smem => 0
  | _ => 0

abbrev bufTy : (tb : Table) → Fin (tcTables nBuf tb) → BufTy
  | .hbm, ⟨0, _⟩ => ⟨S8192x1024, .f32⟩
  | .hbm, ⟨1, _⟩ => ⟨S8192x1024, .bf16⟩
  | .hbm, ⟨2, _⟩ => ⟨S8192x1, .f32⟩
  | .hbm, ⟨3, _⟩ => ⟨S8192x1, .f32⟩
  | .hbm, ⟨4, _⟩ => ⟨S8192x1, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x1, .f32⟩
  | .local _ .vmem, ⟨9, _⟩ => ⟨S512x1, .f32⟩
  | .local _ .vmem, ⟨10, _⟩ => ⟨S512x1, .f32⟩
  | .local _ .vmem, ⟨11, _⟩ => ⟨S512x1, .f32⟩
  | .local _ .vmem, ⟨12, _⟩ => ⟨S512x1, .f32⟩
  | .local _ .vmem, ⟨13, _⟩ => ⟨S512x1, .f32⟩
  | .local _ .vmem, ⟨14, _⟩ => ⟨S512x1, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1_0 : Ref sig .tc := ⟨.hbm, 2, rfl⟩
abbrev main_v1_1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc1_stg2_0 : Ref sig .tc := ⟨.vmem, 8, rfl⟩
abbrev cc1_stg2_1 : Ref sig .tc := ⟨.vmem, 9, rfl⟩
abbrev cc1_stg3_0 : Ref sig .tc := ⟨.vmem, 10, rfl⟩
abbrev cc1_stg3_1 : Ref sig .tc := ⟨.vmem, 11, rfl⟩
abbrev cc1_scratch0 : Ref sig .tc := ⟨.vmem, 12, rfl⟩
abbrev cc1_scratch1 : Ref sig .tc := ⟨.vmem, 13, rfl⟩
abbrev cc1_scratch2 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7
abbrev cc1_sem2_0 : DmaSem sig := 8
abbrev cc1_sem2_1 : DmaSem sig := 9
abbrev cc1_sem3_0 : DmaSem sig := 10
abbrev cc1_sem3_1 : DmaSem sig := 11

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨2, ![16, 16], ![false, false]⟩

def k1_cond2 (i : grid1.Coords) : BitVec 1 :=
  let arg1 : BitVec 32 := BitVec.ofNat 32 (i 1).val
  let c15_i32 : BitVec 32 := 15#32
  let v64 : BitVec 1 := Scalar.cmpi .eq arg1 c15_i32
  let v65 : BitVec 32 := Scalar.extui v64
  let c0_i32_27 : BitVec 32 := 0#32
  let v66 : BitVec 1 := Scalar.cmpi .ne v65 c0_i32_27
  v66

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S512x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S512x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S512x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S512x1 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

class Facts₀ : Prop where
  inb_S1024x1024_S1024x1024_0_0 : ∀ a, (![0, 0] : Fin 2 → Nat) a + S1024x1024.size a ≤ S1024x1024.size a
  h_S1024x1024 : 0 < S1024x1024.numel
  reduces_S1024x1024_S1024 : S1024x1024.Reduces [1] S1024
  shapeCasts_S1024_S1024x1 : S1024.ShapeCasts S1024x1
  broadcasts_S1024x1_S1024x1024 : S1024x1.Broadcasts S1024x1024
  bitsLt_bf16_f32 : FTy.bits .bf16 < FTy.bits .f32
  packedbf16_S1024x1024_S1024x1024_0_0 : (Rect.unit (s := S1024x1024) ![0, 0] S1024x1024.size inb_S1024x1024_S1024x1024_0_0).PackedRows (EltTy.packing .bf16)
  inb_S512x1_S512x1_0_0 : ∀ a, (![0, 0] : Fin 2 → Nat) a + S512x1.size a ≤ S512x1.size a
  h_S512x1 : 0 < S512x1.numel
  shapeCasts_S512x1_S512x1 : S512x1.ShapeCasts S512x1
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  transposes_S512x1024_p1_0_S1024x512 : S512x1024.Transposes [1, 0] S1024x512
  iota_S512x1_d0_w32 : S512x1.Iotas .tc 32 [0]
  iota_S1x512_d1_w32 : S1x512.Iotas .tc 32 [1]
  broadcasts_S512x1_S512x512 : S512x1.Broadcasts S512x512
  broadcasts_S1x512_S512x512 : S1x512.Broadcasts S512x512
  reduces_S512x512_S512 : S512x512.Reduces [1] S512
  shapeCasts_S512_S512x1 : S512.ShapeCasts S512x1
  reducesTo_S8192x1_S_d0_1 : S8192x1.ReducesTo [0, 1] S_
  h_S_ : 0 < S_.numel
  dot_S512x1024_S1024x512_S512x512_1_0_0_1_n_n_wf : DotDims.WF S512x1024 S1024x512 S512x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S8192x1024.size a
  hwx0_0 : ∀ i : grid0.Coords, EltTy.bits .f32 = 32 ∨ (Rect.block (s := S8192x1024) S1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S8192x1024.size a
  hwx0_1 : ∀ i : grid0.Coords, EltTy.bits .bf16 = 32 ∨ (Rect.block (s := S8192x1024) S1024x1024.size (cc0_transform_1 i) (hinb0_1 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x1024.size a ≤ S8192x1024.size a
  hwx1_0 : ∀ i : grid1.Coords, EltTy.bits .bf16 = 32 ∨ (Rect.block (s := S8192x1024) S512x1024.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S512x1024.size a ≤ S8192x1024.size a
  hwx1_1 : ∀ i : grid1.Coords, EltTy.bits .bf16 = 32 ∨ (Rect.block (s := S8192x1024) S512x1024.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S512x1.size a ≤ S8192x1.size a
  hwx1_2 : ∀ i : grid1.Coords, EltTy.bits .f32 = 32 ∨ (Rect.block (s := S8192x1) S512x1.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S512x1.size a ≤ S8192x1.size a
  hwx1_3 : ∀ i : grid1.Coords, EltTy.bits .f32 = 32 ∨ (Rect.block (s := S8192x1) S512x1.size (cc1_transform_3 i) (hinb1_3 i)).WholeWords (EltTy.packing .f32)

variable [Facts₀]

def dot_S512x1024_S1024x512_S512x512_1_0_0_1_n_n : DotDims S512x1024 S1024x512 S512x512 where
  lhsContracting := [1]
  rhsContracting := [0]
  lhsNonContracting := [0]
  rhsNonContracting := [1]
  lhsBatch := []
  rhsBatch := []
  wf := dot_S512x1024_S1024x512_S512x512_1_0_0_1_n_n_wf

abbrev win0_0 : Pipeline.Window sig grid0 :=
  Pipeline.Window.ofSpec (Memref.whole main_arg0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1024x1024.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_v0) S512x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S512x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v1_0) S512x1.size cc1_transform_2 reads1_2 true false 2 stage1_2 sem1_2
    hrank1 hreads1_2 hinb1_2 nbuf1_2 (Memref.isWhole_whole _) hwx1_2 hstage1_2

abbrev win1_3 : Pipeline.Window sig grid1 :=
  Pipeline.Window.ofSpec (Memref.whole main_v1_1) S512x1.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun i => !(k1_cond2 i == 1#1) | 3 => fun i => !(k1_cond2 i == 1#1) | ⟨_ + 4, h⟩ => absurd h (Nat.not_lt.2 (Nat.le_add_left _ _))

class Facts : Prop extends Facts₀ where

variable [Facts]
-- ==== ReferenceIdeal.lean ====
abbrev S8192x1024 : Shape := ⟨2, ![8192, 1024]⟩
abbrev S_ : Shape := ⟨0, ![]⟩
abbrev S8192 : Shape := ⟨1, ![8192]⟩
abbrev S8192x1 : Shape := ⟨2, ![8192, 1]⟩
abbrev S1024x8192 : Shape := ⟨2, ![1024, 8192]⟩
abbrev S8192x8192 : Shape := ⟨2, ![8192, 8192]⟩
abbrev S4096 : Shape := ⟨1, ![4096]⟩
abbrev S8192x2 : Shape := ⟨2, ![8192, 2]⟩

abbrev nBuf : Space → Nat
  | .hbm => 71
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S_, .f32⟩
  | .hbm, ⟨3, _⟩ => ⟨S8192, .f32⟩
  | .hbm, ⟨4, _⟩ => ⟨S8192x1, .f32⟩
  | .hbm, ⟨5, _⟩ => ⟨S8192x1, .f32⟩
  | .hbm, ⟨6, _⟩ => ⟨S_, .f32⟩
  | .hbm, ⟨7, _⟩ => ⟨S8192x1, .f32⟩
  | .hbm, ⟨8, _⟩ => ⟨S8192x1, .f32⟩
  | .hbm, ⟨9, _⟩ => ⟨S8192x1024, .f32⟩
  | .hbm, ⟨10, _⟩ => ⟨S8192x1024, .f32⟩
  | .hbm, ⟨11, _⟩ => ⟨S1024x8192, .f32⟩
  | .hbm, ⟨12, _⟩ => ⟨S8192x8192, .f32⟩
  | .hbm, ⟨13, _⟩ => ⟨S_, .f32⟩
  | .hbm, ⟨14, _⟩ => ⟨S8192x8192, .f32⟩
  | .hbm, ⟨15, _⟩ => ⟨S8192x8192, .f32⟩
  | .hbm, ⟨16, _⟩ => ⟨S8192x8192, .i32⟩
  | .hbm, ⟨17, _⟩ => ⟨S8192x8192, .i32⟩
  | .hbm, ⟨18, _⟩ => ⟨S_, .i32⟩
  | .hbm, ⟨19, _⟩ => ⟨S8192x8192, .i32⟩
  | .hbm, ⟨20, _⟩ => ⟨S8192x8192, .i32⟩
  | .hbm, ⟨21, _⟩ => ⟨S8192x8192, .i1⟩
  | .hbm, ⟨22, _⟩ => ⟨S_, .f32⟩
  | .hbm, ⟨23, _⟩ => ⟨S_, .f32⟩
  | .hbm, ⟨24, _⟩ => ⟨S8192x8192, .f32⟩
  | .hbm, ⟨25, _⟩ => ⟨S8192x8192, .f32⟩
  | .hbm, ⟨26, _⟩ => ⟨S4096, .i32⟩
  | .hbm, ⟨27, _⟩ => ⟨S_, .i32⟩
  | .hbm, ⟨28, _⟩ => ⟨S4096, .i32⟩
  | .hbm, ⟨29, _⟩ => ⟨S4096, .i32⟩
  | .hbm, ⟨30, _⟩ => ⟨S4096, .i32⟩
  | .hbm, ⟨31, _⟩ => ⟨S8192, .i32⟩
  | .hbm, ⟨32, _⟩ => ⟨S_, .f32⟩
  | .hbm, ⟨33, _⟩ => ⟨S8192, .f32⟩
  | .hbm, ⟨34, _⟩ => ⟨S_, .f32⟩
  | .hbm, ⟨35, _⟩ => ⟨S8192, .f32⟩
  | .hbm, ⟨36, _⟩ => ⟨S8192, .f32⟩
  | .hbm, ⟨37, _⟩ => ⟨S8192x1, .f32⟩
  | .hbm, ⟨38, _⟩ => ⟨S8192x8192, .f32⟩
  | .hbm, ⟨39, _⟩ => ⟨S8192x8192, .f32⟩
  | .hbm, ⟨40, _⟩ => ⟨S8192x8192, .f32⟩
  | .hbm, ⟨41, _⟩ => ⟨S_, .f32⟩
  | .hbm, ⟨42, _⟩ => ⟨S8192, .f32⟩
  | .hbm, ⟨43, _⟩ => ⟨S8192x1, .f32⟩
  | .hbm, ⟨44, _⟩ => ⟨S8192x1, .f32⟩
  | .hbm, ⟨45, _⟩ => ⟨S8192x8192, .f32⟩
  | .hbm, ⟨46, _⟩ => ⟨S8192x8192, .f32⟩
  | .hbm, ⟨47, _⟩ => ⟨S8192, .i32⟩
  | .hbm, ⟨48, _⟩ => ⟨S_, .i32⟩
  | .hbm, ⟨49, _⟩ => ⟨S8192, .i32⟩
  | .hbm, ⟨50, _⟩ => ⟨S8192, .i1⟩
  | .hbm, ⟨51, _⟩ => ⟨S_, .i32⟩
  | .hbm, ⟨52, _⟩ => ⟨S8192, .i32⟩
  | .hbm, ⟨53, _⟩ => ⟨S8192, .i32⟩
  | .hbm, ⟨54, _⟩ => ⟨S8192, .i32⟩
  | .hbm, ⟨55, _⟩ => ⟨S_, .i32⟩
  | .hbm, ⟨56, _⟩ => ⟨S8192, .i32⟩
  | .hbm, ⟨57, _⟩ => ⟨S8192, .i1⟩
  | .hbm, ⟨58, _⟩ => ⟨S_, .i32⟩
  | .hbm, ⟨59, _⟩ => ⟨S8192, .i32⟩
  | .hbm, ⟨60, _⟩ => ⟨S8192, .i32⟩
  | .hbm, ⟨61, _⟩ => ⟨S8192, .i32⟩
  | .hbm, ⟨62, _⟩ => ⟨S8192x1, .i32⟩
  | .hbm, ⟨63, _⟩ => ⟨S8192x1, .i32⟩
  | .hbm, ⟨64, _⟩ => ⟨S8192x2, .i32⟩
  | .hbm, ⟨65, _⟩ => ⟨S8192, .f32⟩
  | .hbm, ⟨66, _⟩ => ⟨S_, .f32⟩
  | .hbm, ⟨67, _⟩ => ⟨S_, .f32⟩
  | .hbm, ⟨68, _⟩ => ⟨S_, .f32⟩
  | .hbm, ⟨69, _⟩ => ⟨S_, .f32⟩
  | .hbm, ⟨70, _⟩ => ⟨S_, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_call0_v0 : Ref sig .tc := ⟨.hbm, 1, rfl⟩
abbrev main_call0_cst : Ref sig .tc := ⟨.hbm, 2, rfl⟩
abbrev main_call0_v1 : Ref sig .tc := ⟨.hbm, 3, rfl⟩
abbrev main_call0_v2 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_c : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_1 : Ref sig .tc := ⟨.hbm, 22, rfl⟩
abbrev main_call1_v0 : Ref sig .tc := ⟨.hbm, 23, rfl⟩
abbrev main_call1_v1 : Ref sig .tc := ⟨.hbm, 24, rfl⟩
abbrev main_v14 : Ref sig .tc := ⟨.hbm, 25, rfl⟩
abbrev main_v15 : Ref sig .tc := ⟨.hbm, 26, rfl⟩
abbrev main_c_2 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_call2_cst : Ref sig .tc := ⟨.hbm, 32, rfl⟩
abbrev main_call2_v0 : Ref sig .tc := ⟨.hbm, 33, rfl⟩
abbrev main_call2_cst_0 : Ref sig .tc := ⟨.hbm, 34, rfl⟩
abbrev main_call2_v1 : Ref sig .tc := ⟨.hbm, 35, rfl⟩
abbrev main_call2_v2 : Ref sig .tc := ⟨.hbm, 36, rfl⟩
abbrev main_call2_v3 : Ref sig .tc := ⟨.hbm, 37, rfl⟩
abbrev main_call2_v4 : Ref sig .tc := ⟨.hbm, 38, rfl⟩
abbrev main_call2_v5 : Ref sig .tc := ⟨.hbm, 39, rfl⟩
abbrev main_call2_v6 : Ref sig .tc := ⟨.hbm, 40, rfl⟩
abbrev main_call2_cst_1 : Ref sig .tc := ⟨.hbm, 41, rfl⟩
abbrev main_call2_v7 : Ref sig .tc := ⟨.hbm, 42, rfl⟩
abbrev main_call2_v8 : Ref sig .tc := ⟨.hbm, 43, rfl⟩
abbrev main_call2_v9 : Ref sig .tc := ⟨.hbm, 44, rfl⟩
abbrev main_call2_v10 : Ref sig .tc := ⟨.hbm, 45, rfl⟩
abbrev main_v20 : Ref sig .tc := ⟨.hbm, 46, rfl⟩
abbrev main_v21 : Ref sig .tc := ⟨.hbm, 47, rfl⟩
abbrev main_c_3 : Ref sig .tc := ⟨.hbm, 48, rfl⟩
abbrev main_v22 : Ref sig .tc := ⟨.hbm, 49, rfl⟩
abbrev main_v23 : Ref sig .tc := ⟨.hbm, 50, rfl⟩
abbrev main_c_4 : Ref sig .tc := ⟨.hbm, 51, rfl⟩
abbrev main_v24 : Ref sig .tc := ⟨.hbm, 52, rfl⟩
abbrev main_v25 : Ref sig .tc := ⟨.hbm, 53, rfl⟩
abbrev main_v26 : Ref sig .tc := ⟨.hbm, 54, rfl⟩
abbrev main_c_5 : Ref sig .tc := ⟨.hbm, 55, rfl⟩
abbrev main_v27 : Ref sig .tc := ⟨.hbm, 56, rfl⟩
abbrev main_v28 : Ref sig .tc := ⟨.hbm, 57, rfl⟩
abbrev main_c_6 : Ref sig .tc := ⟨.hbm, 58, rfl⟩
abbrev main_v29 : Ref sig .tc := ⟨.hbm, 59, rfl⟩
abbrev main_v30 : Ref sig .tc := ⟨.hbm, 60, rfl⟩
abbrev main_v31 : Ref sig .tc := ⟨.hbm, 61, rfl⟩
abbrev main_v32 : Ref sig .tc := ⟨.hbm, 62, rfl⟩
abbrev main_v33 : Ref sig .tc := ⟨.hbm, 63, rfl⟩
abbrev main_v34 : Ref sig .tc := ⟨.hbm, 64, rfl⟩
abbrev main_v35 : Ref sig .tc := ⟨.hbm, 65, rfl⟩
abbrev main_cst_7 : Ref sig .tc := ⟨.hbm, 66, rfl⟩
abbrev main_v36 : Ref sig .tc := ⟨.hbm, 67, rfl⟩
abbrev main_cst_8 : Ref sig .tc := ⟨.hbm, 68, rfl⟩
abbrev main_v37 : Ref sig .tc := ⟨.hbm, 69, rfl⟩
abbrev main_v38 : Ref sig .tc := ⟨.hbm, 70, rfl⟩

abbrev nD : Nat := 1
abbrev τ : Topo := Topo.v7x

variable {F : FTy → Type} [FloatOps F]

class Facts₀ : Prop where
  reducesTo_S8192x1024_S8192_d1 : S8192x1024.ReducesTo [1] S8192
  h_S_ : 0 < S_.numel
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x1024_0_1 : S8192x1.BroadcastsInDim S8192x1024 (![0, 1] : Fin 2 → Fin S8192x1024.rank)
  transposes_S8192x1024_S1024x8192_1_0 : S8192x1024.Transposes [1, 0] S1024x8192
  bcast_S_S8192x8192 : S_.BroadcastsInDim S8192x8192 (![] : Fin 0 → Fin S8192x8192.rank)
  bcast_S_S4096 : S_.BroadcastsInDim S4096 (![] : Fin 0 → Fin S4096.rank)
  concatenates_S4096_S4096_S8192_d0 : Shape.Concatenates [S4096, S4096] S8192 0
  reducesTo_S8192x8192_S8192_d1 : S8192x8192.ReducesTo [1] S8192
  bcast_S_S8192 : S_.BroadcastsInDim S8192 (![] : Fin 0 → Fin S8192.rank)
  bcast_S8192x1_S8192x8192_0_1 : S8192x1.BroadcastsInDim S8192x8192 (![0, 1] : Fin 2 → Fin S8192x8192.rank)
  concatenates_S8192x1_S8192x1_S8192x2_d1 : Shape.Concatenates [S8192x1, S8192x1] S8192x2 1
  reducesTo_S8192_S_d0 : S8192.ReducesTo [0] S_
  dot_S8192x1024_S1024x8192_S8192x8192_1_0_0_1_n_n_wf : DotDims.WF S8192x1024 S1024x8192 S8192x8192 [1] [0] [0] [1] [] []
  gather_S8192x8192_S8192x2_S8192_n_01_n_n_01_1_11_wf : GatherDims.WF S8192x8192 S8192x2 S8192 [] [0, 1] [] [0, 1] [] 1 ![1, 1]

variable [Facts₀]

def dot_S8192x1024_S1024x8192_S8192x8192_1_0_0_1_n_n : DotDims S8192x1024 S1024x8192 S8192x8192 where
  lhsContracting := [1]
  rhsContracting := [0]
  lhsNonContracting := [0]
  rhsNonContracting := [1]
  lhsBatch := []
  rhsBatch := []
  wf := dot_S8192x1024_S1024x8192_S8192x8192_1_0_0_1_n_n_wf
def gather_S8192x8192_S8192x2_S8192_n_01_n_n_01_1_11 : GatherDims S8192x8192 S8192x2 S8192 where
  offsetDims := []
  collapsedSliceDims := [0, 1]
  operandBatchingDims := []
  startIndicesBatchingDims := []
  startIndexMap := [0, 1]
  indexVectorDim := 1
  sliceSizes := ![1, 1]
  wf := gather_S8192x8192_S8192x2_S8192_n_01_n_n_01_1_11_wf

class Facts : Prop extends Facts₀ where

variable [Facts]
-- ==== Proof.Kernel.R0.lean ====
/-
  The row-normalizing region (the program's first kernel), at any float instance and at a parameter `V`:
  the buffers' contents when the region is entered. Each grid point loads its 1024 × 1024 block of the input
  rows, and stores, over the whole output block, every entry divided by its row's clamped norm. The block
  after the body is therefore one pure function (`out0_1`) of the input block; the proof data `dat0` say so
  at every point, and the body's run proves it.
-/
import proofs.«164746_j32564442038466_1_alg».proof.Proof.Gen.Kernel.Launch
import proofs.«164746_j32564442038466_1_alg».proof.Proof.Gen.Kernel.Skeleton
import proofs.«164746_j32564442038466_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input block stays in its staging buffer: at every point the body finds the array's block there. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The whole 1024 × 1024 block as one rectangle. -/
abbrev r0_0 : Rect S1024x1024 := Rect.unit (s := S1024x1024) ![0, 0] S1024x1024.size inb_S1024x1024_S1024x1024_0_0

/-- The output block after the body: the one store's payload over the input block. -/
def out0_1 (x0 : Vec F S1024x1024 .f32) : Vec F S1024x1024 .bf16 :=
  View.canon [⟨r0_0, k0_pay1 (View.ld x0 r0_0)⟩]

/-- The one store covers the block. -/
theorem cover0_1 (p0 : Vec F S1024x1024 .bf16) (y : S1024x1024.Idx) :
    ∃ pc ∈ ([⟨r0_0, p0⟩] : List (View.Piece (Elt F) S1024x1024 .bf16)), y ∈ pc.1.set :=
  View.cover_of_tiled [⟨r0_0, p0⟩] S1024x1024.size (by rfl) y

set_option maxHeartbeats 1000000 in
/-- The body's triple: from the input's staging buffer at `x0` and the output's at anything, to the input's
    unchanged and the output's at `out0_1 x0`. -/
theorem sound_kernel0 (c : Dev nD) (E : Set ℕ) (i : grid0.Coords) (arg1 : Memref sig .tc .vmem S1024x1024 .f32) (harg1 : arg1.IsWhole) (arg2 : Memref sig .tc .vmem S1024x1024 .bf16) (harg2 : arg2.IsWhole)
    (x0 : Vec F S1024x1024 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (out0_1 x0)) -∗ K ⟨⟩))
      ⊢ wp frame (wpE (defs₀ (F := F)) Variants.none c none) E (cc0__normalize_kernel i arg1 harg1 arg2 harg2) K := by
  simp only [cc0__normalize_kernel_eq_skeleton]; unfold cc0__normalize_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover0_1 _)

/-- The proof data of the first region on core `c`. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => out0_1 (iblk0 V c 0 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = out0_1 (iblk0 V c 0 t) := by dsimp only [dat0]

theorem before0_0 (c : Dev nD) (t : Fin cfg0.N) (d) : (dat0 V c).before 0 t d = iblk0 V c 0 t :=
  before0_0_of V (dat0 V c) (A_eq0 V c 0) (after0_0 V c) t d

/-- What the pipeline hands the body at point `t`: the invariant, the core's debts, and each window's
    current staging buffer at what the point finds there. -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d)))

/-- What the body hands back: the same invariant and debts, the input rows untouched, the output buffer at
    the normalized rows. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t))

/-- The body at a point: the input buffer holds the point's rows (`before0_0`), whatever the output buffer
    holds is overwritten whole, and neither the invariant nor the debts are read. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt () t.succ = (dat0 V c).owesAt () t.castSucc from rfl,
    after0_0, after0_1]
  iintro ⟨HΦ, Ho, ⟨%d0, Hin⟩, ⟨%d1, Hout⟩⟩
  iapply (sound_kernel0 c Set.univ _ _ _ _ _ (iblk0 V c 0 t) _)
  isplitl [Hin]; · iexact Hin
  isplitl [Hout]; · iexists _; iexact Hout
  iintro ⟨Hin, Hout⟩
  isplitl [HΦ]; · iexact HΦ
  isplitl [Ho]; · iexact Ho
  isplitl [Hin]; · iexact Hin
  iexact Hout

/-- The library's body obligation, at every point. -/
theorem body_obligation0 (c : Dev nD) : BodyObligation (dat0 (F := F) V c) (defs₀ (F := F)) Variants.none () Set.univ := fun t => by
  rw [bigSep_W0, bigSep_W0]
  exact sound_body0 V c t

end Region0

end Cert.Kernel.Hand

end
-- ==== Proof.Kernel.R1.lean ====
/-
  The similarity region (the program's second kernel), at any float instance and at a parameter `V`: the
  buffers' contents when the region is entered. The grid is 16 row blocks × 16 column blocks, the column block
  innermost. Three scratch columns of 512 entries are carried from point to point: the running row maximum,
  the running sum of exponentials, the running paired logit. At a row block's first column block they are reset
  (to −∞, 0, 0), at every point they are updated from the two input blocks (`scrStep`), and at the row block's
  last column block the two output blocks are stored from them. `scrAt` is what the three hold after each point.
  The body's run is proved three times over arbitrary whole memrefs, once per place of the point in its row block
  (first, inner, last), and the body obligation at a point picks the run by the point's residue modulo 16.
-/
import proofs.«164746_j32564442038466_1_alg».proof.Proof.Gen.Kernel.Launch
import proofs.«164746_j32564442038466_1_alg».proof.Proof.Gen.Kernel.Skeleton
import proofs.«164746_j32564442038466_1_alg».proof.Proof.Gen.Kernel.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The three carried columns: maximum, sum of exponentials, paired logit. -/
abbrev Scr (F : FTy → Type) := Vec F S512x1 .f32 × Vec F S512x1 .f32 × Vec F S512x1 .f32

/-- What the reset stores: −∞, 0, 0. -/
def scrInit : Scr F := (k1_pay6, k1_pay7, k1_pay8)

/-- One point's update of the carried columns from the row block `q` and the column block `k`. -/
def scrStep (i : grid1.Coords) (q k : Vec F S512x1024 .bf16) (s : Scr F) : Scr F :=
  (k1_pay4 (k1_pay12 i q k) s.1, k1_pay3 (k1_pay12 i q k) s.1 s.1 s.2.1, k1_pay1 (k1_pay13 i q k) s.2.2)

/-- The carried columns after the body at position `n`: the update of the reset columns at a row block's first
    column block, of what the point before left otherwise. -/
def scrAt (c : Dev nD) : (n : ℕ) → n < cfg1.N → Scr F
  | 0, h => scrStep (grid1.coords ⟨0, h⟩) (iblk1 V c 0 ⟨0, h⟩) (iblk1 V c 1 ⟨0, h⟩) scrInit
  | n + 1, h => scrStep (grid1.coords ⟨n + 1, h⟩) (iblk1 V c 0 ⟨n + 1, h⟩) (iblk1 V c 1 ⟨n + 1, h⟩)
      (if (n + 1) % 16 = 0 then scrInit else scrAt c n (Nat.lt_of_succ_lt h))

/-- The scratch buffers. -/
abbrev scM0 : Memref sig .tc .vmem S512x1 .f32 := Memref.whole cc1_scratch0
abbrev scM1 : Memref sig .tc .vmem S512x1 .f32 := Memref.whole cc1_scratch1
abbrev scM2 : Memref sig .tc .vmem S512x1 .f32 := Memref.whole cc1_scratch2

/-- The scoped buffers of the core that are neither this region's staging buffers nor its scratch: the first
    region's staging buffers, each whole at some contents. -/
def rest1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f))

/-- The region's invariant before position `n`: before the first point every scoped buffer at anything; afterwards
    the carried columns at what the point before left. -/
def PhiS (c : Dev nD) : (n : ℕ) → n ≤ cfg1.N → sProp 𝕄
  | 0, _ => Pipeline.ΦA spec1 c
  | n + 1, hn => iprop(rest1 (F := F) c ∗ owns (c : Thread nD τ) scM0 fullShare (scrAt V c n hn).1 ∗ owns (c : Thread nD τ) scM1 fullShare (scrAt V c n hn).2.1
      ∗ owns (c : Thread nD τ) scM2 fullShare (scrAt V c n hn).2.2 ∗ (∃ r, prngReg c r))

/-- The proof data of the second region on core `c`. The two input windows read one array, held at the two
    halves of the full share. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => k1_pay5 (scrAt V c t.val t.isLt).1 (scrAt V c t.val t.isLt).2.1
    | ⟨3, _⟩ => (scrAt V c t.val t.isLt).2.2
  Φ t := PhiS V c t.val (Nat.le_of_lt_succ t.isLt)
  q w := match w with
    | ⟨0, _⟩ => fullShare.left
    | ⟨1, _⟩ => fullShare.right
    | ⟨2, _⟩ => fullShare
    | ⟨3, _⟩ => fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = k1_pay5 (scrAt V c t.val t.isLt).1 (scrAt V c t.val t.isLt).2.1 := by dsimp only [dat1]
theorem after1_3 (c : Dev nD) (t : Fin cfg1.N) : (dat1 V c).after 3 t = (scrAt V c t.val t.isLt).2.2 := by dsimp only [dat1]

/-! ## The two conditions over the grid -/

/-- The test of the reset: the column block is the first. -/
abbrev cond1_0 (i : grid1.Coords) : Prop :=
  (Scalar.cmpi .ne (Scalar.extui (Scalar.cmpi .eq (BitVec.ofNat 32 (i 1).val) 0#32)) 0#32) = 1#1
theorem hcond1_0 : ∀ t : Fin cfg1.N, cond1_0 (grid1.coords t) ↔ t.val % 16 = 0 :=
  (by decide +kernel : ∀ t : Fin grid1.N, cond1_0 (grid1.coords t) ↔ t.val % 16 = 0)

/-- The test of the output stores: the column block is the last. -/
abbrev cond1_1 (i : grid1.Coords) : Prop := k1_cond2 i = 1#1
theorem hcond1_1 : ∀ t : Fin cfg1.N, cond1_1 (grid1.coords t) ↔ t.val % 16 = 15 :=
  (by decide +kernel : ∀ t : Fin grid1.N, cond1_1 (grid1.coords t) ↔ t.val % 16 = 15)

/-! ## Whole-buffer loads and stores -/

theorem hz2 : (![0, 0] : Fin 2 → ℕ) = fun _ => 0 := funext fun a => by fin_cases a <;> rfl

/-- A store through the whole-shape rectangle, made last, is what the buffer reads afterwards. -/
theorem read_after_store {sh : Shape} {e : EltTy} (v : View sig .tc .vmem sh e) (f : v.ty.Contents (Elt F))
    {off : Fin sh.rank → ℕ} (hz : off = fun _ => 0) (inb : ∀ a, off a + sh.size a ≤ sh.size a)
    (w : sh.Idx → Elt F e) (L : List (View.Piece (Elt F) sh e)) :
    v.read (Elt F) (v.writes (Elt F) f (⟨Rect.unit off sh.size inb, w⟩ :: L)) = w := by
  rw [View.read_writes_eq_canon v f _ (fun y => ⟨_, List.mem_cons_self, View.mem_set_unit_zero hz inb y⟩),
    View.canon_cons_unit_zero hz inb w L]

/-- A load through the whole-shape rectangle of a whole buffer reads its contents. -/
theorem load_whole {sh : Shape} {e : EltTy} (M : Memref sig .tc .vmem sh e) (hM : M.IsWhole)
    {off : Fin sh.rank → ℕ} (hz : off = fun _ => 0) (inb : ∀ a, off a + sh.size a ≤ sh.size a) (x : sh.Idx → Elt F e) :
    View.readAt (Elt F) M.view (Rect.unit off sh.size inb).toLoadRect (hM.unread x) = x := by
  rw [View.readAt_eq_ld, hM.read_unread, View.ld_unit_zero hz inb]

set_option maxHeartbeats 1000000 in
/-- A row block's first point: the carried columns, whatever they held, are reset and updated. -/
theorem run1_A (c : Dev nD) (E : Set ℕ) (i : grid1.Coords)
    (arg2 : Memref sig .tc .vmem S512x1024 .bf16) (harg2 : arg2.IsWhole) (arg3 : Memref sig .tc .vmem S512x1024 .bf16) (harg3 : arg3.IsWhole)
    (arg4 : Memref sig .tc .vmem S512x1 .f32) (harg4 : arg4.IsWhole) (arg5 : Memref sig .tc .vmem S512x1 .f32) (harg5 : arg5.IsWhole)
    (arg6 : Memref sig .tc .vmem S512x1 .f32) (harg6 : arg6.IsWhole) (arg7 : Memref sig .tc .vmem S512x1 .f32) (harg7 : arg7.IsWhole)
    (arg8 : Memref sig .tc .vmem S512x1 .f32) (harg8 : arg8.IsWhole)
    (hc0 : cond1_0 i) (hc1 : ¬cond1_1 i) (q k : Vec F S512x1024 .bf16) (K : PUnit → sProp 𝕄) :
    iprop(owns (c : Thread nD τ) arg2 fullShare q ∗ owns (c : Thread nD τ) arg3 fullShare k
        ∗ (∃ d, owns (c : Thread nD τ) arg6 fullShare d) ∗ (∃ d, owns (c : Thread nD τ) arg7 fullShare d) ∗ (∃ d, owns (c : Thread nD τ) arg8 fullShare d)
        ∗ (iprop(owns (c : Thread nD τ) arg2 fullShare q ∗ owns (c : Thread nD τ) arg3 fullShare k
            ∗ owns (c : Thread nD τ) arg6 fullShare (scrStep i q k scrInit).1 ∗ owns (c : Thread nD τ) arg7 fullShare (scrStep i q k scrInit).2.1
            ∗ owns (c : Thread nD τ) arg8 fullShare (scrStep i q k scrInit).2.2) -∗ K ⟨⟩))
      ⊢ wp frame (wpE (defs₀ (F := F)) Variants.none c none) E
          (cc1_kernel i arg2 harg2 arg3 harg3 arg4 harg4 arg5 harg5 arg6 harg6 arg7 harg7 arg8 harg8) K := by
  simp only [cc1_kernel_eq_skeleton]; unfold cc1_kernel_skel
  simp only [k1_part1_eq_skeleton]; unfold k1_part1_skel
  unfold owns
  iintro ⟨⟨%f2, %hf2, H2⟩, ⟨%f3, %hf3, H3⟩, ⟨%d6, %f6, -, H6⟩, ⟨%d7, %f7, -, H7⟩, ⟨%d8, %f8, -, H8⟩, Hk⟩
  obtain rfl := harg2.eq_unread hf2; obtain rfl := harg3.eq_unread hf3
  sl_exec (disch := first | exact hc0 | exact hc1)
  sl_step
  iapply Hk
  isplitl [H2]
  · iexists _; isplitr; · ipureintro; exact harg2.read_unread _
    iexact H2
  isplitl [H3]
  · iexists _; isplitr; · ipureintro; exact harg3.read_unread _
    iexact H3
  isplitl [H6]
  · iexists _; isplitr
    swap; · iexact H6
    ipureintro; rw [read_after_store _ _ hz2]
    sl_unfold_run_names
    simp only [View.readCov_unit_zero (S := S512x1) _ hz2, load_whole (sh := S512x1) _ _ hz2, load_whole (sh := S512x1024) _ _ hz2]
    rfl
  isplitl [H7]
  · iexists _; isplitr
    swap; · iexact H7
    ipureintro; rw [read_after_store _ _ hz2]
    sl_unfold_run_names
    simp only [View.readCov_unit_zero (S := S512x1) _ hz2, load_whole (sh := S512x1) _ _ hz2, load_whole (sh := S512x1024) _ _ hz2]
    rfl
  iexists _; isplitr
  swap; · iexact H8
  ipureintro; rw [read_after_store _ _ hz2]
  sl_unfold_run_names
  simp only [View.readCov_unit_zero (S := S512x1) _ hz2, load_whole (sh := S512x1) _ _ hz2, load_whole (sh := S512x1024) _ _ hz2]
  rfl

set_option maxHeartbeats 1000000 in
/-- A point that is neither a row block's first nor its last: the carried columns go from `s` to their update. -/
theorem run1_B (c : Dev nD) (E : Set ℕ) (i : grid1.Coords)
    (arg2 : Memref sig .tc .vmem S512x1024 .bf16) (harg2 : arg2.IsWhole) (arg3 : Memref sig .tc .vmem S512x1024 .bf16) (harg3 : arg3.IsWhole)
    (arg4 : Memref sig .tc .vmem S512x1 .f32) (harg4 : arg4.IsWhole) (arg5 : Memref sig .tc .vmem S512x1 .f32) (harg5 : arg5.IsWhole)
    (arg6 : Memref sig .tc .vmem S512x1 .f32) (harg6 : arg6.IsWhole) (arg7 : Memref sig .tc .vmem S512x1 .f32) (harg7 : arg7.IsWhole)
    (arg8 : Memref sig .tc .vmem S512x1 .f32) (harg8 : arg8.IsWhole)
    (hc0 : ¬cond1_0 i) (hc1 : ¬cond1_1 i) (q k : Vec F S512x1024 .bf16) (s : Scr F) (K : PUnit → sProp 𝕄) :
    iprop(owns (c : Thread nD τ) arg2 fullShare q ∗ owns (c : Thread nD τ) arg3 fullShare k
        ∗ owns (c : Thread nD τ) arg6 fullShare s.1 ∗ owns (c : Thread nD τ) arg7 fullShare s.2.1 ∗ owns (c : Thread nD τ) arg8 fullShare s.2.2
        ∗ (iprop(owns (c : Thread nD τ) arg2 fullShare q ∗ owns (c : Thread nD τ) arg3 fullShare k
            ∗ owns (c : Thread nD τ) arg6 fullShare (scrStep i q k s).1 ∗ owns (c : Thread nD τ) arg7 fullShare (scrStep i q k s).2.1
            ∗ owns (c : Thread nD τ) arg8 fullShare (scrStep i q k s).2.2) -∗ K ⟨⟩))
      ⊢ wp frame (wpE (defs₀ (F := F)) Variants.none c none) E
          (cc1_kernel i arg2 harg2 arg3 harg3 arg4 harg4 arg5 harg5 arg6 harg6 arg7 harg7 arg8 harg8) K := by
  obtain ⟨s0, s1, s2⟩ := s
  simp only [cc1_kernel_eq_skeleton]; unfold cc1_kernel_skel
  simp only [k1_part1_eq_skeleton]; unfold k1_part1_skel
  unfold owns
  iintro ⟨⟨%f2, %hf2, H2⟩, ⟨%f3, %hf3, H3⟩, ⟨%f6, %hf6, H6⟩, ⟨%f7, %hf7, H7⟩, ⟨%f8, %hf8, H8⟩, Hk⟩
  obtain rfl := harg2.eq_unread hf2; obtain rfl := harg3.eq_unread hf3
  obtain rfl := harg6.eq_unread hf6; obtain rfl := harg7.eq_unread hf7; obtain rfl := harg8.eq_unread hf8
  sl_exec (disch := first | exact hc0 | exact hc1)
  sl_step
  iapply Hk
  isplitl [H2]
  · iexists _; isplitr; · ipureintro; exact harg2.read_unread _
    iexact H2
  isplitl [H3]
  · iexists _; isplitr; · ipureintro; exact harg3.read_unread _
    iexact H3
  isplitl [H6]
  · iexists _; isplitr
    swap; · iexact H6
    ipureintro; rw [read_after_store _ _ hz2]
    simp only [load_whole (sh := S512x1) _ _ hz2, load_whole (sh := S512x1024) _ _ hz2]
    rfl
  isplitl [H7]
  · iexists _; isplitr
    swap; · iexact H7
    ipureintro; rw [read_after_store _ _ hz2]
    simp only [load_whole (sh := S512x1) _ _ hz2, load_whole (sh := S512x1024) _ _ hz2]
    rfl
  iexists _; isplitr
  swap; · iexact H8
  ipureintro; rw [read_after_store _ _ hz2]
  simp only [load_whole (sh := S512x1) _ _ hz2, load_whole (sh := S512x1024) _ _ hz2]
  rfl

set_option maxHeartbeats 1000000 in
/-- A row block's last point: the carried columns are updated, and the two output blocks are stored from the
    updated columns. -/
theorem run1_C (c : Dev nD) (E : Set ℕ) (i : grid1.Coords)
    (arg2 : Memref sig .tc .vmem S512x1024 .bf16) (harg2 : arg2.IsWhole) (arg3 : Memref sig .tc .vmem S512x1024 .bf16) (harg3 : arg3.IsWhole)
    (arg4 : Memref sig .tc .vmem S512x1 .f32) (harg4 : arg4.IsWhole) (arg5 : Memref sig .tc .vmem S512x1 .f32) (harg5 : arg5.IsWhole)
    (arg6 : Memref sig .tc .vmem S512x1 .f32) (harg6 : arg6.IsWhole) (arg7 : Memref sig .tc .vmem S512x1 .f32) (harg7 : arg7.IsWhole)
    (arg8 : Memref sig .tc .vmem S512x1 .f32) (harg8 : arg8.IsWhole)
    (hc0 : ¬cond1_0 i) (hc1 : cond1_1 i) (q k : Vec F S512x1024 .bf16) (s : Scr F) (K : PUnit → sProp 𝕄) :
    iprop(owns (c : Thread nD τ) arg2 fullShare q ∗ owns (c : Thread nD τ) arg3 fullShare k
        ∗ (∃ d, owns (c : Thread nD τ) arg4 fullShare d) ∗ (∃ d, owns (c : Thread nD τ) arg5 fullShare d)
        ∗ owns (c : Thread nD τ) arg6 fullShare s.1 ∗ owns (c : Thread nD τ) arg7 fullShare s.2.1 ∗ owns (c : Thread nD τ) arg8 fullShare s.2.2
        ∗ (iprop(owns (c : Thread nD τ) arg2 fullShare q ∗ owns (c : Thread nD τ) arg3 fullShare k
            ∗ owns (c : Thread nD τ) arg4 fullShare (k1_pay5 (scrStep i q k s).1 (scrStep i q k s).2.1)
            ∗ owns (c : Thread nD τ) arg5 fullShare (scrStep i q k s).2.2
            ∗ owns (c : Thread nD τ) arg6 fullShare (scrStep i q k s).1 ∗ owns (c : Thread nD τ) arg7 fullShare (scrStep i q k s).2.1
            ∗ owns (c : Thread nD τ) arg8 fullShare (scrStep i q k s).2.2) -∗ K ⟨⟩))
      ⊢ wp frame (wpE (defs₀ (F := F)) Variants.none c none) E
          (cc1_kernel i arg2 harg2 arg3 harg3 arg4 harg4 arg5 harg5 arg6 harg6 arg7 harg7 arg8 harg8) K := by
  obtain ⟨s0, s1, s2⟩ := s
  simp only [cc1_kernel_eq_skeleton]; unfold cc1_kernel_skel
  simp only [k1_part1_eq_skeleton]; unfold k1_part1_skel
  unfold owns
  iintro ⟨⟨%f2, %hf2, H2⟩, ⟨%f3, %hf3, H3⟩, ⟨%d4, %f4, -, H4⟩, ⟨%d5, %f5, -, H5⟩, ⟨%f6, %hf6, H6⟩, ⟨%f7, %hf7, H7⟩, ⟨%f8, %hf8, H8⟩, Hk⟩
  obtain rfl := harg2.eq_unread hf2; obtain rfl := harg3.eq_unread hf3
  obtain rfl := harg6.eq_unread hf6; obtain rfl := harg7.eq_unread hf7; obtain rfl := harg8.eq_unread hf8
  sl_exec (disch := first | exact hc0 | exact hc1)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr
    swap; · iexact H4
    ipureintro; rw [read_after_store _ _ hz2]
    sl_unfold_run_names
    simp only [View.readCov_unit_zero (S := S512x1) _ hz2, load_whole (sh := S512x1) _ _ hz2, load_whole (sh := S512x1024) _ _ hz2]
    rfl
  isplitl [H5]
  · iexists _; isplitr
    swap; · iexact H5
    ipureintro; rw [read_after_store _ _ hz2]
    sl_unfold_run_names
    simp only [View.readCov_unit_zero (S := S512x1) _ hz2, load_whole (sh := S512x1) _ _ hz2, load_whole (sh := S512x1024) _ _ hz2]
    rfl
  isplitl [H6]
  · iexists _; isplitr
    swap; · iexact H6
    ipureintro
    sl_unfold_run_names
    rw [read_after_store _ _ hz2]
    simp only [View.readCov_unit_zero (S := S512x1) _ hz2, load_whole (sh := S512x1) _ _ hz2, load_whole (sh := S512x1024) _ _ hz2]
    rfl
  isplitl [H7]
  · iexists _; isplitr
    swap; · iexact H7
    ipureintro
    sl_unfold_run_names
    rw [read_after_store _ _ hz2]
    simp only [View.readCov_unit_zero (S := S512x1) _ hz2, load_whole (sh := S512x1) _ _ hz2, load_whole (sh := S512x1024) _ _ hz2]
    rfl
  iexists _; isplitr
  swap; · iexact H8
  ipureintro
  sl_unfold_run_names
  rw [read_after_store _ _ hz2]
  simp only [View.readCov_unit_zero (S := S512x1) _ hz2, load_whole (sh := S512x1) _ _ hz2, load_whole (sh := S512x1024) _ _ hz2]
  rfl

/-! ## The schedule at a point -/

/-- Each window's current staging memref at point `t`, as the pipeline passes it to the body, and its wholeness. -/
abbrev ms1_0 (t : Fin cfg1.N) : Memref sig .tc .vmem S512x1024 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S512x1024 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S512x1 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S512x1 .f32 := win1_3.stage (cfg1.slots t 3)
abbrev hs1_3 (t : Fin cfg1.N) : (ms1_3 t).IsWhole := hstage1_3 ((cfg1.slots t 3).cast nbuf1_3)

/-- The input windows are never idle. -/
theorem liveAt1_0 (t : Fin cfg1.N) : cfg1.idle 0 (grid1.coords t) = false := rfl
theorem liveAt1_1 (t : Fin cfg1.N) : cfg1.idle 1 (grid1.coords t) = false := rfl

/-- The output windows are idle exactly off a row block's last column block. -/
theorem idleAt1_2 : ∀ t : Fin cfg1.N, ¬t.val % 16 = 15 → cfg1.idle 2 (grid1.coords t) = true :=
  (by decide +kernel : ∀ t : Fin grid1.N, ¬t.val % 16 = 15 → idle1 2 (grid1.coords t) = true)
theorem idleAt1_3 : ∀ t : Fin cfg1.N, ¬t.val % 16 = 15 → cfg1.idle 3 (grid1.coords t) = true :=
  (by decide +kernel : ∀ t : Fin grid1.N, ¬t.val % 16 = 15 → idle1 3 (grid1.coords t) = true)
theorem liveAt1_2 : ∀ t : Fin cfg1.N, t.val % 16 = 15 → cfg1.idle 2 (grid1.coords t) = false :=
  (by decide +kernel : ∀ t : Fin grid1.N, t.val % 16 = 15 → idle1 2 (grid1.coords t) = false)
theorem liveAt1_3 : ∀ t : Fin cfg1.N, t.val % 16 = 15 → cfg1.idle 3 (grid1.coords t) = false :=
  (by decide +kernel : ∀ t : Fin grid1.N, t.val % 16 = 15 → idle1 3 (grid1.coords t) = false)

/-- Off it they are not written back either. -/
theorem noFlush1_2 (t : Fin cfg1.N) (h : ¬t.val % 16 = 15) : (cfg1.win 2).flush t = false :=
  Bool.eq_false_iff.mpr fun hf => h ((flush1_2 t).mp hf)
theorem noFlush1_3 (t : Fin cfg1.N) (h : ¬t.val % 16 = 15) : (cfg1.win 3).flush t = false :=
  Bool.eq_false_iff.mpr fun hf => h ((flush1_3 t).mp hf)

/-- An input block stays in its staging buffer: at every point the body finds the array's block there, fetched
    at that point or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The carried columns point by point -/

/-- At a row block's first point the carried columns are the update of the reset ones. -/
theorem scrAt_first (c : Dev nD) (t : Fin cfg1.N) (h : t.val % 16 = 0) :
    scrAt V c t.val t.isLt = scrStep (grid1.coords t) (iblk1 V c 0 t) (iblk1 V c 1 t) scrInit := by
  obtain ⟨n, hn⟩ := t
  cases n with
  | zero => rfl
  | succ n =>
    show scrStep _ _ _ (if (n + 1) % 16 = 0 then scrInit else scrAt V c n _) = _
    rw [if_pos h]

/-- At any other point they are the update of what the point before left. -/
theorem scrAt_later (c : Dev nD) (t : Fin cfg1.N) (h : ¬t.val % 16 = 0) :
    scrAt V c t.val t.isLt = scrStep (grid1.coords t) (iblk1 V c 0 t) (iblk1 V c 1 t)
      (scrAt V c (t.val - 1) (Nat.lt_of_le_of_lt (Nat.sub_le _ _) t.isLt)) := by
  obtain ⟨n, hn⟩ := t
  cases n with
  | zero => exact absurd (Nat.zero_mod _) h
  | succ n =>
    show scrStep _ _ _ (if (n + 1) % 16 = 0 then scrInit else scrAt V c n _) = _
    rw [if_neg h]; rfl

/-! ## The invariant, unfolded -/

/-- The launch's invariant hands out the carried columns as memrefs owned at some contents, -/
theorem PhiA1_open (c : Dev nD) :
    (Pipeline.ΦA spec1 c : sProp 𝕄)
      ⊢ iprop(rest1 (F := F) c ∗ (∃ d, owns (c : Thread nD τ) scM0 fullShare d) ∗ (∃ d, owns (c : Thread nD τ) scM1 fullShare d)
          ∗ (∃ d, owns (c : Thread nD τ) scM2 fullShare d) ∗ (∃ r, prngReg c r)) := by
  unfold Pipeline.ΦA rest1; rw [scopedRest1_eq]; simp only [scM0, scM1, scM2, owns_whole]
  iintro ⟨⟨A, B, C, D, S0, S1, S2⟩, Hg⟩
  isplitl [A B C D]
  · isplitl [A]; · iexact A
    isplitl [B]; · iexact B
    isplitl [C]; · iexact C
    iexact D
  isplitl [S0]; · iexact S0
  isplitl [S1]; · iexact S1
  isplitl [S2]; · iexact S2
  iexact Hg

/-- and takes them back so. -/
theorem PhiA1_close (c : Dev nD) :
    iprop(rest1 (F := F) c ∗ (∃ d, owns (c : Thread nD τ) scM0 fullShare d) ∗ (∃ d, owns (c : Thread nD τ) scM1 fullShare d)
          ∗ (∃ d, owns (c : Thread nD τ) scM2 fullShare d) ∗ (∃ r, prngReg c r))
      ⊢ (Pipeline.ΦA spec1 c : sProp 𝕄) := by
  unfold Pipeline.ΦA rest1; rw [scopedRest1_eq]; simp only [scM0, scM1, scM2, owns_whole]
  iintro ⟨⟨A, B, C, D⟩, S0, S1, S2, Hg⟩
  isplitr [Hg]
  · isplitl [A]; · iexact A
    isplitl [B]; · iexact B
    isplitl [C]; · iexact C
    isplitl [D]; · iexact D
    isplitl [S0]; · iexact S0
    isplitl [S1]; · iexact S1
    iexact S2
  iexact Hg

theorem PhiS_zero (c : Dev nD) (n : ℕ) (h : n ≤ cfg1.N) (hz : n = 0) : PhiS V c n h = Pipeline.ΦA spec1 c := by
  subst hz; rfl

/-- After point `n` (before point `n + 1`): the carried columns at that point's contents. -/
theorem PhiS_succ (c : Dev nD) (n : ℕ) (hn : n < cfg1.N) :
    PhiS V c (n + 1) hn = iprop(rest1 (F := F) c ∗ owns (c : Thread nD τ) scM0 fullShare (scrAt V c n hn).1 ∗ owns (c : Thread nD τ) scM1 fullShare (scrAt V c n hn).2.1
      ∗ owns (c : Thread nD τ) scM2 fullShare (scrAt V c n hn).2.2 ∗ (∃ r, prngReg c r)) := rfl

/-- Before a point that is not the first: the carried columns at what the point before left. -/
theorem PhiS_pos (c : Dev nD) (n : ℕ) (h : n ≤ cfg1.N) (hz : n ≠ 0) :
    PhiS V c n h = iprop(rest1 (F := F) c ∗ owns (c : Thread nD τ) scM0 fullShare (scrAt V c (n - 1) (by omega)).1 ∗ owns (c : Thread nD τ) scM1 fullShare (scrAt V c (n - 1) (by omega)).2.1
      ∗ owns (c : Thread nD τ) scM2 fullShare (scrAt V c (n - 1) (by omega)).2.2 ∗ (∃ r, prngReg c r)) := by
  cases n with
  | zero => exact absurd rfl hz
  | succ n => rfl

/-- Before any point the invariant holds the carried columns at some contents. -/
theorem PhiS_weak (c : Dev nD) (n : ℕ) (h : n ≤ cfg1.N) :
    PhiS V c n h ⊢ iprop(rest1 (F := F) c ∗ (∃ d, owns (c : Thread nD τ) scM0 fullShare d) ∗ (∃ d, owns (c : Thread nD τ) scM1 fullShare d)
          ∗ (∃ d, owns (c : Thread nD τ) scM2 fullShare d) ∗ (∃ r, prngReg c r)) := by
  by_cases hz : n = 0
  · rw [PhiS_zero V c n h hz]; exact PhiA1_open c
  · rw [PhiS_pos V c n h hz]
    iintro ⟨HR, H0, H1, H2, Hg⟩
    isplitl [HR]; · iexact HR
    isplitl [H0]; · iexists _; iexact H0
    isplitl [H1]; · iexists _; iexact H1
    isplitl [H2]; · iexists _; iexact H2
    iexact Hg

/-- The invariant at a point's start, restated at `t.val`. -/
theorem PhiS_castSucc (c : Dev nD) (t : Fin cfg1.N) :
    (dat1 V c).Φ t.castSucc = PhiS V c t.val (Nat.le_of_lt t.isLt) := by
  dsimp only [dat1]; simp only [Fin.coe_castSucc]

/-! ## The body obligation, at a generic point -/

theorem leaves1_0 (c : Dev nD) (t : Fin cfg1.N) :
    (dat1 V c).leavesExact 0 t = owns (c : Thread nD τ) (ms1_0 t) fullShare (iblk1 V c 0 t) := by
  rw [show (dat1 V c).leavesExact 0 t = owns (c : Thread nD τ) (ms1_0 t) fullShare ((dat1 V c).after 0 t) from by
    unfold Dat.leavesExact; rw [liveAt1_0 t], after1_0]
theorem leaves1_1 (c : Dev nD) (t : Fin cfg1.N) :
    (dat1 V c).leavesExact 1 t = owns (c : Thread nD τ) (ms1_1 t) fullShare (iblk1 V c 1 t) := by
  rw [show (dat1 V c).leavesExact 1 t = owns (c : Thread nD τ) (ms1_1 t) fullShare ((dat1 V c).after 1 t) from by
    unfold Dat.leavesExact; rw [liveAt1_1 t], after1_1]

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ (dat1 V c).leavesExact 0 t ∗ (dat1 V c).leavesExact 1 t ∗ (dat1 V c).leavesExact 2 t ∗ (dat1 V c).leavesExact 3 t)

set_option maxHeartbeats 4000000 in
/-- The body at any point. The inputs' memrefs hold their blocks; the point's place in its row block says which of the
    three runs applies; the invariant hands the body the carried columns (at what the point before left, or at anything
    where they are reset) and takes them back at this point's contents; an output window idle at the point goes back as
    it came. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = PhiS V c (t.val + 1) t.isLt from rfl, PhiS_succ]
  rw [leaves1_0, leaves1_1, PhiS_castSucc]
  have hN : t.val < 256 := lt_of_lt_of_eq t.isLt (show cfg1.N = 256 from N_1)
  by_cases h0 : t.val % 16 = 0
  · have h1 : ¬t.val % 16 = 15 := by omega
    rw [Dat.leavesExact_idle (dat1 V c) 2 t (idleAt1_2 t h1) (noFlush1_2 t h1),
      Dat.leavesExact_idle (dat1 V c) 3 t (idleAt1_3 t h1) (noFlush1_3 t h1)]
    rw [scrAt_first V c t h0]
    refine (sep_mono (PhiS_weak V c _ _) .rfl).trans ?_
    iintro ⟨⟨HR, HS0, HS1, HS2, Hg⟩, Ho, ⟨%d0, H0⟩, ⟨%d1, H1⟩, H2, H3⟩
    iapply (run1_A c Set.univ (grid1.coords t) (ms1_0 t) (hs1_0 t) (ms1_1 t) (hs1_1 t) (ms1_2 t) (hs1_2 t) (ms1_3 t) (hs1_3 t)
      scM0 (Memref.isWhole_whole _) scM1 (Memref.isWhole_whole _) scM2 (Memref.isWhole_whole _)
      ((hcond1_0 t).mpr h0) (fun h => h1 ((hcond1_1 t).mp h)) (iblk1 V c 0 t) (iblk1 V c 1 t) _)
    isplitl [H0]; · iexact H0
    isplitl [H1]; · iexact H1
    isplitl [HS0]; · iexact HS0
    isplitl [HS1]; · iexact HS1
    isplitl [HS2]; · iexact HS2
    iintro ⟨H0, H1, HS0, HS1, HS2⟩
    isplitl [HR HS0 HS1 HS2 Hg]
    · isplitl [HR]; · iexact HR
      isplitl [HS0]; · iexact HS0
      isplitl [HS1]; · iexact HS1
      isplitl [HS2]; · iexact HS2
      iexact Hg
    isplitl [Ho]; · iexact Ho
    isplitl [H0]; · iexact H0
    isplitl [H1]; · iexact H1
    isplitl [H2]; · iexact H2
    iexact H3
  · have hz : t.val ≠ 0 := fun e => h0 (by rw [e])
    by_cases h1 : t.val % 16 = 15
    · rw [show (dat1 V c).leavesExact 2 t = owns (c : Thread nD τ) (ms1_2 t) fullShare ((dat1 V c).after 2 t) from by
        unfold Dat.leavesExact; rw [liveAt1_2 t h1], after1_2]
      rw [show (dat1 V c).leavesExact 3 t = owns (c : Thread nD τ) (ms1_3 t) fullShare ((dat1 V c).after 3 t) from by
        unfold Dat.leavesExact; rw [liveAt1_3 t h1], after1_3]
      rw [scrAt_later V c t h0, PhiS_pos V c _ _ hz]
      iintro ⟨⟨HR, HS0, HS1, HS2, Hg⟩, Ho, ⟨%d0, H0⟩, ⟨%d1, H1⟩, ⟨%d2, H2⟩, ⟨%d3, H3⟩⟩
      iapply (run1_C c Set.univ (grid1.coords t) (ms1_0 t) (hs1_0 t) (ms1_1 t) (hs1_1 t) (ms1_2 t) (hs1_2 t) (ms1_3 t) (hs1_3 t)
        scM0 (Memref.isWhole_whole _) scM1 (Memref.isWhole_whole _) scM2 (Memref.isWhole_whole _)
        (fun h => h0 ((hcond1_0 t).mp h)) ((hcond1_1 t).mpr h1) (iblk1 V c 0 t) (iblk1 V c 1 t)
        (scrAt V c (t.val - 1) (Nat.lt_of_le_of_lt (Nat.sub_le _ _) t.isLt)) _)
      isplitl [H0]; · iexact H0
      isplitl [H1]; · iexact H1
      isplitl [H2]; · iexists _; iexact H2
      isplitl [H3]; · iexists _; iexact H3
      isplitl [HS0]; · iexact HS0
      isplitl [HS1]; · iexact HS1
      isplitl [HS2]; · iexact HS2
      iintro ⟨H0, H1, H2, H3, HS0, HS1, HS2⟩
      isplitl [HR HS0 HS1 HS2 Hg]
      · isplitl [HR]; · iexact HR
        isplitl [HS0]; · iexact HS0
        isplitl [HS1]; · iexact HS1
        isplitl [HS2]; · iexact HS2
        iexact Hg
      isplitl [Ho]; · iexact Ho
      isplitl [H0]; · iexact H0
      isplitl [H1]; · iexact H1
      isplitl [H2]; · iexact H2
      iexact H3
    · rw [Dat.leavesExact_idle (dat1 V c) 2 t (idleAt1_2 t h1) (noFlush1_2 t h1),
        Dat.leavesExact_idle (dat1 V c) 3 t (idleAt1_3 t h1) (noFlush1_3 t h1)]
      rw [scrAt_later V c t h0, PhiS_pos V c _ _ hz]
      iintro ⟨⟨HR, HS0, HS1, HS2, Hg⟩, Ho, ⟨%d0, H0⟩, ⟨%d1, H1⟩, H2, H3⟩
      iapply (run1_B c Set.univ (grid1.coords t) (ms1_0 t) (hs1_0 t) (ms1_1 t) (hs1_1 t) (ms1_2 t) (hs1_2 t) (ms1_3 t) (hs1_3 t)
        scM0 (Memref.isWhole_whole _) scM1 (Memref.isWhole_whole _) scM2 (Memref.isWhole_whole _)
        (fun h => h0 ((hcond1_0 t).mp h)) (fun h => h1 ((hcond1_1 t).mp h)) (iblk1 V c 0 t) (iblk1 V c 1 t)
        (scrAt V c (t.val - 1) (Nat.lt_of_le_of_lt (Nat.sub_le _ _) t.isLt)) _)
      isplitl [H0]; · iexact H0
      isplitl [H1]; · iexact H1
      isplitl [HS0]; · iexact HS0
      isplitl [HS1]; · iexact HS1
      isplitl [HS2]; · iexact HS2
      iintro ⟨H0, H1, HS0, HS1, HS2⟩
      isplitl [HR HS0 HS1 HS2 Hg]
      · isplitl [HR]; · iexact HR
        isplitl [HS0]; · iexact HS0
        isplitl [HS1]; · iexact HS1
        isplitl [HS2]; · iexact HS2
        iexact Hg
      isplitl [Ho]; · iexact Ho
      isplitl [H0]; · iexact H0
      isplitl [H1]; · iexact H1
      isplitl [H2]; · iexact H2
      iexact H3

/-- What the launch hands the region is the invariant before the first point. -/
theorem hin1 (c : Dev nD) : Pipeline.ΦA spec1 c ⊢ (dat1 V c).Φ 0 := by
  rw [show (dat1 V c).Φ 0 = PhiS V c 0 (Nat.zero_le _) from rfl, PhiS_zero V c 0 _ rfl]
  try exact Idealize.SL.BI.Entails.refl _

/-- The invariant after the last point gives the scoped buffers back at anything. -/
theorem hout1 (c : Dev nD) : (dat1 V c).Φ (Fin.last cfg1.N) ⊢ Pipeline.ΦA spec1 c := by
  rw [show (dat1 V c).Φ (Fin.last cfg1.N) = PhiS V c (Fin.last cfg1.N).val (Nat.le_of_lt_succ (Fin.last cfg1.N).isLt) from rfl]
  exact (PhiS_weak V c _ _).trans (PhiA1_close c)

/-- The library's body obligation, at every point. -/
theorem body_obligation1 (c : Dev nD) : BodyObligation (dat1 (F := F) V c) (defs₀ (F := F)) Variants.none () Set.univ := fun t => by
  rw [bigSep_W1, bigSep_W1]
  exact sound_body1 V c t

end Region1

end Cert.Kernel.Hand

end
-- ==== Proof.Kernel.RunMain.lean ====
/-
  The whole program's run, at any float instance: the first region from the launch contents, the second from what
  the first leaves, then the host operations that reduce the two result columns to the scalar. The buffers'
  contents between the items are named (`W0` … `W3`), so that the final memory is read off the last of them.
-/
import proofs.«164746_j32564442038466_1_alg».proof.Proof.Gen.Kernel.Launch
import proofs.«164746_j32564442038466_1_alg».proof.Proof.Gen.Kernel.Skeleton
import proofs.«164746_j32564442038466_1_alg».proof.Proof.Gen.Kernel.Points
import proofs.«164746_j32564442038466_1_alg».proof.Proof.Gen.Kernel.Regions
import proofs.«164746_j32564442038466_1_alg».proof.Proof.Kernel.R0
import proofs.«164746_j32564442038466_1_alg».proof.Proof.Kernel.R1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents between the items -/

/-- At launch. -/
abbrev W0 : Dev nD → Valuation τ sig (Elt F) := fun c b => m (c, b)
/-- The same read at the TensorCore's references: what the first region's proof data take. -/
abbrev VA : (c : Dev nD) → (b : Ref sig .tc) → Buf (Elt F) ((c : Thread nD τ).loc b) := fun c b => W0 m c b

/-- After the first region: its arrays at what its write-backs leave, every other buffer as launched. -/
def W1 (c : Dev nD) : Valuation τ sig (Elt F) :=
  Pipeline.withArrays spec0 c (W0 m c) fun w => (dat0 (VA m) c).arrAt w cfg0.N
theorem W1_arr (c : Dev nD) (w : Fin cfg0.W) :
    W1 m c (Proc.devRef .tc (Pipeline.arrRef spec0 w)) = (dat0 (VA m) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m c (Proc.devRef .tc b) = W0 m c (Proc.devRef .tc b) := by
  unfold W1; exact Pipeline.withArrays_of_ne spec0 c _ _ b hb
/-- The same read at the TensorCore's references: what the second region's proof data take. -/
abbrev VB : (c : Dev nD) → (b : Ref sig .tc) → Buf (Elt F) ((c : Thread nD τ).loc b) := fun c b => W1 m c b
theorem hF0 (c : Dev nD) (w : Fin cfg0.W) : (dat0 (VA m) c).arrAt w cfg0.N = VB m c (Pipeline.arrRef spec0 w) :=
  (W1_arr m c w).symm
theorem hrest0 (c : Dev nD) : ∀ b, b ∉ Finset.univ.image (Pipeline.arrRef spec0) → VB m c b = VA m c b :=
  fun b hb => W1_of_ne m c b fun w e => hb (Finset.mem_image.mpr ⟨w, Finset.mem_univ _, e⟩)

/-- After the second region: its two result columns at what its write-backs leave, every other buffer as it was. -/
def W2 (c : Dev nD) : Valuation τ sig (Elt F) :=
  Function.update (Function.update (W1 m c) (Proc.devRef .tc main_v1_0) ((dat1 (VB m) c).arrAt 2 cfg1.N))
    (Proc.devRef .tc main_v1_1) ((dat1 (VB m) c).arrAt 3 cfg1.N)
abbrev VC : (c : Dev nD) → (b : Ref sig .tc) → Buf (Elt F) ((c : Thread nD τ).loc b) := fun c b => W2 m c b
/-- After the host operations. -/
abbrev W3 : Dev nD → Valuation τ sig (Elt F) := fun c => StableHlo.after hostOps2 (W2 m c)

/-! ## The proof data family and the thread state -/

abbrev adm : (p : Fin 2) → (pcfgs (F := F) p).Adm := fun p => (cfgs p).toPCfg_adm
/-- Every region's proof data, each at its entry contents. -/
def pdats : (p : Fin 2) → (c : Dev nD) → Dat τ (Elt F) Unit ℕ (UR sig nD τ) ℕ (Pipeline.pin (pcfgs (F := F)) adm p) c
  | ⟨0, _⟩ => fun c => dat0 (VA m) c
  | ⟨1, _⟩ => fun c => dat1 (VB m) c
abbrev 𝒱₀ : Variants := Variants.none
abbrev L : GSem nD τ sig → Finset Unit := fun _ => ∅
abbrev lv : GSem nD τ sig → Unit → ℕ := fun _ _ => 0
/-- What rides beside the buffers: the generator register at some state and the core owing nothing. -/
abbrev R (c : Dev nD) : sProp 𝕄 := iprop((∃ r, prngReg c r) ∗ ∃ W, owes (c : Thread nD τ) (0 : CellTallies nD τ sig Unit) W)

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## The regions as segments -/

set_option backward.isDefEq.respectTransparency.types false in
/-- The first region: entered from the launch contents, left at `W1`. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (VA m) c).loose
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W1 m c) ∗ R c)
  X c := iprop(∃ r, prngReg c r)
  Y c := iprop(∃ r, prngReg c r)
  Z c := Pipeline.unscopedRest (Ix := Unit) (Name := ℕ) (U := UR sig nD τ) (Lvl := ℕ) spec0 c (VA m c)
  hentry c := by
    rw [Pipeline.ownSems0_none]
    have hsplit := Pipeline.arrays_of_unscopedBufs (p := 0) (pcfgs (F := F)) adm (pdats m) launch0.win launch0.arr_whole c
      ((pdats m 0 c).share_full fun _ => rfl) (VA m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (VA m c) (VB m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The second region's arrays: two of its windows read one array -/

/-- The distinct buffers behind the second region's windows. -/
theorem image_arr1 : Finset.univ.image (Pipeline.arrRef spec1) = ([main_v0, main_v1_0, main_v1_1] : List (Ref sig .tc)).toFinset := by decide

/-- They are three: the normalized rows (read by both input windows) and the two result columns. -/
theorem arrBufs1_eq (c : Dev nD) (V : (b : Ref sig .tc) → Buf (Elt F) ((c : Thread nD τ).loc b)) :
    (Pipeline.arrBufs (Ix := Unit) (Name := ℕ) (U := UR sig nD τ) (Lvl := ℕ) spec1 c V : sProp 𝕄)
      = iprop((((c : Thread nD τ).loc main_v0) ↦{fullShare} V main_v0) ∗ (((c : Thread nD τ).loc main_v1_0) ↦{fullShare} V main_v1_0) ∗ (((c : Thread nD τ).loc main_v1_1) ↦{fullShare} V main_v1_1)) := by
  unfold Pipeline.arrBufs
  exact bigSep_eq_bigSepL_of_eq [main_v0, main_v1_0, main_v1_1] image_arr1 (by decide) _

/-- The second region's arrays at contents `G`, window by window: the shared array at its two half shares. -/
theorem arrays1_eq (c : Dev nD) (G : (w : Fin cfg1.W) → Buf (Elt F) ((cfg1.win w).arr.view.loc (c : Thread nD τ))) :
    ((dat1 (VB m) c).arrays G : sProp 𝕄)
      = iprop((((c : Thread nD τ).loc main_v0) ↦{fullShare.left} G 0) ∗ (((c : Thread nD τ).loc main_v0) ↦{fullShare.right} G 1)
          ∗ (((c : Thread nD τ).loc main_v1_0) ↦{fullShare} G 2) ∗ (((c : Thread nD τ).loc main_v1_1) ↦{fullShare} G 3)) := by
  unfold Dat.arrays
  rw [bigSep_W1, (arr_whole1 0).set_eq_univ, (arr_whole1 2).set_eq_univ, (arr_whole1 3).set_eq_univ]
  rfl

/-- The second region's entry: the shared array split into its two half shares. -/
theorem hsplit1 (c : Dev nD) :
    (Pipeline.arrBufs (Ix := Unit) (Name := ℕ) (U := UR sig nD τ) (Lvl := ℕ) spec1 c (VB m c) : sProp 𝕄)
      ⊢ (dat1 (VB m) c).arrays ((dat1 (VB m) c).arrAt · 0) := by
  rw [arrBufs1_eq, arrays1_eq]
  iintro ⟨H0, H2, H3⟩
  ihave H0' := (pointsTo_share (PosShare.mem_left_op_right fullShare)).1 $$ H0
  icases H0' with ⟨Hl, Hr⟩
  isplitl [Hl]; · iexact Hl
  isplitl [Hr]; · iexact Hr
  isplitl [H2]; · iexact H2
  iexact H3

theorem VC_v0 (c : Dev nD) : VC m c main_v0 = VB m c main_v0 := by
  show W2 m c _ = _; unfold W2
  rw [Function.update_of_ne (StableHlo.devRef_ne_of_ne (by decide)), Function.update_of_ne (StableHlo.devRef_ne_of_ne (by decide))]
theorem VC_v1_0 (c : Dev nD) : VC m c main_v1_0 = (dat1 (VB m) c).arrAt 2 cfg1.N := by
  show W2 m c _ = _; unfold W2
  rw [Function.update_of_ne (StableHlo.devRef_ne_of_ne (by decide)), Function.update_self]
theorem VC_v1_1 (c : Dev nD) : VC m c main_v1_1 = (dat1 (VB m) c).arrAt 3 cfg1.N := by
  show W2 m c _ = _; unfold W2
  rw [Function.update_self]
/-- Off the two result columns the second region changes nothing. -/
theorem VC_of (c : Dev nD) (b : Ref sig .tc) (h : b ∉ ([main_v1_0, main_v1_1] : List (Ref sig .tc))) : VC m c b = VB m c b := by
  show W2 m c _ = _; unfold W2
  rw [Function.update_of_ne (StableHlo.devRef_ne_of_ne (List.ne_of_not_mem_cons (List.not_mem_of_not_mem_cons h))),
    Function.update_of_ne (StableHlo.devRef_ne_of_ne (List.ne_of_not_mem_cons h))]

/-- The second region's exit: the shared array's two half shares joined again (both windows leave it as entered),
    the result columns at what the write-backs leave. -/
theorem hjoin1 (c : Dev nD) :
    ((dat1 (VB m) c).arrays ((dat1 (VB m) c).arrAt · cfg1.N) : sProp 𝕄)
      ⊢ Pipeline.arrBufs (Ix := Unit) (Name := ℕ) (U := UR sig nD τ) (Lvl := ℕ) spec1 c (VC m c) := by
  rw [arrBufs1_eq, arrays1_eq]
  rw [show (dat1 (VB m) c).arrAt 0 cfg1.N = VB m c main_v0 from ((dat1 (VB m) c).arrAt_in 0 rfl _).trans (A_eq1 (VB m) c 0),
    show (dat1 (VB m) c).arrAt 1 cfg1.N = VB m c main_v0 from ((dat1 (VB m) c).arrAt_in 1 rfl _).trans (A_eq1 (VB m) c 1),
    VC_v0, VC_v1_0, VC_v1_1]
  iintro ⟨Hl, Hr, H2, H3⟩
  isplitl [Hl Hr]
  · iapply (pointsTo_share (PosShare.mem_left_op_right fullShare)).2
    isplitl [Hl] <;> iassumption
  isplitl [H2]; · iexact H2
  iexact H3

/-- Off its three arrays the second region changes nothing. -/
theorem rest1_congr (c : Dev nD) :
    (Pipeline.unscopedRest (Ix := Unit) (Name := ℕ) (U := UR sig nD τ) (Lvl := ℕ) spec1 c (VB m c) : sProp 𝕄)
      = Pipeline.unscopedRest (Ix := Unit) (Name := ℕ) (U := UR sig nD τ) (Lvl := ℕ) spec1 c (VC m c) := by
  rw [unscopedRest1_eq, unscopedRest1_eq, VC_of m c main_arg0 (by decide), VC_of m c main_v2 (by decide), VC_of m c main_cst (by decide),
    VC_of m c main_v3 (by decide), VC_of m c main_cst_0 (by decide), VC_of m c main_v4 (by decide), VC_of m c main_v5 (by decide)]

set_option backward.isDefEq.respectTransparency.types false in
/-- The second region: entered from `W1`, left at `W2`. -/
def reg1 : Pipeline.RegionSeg (pcfgs (F := F)) adm (pdats m) () defs₀ 𝒱₀ L lv 1 where
  win := winFacts₀1
  block_pos := block_pos1
  stage_whole := stage_whole1
  K := PEmpty
  osem k := k.elim
  ho := Pipeline.OwnSemFacts.none _
  hbody c := (body_obligation1 (VB m) c).loose
  hwaits := Pipeline.hwaits_of_owed_zero _ _ _ _ L lv 1 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec1 c (VB m c)
  hentry c := by
    rw [Pipeline.ownSems0_none]
    have hsplit : (unscopedBufs c (VB m c) : sProp 𝕄)
        ⊢ iprop((pdats m 1 c).arrays ((pdats m 1 c).arrAt · 0) ∗ Pipeline.unscopedRest (Ix := Unit) (Name := ℕ) (U := UR sig nD τ) (Lvl := ℕ) spec1 c (VB m c)) := by
      rw [Pipeline.unscopedBufs_split₀ (cfgs := cfgs) (p := 1) winFacts₀1.arr_unscoped c (VB m c)]
      exact sep_mono (hsplit1 m c) .rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (show _ ⊢ (Pipeline.ΦA spec1 c : sProp 𝕄) from ?_).trans (hin1 (VB m) c)
    unfold Pipeline.ΦA
    iintro ⟨Hp, -, Hr⟩
    isplitl [Hr]; · iexact Hr
    iexact Hp
  hout c := by
    rw [Pipeline.ownSems0_none]
    refine (hout1 (VB m) c).trans ?_
    unfold Pipeline.ΦA
    iintro ⟨Hr, Hp⟩
    isplitl [Hp]; · iexact Hp
    isplitr; · iempintro
    iexact Hr
  hexit c := by
    have hjoin : iprop((pdats m 1 c).arrays ((pdats m 1 c).arrAt · cfg1.N) ∗ Pipeline.unscopedRest (Ix := Unit) (Name := ℕ) (U := UR sig nD τ) (Lvl := ℕ) spec1 c (VB m c))
        ⊢ (unscopedBufs c (VC m c) : sProp 𝕄) := by
      rw [Pipeline.unscopedBufs_split₀ (cfgs := cfgs) (p := 1) winFacts₀1.arr_unscoped c (VC m c), rest1_congr]
      exact sep_mono (hjoin1 m c) .rfl
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- The host operations after the regions as a segment over the unscoped references from `W2`. -/
abbrev hseg2 : Pipeline.HostSeg (Name := ℕ) (U := UR sig nD τ) (pcfgs (F := F)) defs₀ 𝒱₀ L lv :=
  Pipeline.HostSeg.ofOps _ _ _ _ _ (Pipeline.ucRefs τ sig) hostOps2
    (fun op h => Pipeline.sub_ucRefs op ((List.forall_iff_forall_mem.mp hostOps2_sub) op h))
    (fun op h => (List.forall_iff_forall_mem.mp hostOps2_fresh) op h) (W2 m) R

/-- @main's three items in order. -/
abbrev segs : List (Pipeline.Seg (pcfgs (F := F)) adm (pdats m) () defs₀ 𝒱₀ L lv) :=
  [ .region (reg0 m), .region (reg1 m), .host (hseg2 m) ]

theorem main_run (c : Dev nD) : main (F := F) c = Pipeline.Seg.run (segs m) := (main_chain c).trans (by chain_rfl)

/-- The last thread state without the `owes`. -/
abbrev Tₙ (c : Dev nD) : sProp 𝕄 := iprop(StableHlo.held (c : Thread nD τ) (Pipeline.ucRefs τ sig) (W3 m c) ∗ ∃ r, prngReg c r)

set_option backward.isDefEq.respectTransparency.types false in
/-- THE RUN: from any memory with zero counters every weakly fair execution of @main terminates, nothing faulting,
    and every final memory holds every unscoped buffer at the last boundary's contents `W3`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W3 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun c => by
      show iprop(StableHlo.held (c : Thread nD τ) (Pipeline.ucRefs τ sig) (W3 m c) ∗ R c) ⊢ _
      iintro ⟨Hh, Hp, HO⟩
      isplitl [Hh Hp]
      · isplitl [Hh] <;> iassumption
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m c b)
    (hfin := fun c s' => by
      iintro ⟨⟨Hh, -⟩, HSI⟩
      unfold StableHlo.held
      imodintro
      iapply (pointsTo_read_all (Pipeline.ucRefs τ sig) (fun b => (((c : Thread nD τ)).1, b)) (W3 m c) s')
      isplitl [Hh] <;> iassumption)
    (hQ := fun s h c => h c)

/-! ## What the run says of the result and of the argument -/

/-- The argument array reaches the end as launched: no host operation writes it and both regions only read it. -/
theorem W3_main_arg0 (c : Dev nD) : W3 m c (Proc.devRef .tc main_arg0) = m ((c : Thread nD τ).loc main_arg0) :=
  calc W3 m c (Proc.devRef .tc main_arg0)
    _ = W2 m c (Proc.devRef .tc main_arg0) := StableHlo.after_of_writes_sub hostOps2 _ hostOps2_writes (by decide)
    _ = W1 m c (Proc.devRef .tc main_arg0) := VC_of m c main_arg0 (by decide)
    _ = W0 m c (Proc.devRef .tc main_arg0) := (W1_arr m c 0).trans (((dat0 (VA m) c).arrAt_in 0 rfl _).trans (A_eq0 (VA m) c 0))
    _ = m ((c : Thread nD τ).loc main_arg0) := rfl

/-- THE RUN, read at the result and at the argument. -/
theorem run_main : θ_run defs (onTc (τ := τ) (main (F := F))) ⟨m, fun _ => 0, ρ⟩ (fun r => ∀ c : Dev nD,
      r.2.mem ((c.tc : Thread nD τ).loc main_v5) = W3 m c (Proc.devRef .tc main_v5)
      ∧ r.2.mem ((c.tc : Thread nD τ).loc main_arg0) = m ((c.tc : Thread nD τ).loc main_arg0)) :=
  (θ_run defs _ _).mono (fun r h c => ⟨h c _ (mem_uc main_v5 (by decide)), (h c _ (mem_uc main_arg0 (by decide))).trans (W3_main_arg0 m c)⟩)
    (run_all m ρ)

/-- THE FRAME: the program runs to the end, faults nowhere, and leaves its argument as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  (θ_run defs _ _).mono (fun r h c => (h c).2) (run_main m ρ)

end Cert.Kernel.Hand

end
-- ==== Proof.KernelIdeal.R0.lean ====
/-
  The row-normalizing region (the program's first kernel), at any float instance and at a parameter `V`:
  the buffers' contents when the region is entered. Each grid point loads its 1024 × 1024 block of the input
  rows, and stores, over the whole output block, every entry divided by its row's clamped norm. The block
  after the body is therefore one pure function (`out0_1`) of the input block; the proof data `dat0` say so
  at every point, and the body's run proves it.
-/
import proofs.«164746_j32564442038466_1_alg».proof.Proof.Gen.KernelIdeal.Launch
import proofs.«164746_j32564442038466_1_alg».proof.Proof.Gen.KernelIdeal.Skeleton
import proofs.«164746_j32564442038466_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

section Region0

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input block stays in its staging buffer: at every point the body finds the array's block there. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The whole 1024 × 1024 block as one rectangle. -/
abbrev r0_0 : Rect S1024x1024 := Rect.unit (s := S1024x1024) ![0, 0] S1024x1024.size inb_S1024x1024_S1024x1024_0_0

/-- The output block after the body: the one store's payload over the input block. -/
def out0_1 (x0 : Vec F S1024x1024 .f32) : Vec F S1024x1024 .bf16 :=
  View.canon [⟨r0_0, k0_pay1 (View.ld x0 r0_0)⟩]

/-- The one store covers the block. -/
theorem cover0_1 (p0 : Vec F S1024x1024 .bf16) (y : S1024x1024.Idx) :
    ∃ pc ∈ ([⟨r0_0, p0⟩] : List (View.Piece (Elt F) S1024x1024 .bf16)), y ∈ pc.1.set :=
  View.cover_of_tiled [⟨r0_0, p0⟩] S1024x1024.size (by rfl) y

set_option maxHeartbeats 1000000 in
/-- The body's triple: from the input's staging buffer at `x0` and the output's at anything, to the input's
    unchanged and the output's at `out0_1 x0`. -/
theorem sound_kernel0 (c : Dev nD) (E : Set ℕ) (i : grid0.Coords) (arg1 : Memref sig .tc .vmem S1024x1024 .f32) (harg1 : arg1.IsWhole) (arg2 : Memref sig .tc .vmem S1024x1024 .bf16) (harg2 : arg2.IsWhole)
    (x0 : Vec F S1024x1024 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (out0_1 x0)) -∗ K ⟨⟩))
      ⊢ wp frame (wpE (defs₀ (F := F)) Variants.none c none) E (cc0__normalize_kernel i arg1 harg1 arg2 harg2) K := by
  simp only [cc0__normalize_kernel_eq_skeleton]; unfold cc0__normalize_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover0_1 _)

/-- The proof data of the first region on core `c`. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => out0_1 (iblk0 V c 0 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = out0_1 (iblk0 V c 0 t) := by dsimp only [dat0]

theorem before0_0 (c : Dev nD) (t : Fin cfg0.N) (d) : (dat0 V c).before 0 t d = iblk0 V c 0 t :=
  before0_0_of V (dat0 V c) (A_eq0 V c 0) (after0_0 V c) t d

/-- What the pipeline hands the body at point `t`: the invariant, the core's debts, and each window's
    current staging buffer at what the point finds there. -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d)))

/-- What the body hands back: the same invariant and debts, the input rows untouched, the output buffer at
    the normalized rows. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t))

/-- The body at a point: the input buffer holds the point's rows (`before0_0`), whatever the output buffer
    holds is overwritten whole, and neither the invariant nor the debts are read. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt () t.succ = (dat0 V c).owesAt () t.castSucc from rfl,
    after0_0, after0_1]
  iintro ⟨HΦ, Ho, ⟨%d0, Hin⟩, ⟨%d1, Hout⟩⟩
  iapply (sound_kernel0 c Set.univ _ _ _ _ _ (iblk0 V c 0 t) _)
  isplitl [Hin]; · iexact Hin
  isplitl [Hout]; · iexists _; iexact Hout
  iintro ⟨Hin, Hout⟩
  isplitl [HΦ]; · iexact HΦ
  isplitl [Ho]; · iexact Ho
  isplitl [Hin]; · iexact Hin
  iexact Hout

/-- The library's body obligation, at every point. -/
theorem body_obligation0 (c : Dev nD) : BodyObligation (dat0 (F := F) V c) (defs₀ (F := F)) Variants.none () Set.univ := fun t => by
  rw [bigSep_W0, bigSep_W0]
  exact sound_body0 V c t

end Region0

end Cert.KernelIdeal.Hand

end
-- ==== Proof.KernelIdeal.R1.lean ====
/-
  The similarity region (the program's second kernel), at any float instance and at a parameter `V`: the
  buffers' contents when the region is entered. The grid is 16 row blocks × 16 column blocks, the column block
  innermost. Three scratch columns of 512 entries are carried from point to point: the running row maximum,
  the running sum of exponentials, the running paired logit. At a row block's first column block they are reset
  (to −∞, 0, 0), at every point they are updated from the two input blocks (`scrStep`), and at the row block's
  last column block the two output blocks are stored from them. `scrAt` is what the three hold after each point.
  The body's run is proved three times over arbitrary whole memrefs, once per place of the point in its row block
  (first, inner, last), and the body obligation at a point picks the run by the point's residue modulo 16.
-/
import proofs.«164746_j32564442038466_1_alg».proof.Proof.Gen.KernelIdeal.Launch
import proofs.«164746_j32564442038466_1_alg».proof.Proof.Gen.KernelIdeal.Skeleton
import proofs.«164746_j32564442038466_1_alg».proof.Proof.Gen.KernelIdeal.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

section Region1

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The three carried columns: maximum, sum of exponentials, paired logit. -/
abbrev Scr (F : FTy → Type) := Vec F S512x1 .f32 × Vec F S512x1 .f32 × Vec F S512x1 .f32

/-- What the reset stores: −∞, 0, 0. -/
def scrInit : Scr F := (k1_pay6, k1_pay7, k1_pay8)

/-- One point's update of the carried columns from the row block `q` and the column block `k`. -/
def scrStep (i : grid1.Coords) (q k : Vec F S512x1024 .bf16) (s : Scr F) : Scr F :=
  (k1_pay4 (k1_pay12 i q k) s.1, k1_pay3 (k1_pay12 i q k) s.1 s.1 s.2.1, k1_pay1 (k1_pay13 i q k) s.2.2)

/-- The carried columns after the body at position `n`: the update of the reset columns at a row block's first
    column block, of what the point before left otherwise. -/
def scrAt (c : Dev nD) : (n : ℕ) → n < cfg1.N → Scr F
  | 0, h => scrStep (grid1.coords ⟨0, h⟩) (iblk1 V c 0 ⟨0, h⟩) (iblk1 V c 1 ⟨0, h⟩) scrInit
  | n + 1, h => scrStep (grid1.coords ⟨n + 1, h⟩) (iblk1 V c 0 ⟨n + 1, h⟩) (iblk1 V c 1 ⟨n + 1, h⟩)
      (if (n + 1) % 16 = 0 then scrInit else scrAt c n (Nat.lt_of_succ_lt h))

/-- The scratch buffers. -/
abbrev scM0 : Memref sig .tc .vmem S512x1 .f32 := Memref.whole cc1_scratch0
abbrev scM1 : Memref sig .tc .vmem S512x1 .f32 := Memref.whole cc1_scratch1
abbrev scM2 : Memref sig .tc .vmem S512x1 .f32 := Memref.whole cc1_scratch2

/-- The scoped buffers of the core that are neither this region's staging buffers nor its scratch: the first
    region's staging buffers, each whole at some contents. -/
def rest1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f))

/-- The region's invariant before position `n`: before the first point every scoped buffer at anything; afterwards
    the carried columns at what the point before left. -/
def PhiS (c : Dev nD) : (n : ℕ) → n ≤ cfg1.N → sProp 𝕄
  | 0, _ => Pipeline.ΦA spec1 c
  | n + 1, hn => iprop(rest1 (F := F) c ∗ owns (c : Thread nD τ) scM0 fullShare (scrAt V c n hn).1 ∗ owns (c : Thread nD τ) scM1 fullShare (scrAt V c n hn).2.1
      ∗ owns (c : Thread nD τ) scM2 fullShare (scrAt V c n hn).2.2 ∗ (∃ r, prngReg c r))

/-- The proof data of the second region on core `c`. The two input windows read one array, held at the two
    halves of the full share. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => k1_pay5 (scrAt V c t.val t.isLt).1 (scrAt V c t.val t.isLt).2.1
    | ⟨3, _⟩ => (scrAt V c t.val t.isLt).2.2
  Φ t := PhiS V c t.val (Nat.le_of_lt_succ t.isLt)
  q w := match w with
    | ⟨0, _⟩ => fullShare.left
    | ⟨1, _⟩ => fullShare.right
    | ⟨2, _⟩ => fullShare
    | ⟨3, _⟩ => fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = k1_pay5 (scrAt V c t.val t.isLt).1 (scrAt V c t.val t.isLt).2.1 := by dsimp only [dat1]
theorem after1_3 (c : Dev nD) (t : Fin cfg1.N) : (dat1 V c).after 3 t = (scrAt V c t.val t.isLt).2.2 := by dsimp only [dat1]

/-! ## The two conditions over the grid -/

/-- The test of the reset: the column block is the first. -/
abbrev cond1_0 (i : grid1.Coords) : Prop :=
  (Scalar.cmpi .ne (Scalar.extui (Scalar.cmpi .eq (BitVec.ofNat 32 (i 1).val) 0#32)) 0#32) = 1#1
theorem hcond1_0 : ∀ t : Fin cfg1.N, cond1_0 (grid1.coords t) ↔ t.val % 16 = 0 :=
  (by decide +kernel : ∀ t : Fin grid1.N, cond1_0 (grid1.coords t) ↔ t.val % 16 = 0)

/-- The test of the output stores: the column block is the last. -/
abbrev cond1_1 (i : grid1.Coords) : Prop := k1_cond2 i = 1#1
theorem hcond1_1 : ∀ t : Fin cfg1.N, cond1_1 (grid1.coords t) ↔ t.val % 16 = 15 :=
  (by decide +kernel : ∀ t : Fin grid1.N, cond1_1 (grid1.coords t) ↔ t.val % 16 = 15)

/-! ## Whole-buffer loads and stores -/

theorem hz2 : (![0, 0] : Fin 2 → ℕ) = fun _ => 0 := funext fun a => by fin_cases a <;> rfl

/-- A store through the whole-shape rectangle, made last, is what the buffer reads afterwards. -/
theorem read_after_store {sh : Shape} {e : EltTy} (v : View sig .tc .vmem sh e) (f : v.ty.Contents (Elt F))
    {off : Fin sh.rank → ℕ} (hz : off = fun _ => 0) (inb : ∀ a, off a + sh.size a ≤ sh.size a)
    (w : sh.Idx → Elt F e) (L : List (View.Piece (Elt F) sh e)) :
    v.read (Elt F) (v.writes (Elt F) f (⟨Rect.unit off sh.size inb, w⟩ :: L)) = w := by
  rw [View.read_writes_eq_canon v f _ (fun y => ⟨_, List.mem_cons_self, View.mem_set_unit_zero hz inb y⟩),
    View.canon_cons_unit_zero hz inb w L]

/-- A load through the whole-shape rectangle of a whole buffer reads its contents. -/
theorem load_whole {sh : Shape} {e : EltTy} (M : Memref sig .tc .vmem sh e) (hM : M.IsWhole)
    {off : Fin sh.rank → ℕ} (hz : off = fun _ => 0) (inb : ∀ a, off a + sh.size a ≤ sh.size a) (x : sh.Idx → Elt F e) :
    View.readAt (Elt F) M.view (Rect.unit off sh.size inb).toLoadRect (hM.unread x) = x := by
  rw [View.readAt_eq_ld, hM.read_unread, View.ld_unit_zero hz inb]

set_option maxHeartbeats 1000000 in
/-- A row block's first point: the carried columns, whatever they held, are reset and updated. -/
theorem run1_A (c : Dev nD) (E : Set ℕ) (i : grid1.Coords)
    (arg2 : Memref sig .tc .vmem S512x1024 .bf16) (harg2 : arg2.IsWhole) (arg3 : Memref sig .tc .vmem S512x1024 .bf16) (harg3 : arg3.IsWhole)
    (arg4 : Memref sig .tc .vmem S512x1 .f32) (harg4 : arg4.IsWhole) (arg5 : Memref sig .tc .vmem S512x1 .f32) (harg5 : arg5.IsWhole)
    (arg6 : Memref sig .tc .vmem S512x1 .f32) (harg6 : arg6.IsWhole) (arg7 : Memref sig .tc .vmem S512x1 .f32) (harg7 : arg7.IsWhole)
    (arg8 : Memref sig .tc .vmem S512x1 .f32) (harg8 : arg8.IsWhole)
    (hc0 : cond1_0 i) (hc1 : ¬cond1_1 i) (q k : Vec F S512x1024 .bf16) (K : PUnit → sProp 𝕄) :
    iprop(owns (c : Thread nD τ) arg2 fullShare q ∗ owns (c : Thread nD τ) arg3 fullShare k
        ∗ (∃ d, owns (c : Thread nD τ) arg6 fullShare d) ∗ (∃ d, owns (c : Thread nD τ) arg7 fullShare d) ∗ (∃ d, owns (c : Thread nD τ) arg8 fullShare d)
        ∗ (iprop(owns (c : Thread nD τ) arg2 fullShare q ∗ owns (c : Thread nD τ) arg3 fullShare k
            ∗ owns (c : Thread nD τ) arg6 fullShare (scrStep i q k scrInit).1 ∗ owns (c : Thread nD τ) arg7 fullShare (scrStep i q k scrInit).2.1
            ∗ owns (c : Thread nD τ) arg8 fullShare (scrStep i q k scrInit).2.2) -∗ K ⟨⟩))
      ⊢ wp frame (wpE (defs₀ (F := F)) Variants.none c none) E
          (cc1_kernel i arg2 harg2 arg3 harg3 arg4 harg4 arg5 harg5 arg6 harg6 arg7 harg7 arg8 harg8) K := by
  simp only [cc1_kernel_eq_skeleton]; unfold cc1_kernel_skel
  simp only [k1_part1_eq_skeleton]; unfold k1_part1_skel
  unfold owns
  iintro ⟨⟨%f2, %hf2, H2⟩, ⟨%f3, %hf3, H3⟩, ⟨%d6, %f6, -, H6⟩, ⟨%d7, %f7, -, H7⟩, ⟨%d8, %f8, -, H8⟩, Hk⟩
  obtain rfl := harg2.eq_unread hf2; obtain rfl := harg3.eq_unread hf3
  sl_exec (disch := first | exact hc0 | exact hc1)
  sl_step
  iapply Hk
  isplitl [H2]
  · iexists _; isplitr; · ipureintro; exact harg2.read_unread _
    iexact H2
  isplitl [H3]
  · iexists _; isplitr; · ipureintro; exact harg3.read_unread _
    iexact H3
  isplitl [H6]
  · iexists _; isplitr
    swap; · iexact H6
    ipureintro; rw [read_after_store _ _ hz2]
    sl_unfold_run_names
    simp only [View.readCov_unit_zero (S := S512x1) _ hz2, load_whole (sh := S512x1) _ _ hz2, load_whole (sh := S512x1024) _ _ hz2]
    rfl
  isplitl [H7]
  · iexists _; isplitr
    swap; · iexact H7
    ipureintro; rw [read_after_store _ _ hz2]
    sl_unfold_run_names
    simp only [View.readCov_unit_zero (S := S512x1) _ hz2, load_whole (sh := S512x1) _ _ hz2, load_whole (sh := S512x1024) _ _ hz2]
    rfl
  iexists _; isplitr
  swap; · iexact H8
  ipureintro; rw [read_after_store _ _ hz2]
  sl_unfold_run_names
  simp only [View.readCov_unit_zero (S := S512x1) _ hz2, load_whole (sh := S512x1) _ _ hz2, load_whole (sh := S512x1024) _ _ hz2]
  rfl

set_option maxHeartbeats 1000000 in
/-- A point that is neither a row block's first nor its last: the carried columns go from `s` to their update. -/
theorem run1_B (c : Dev nD) (E : Set ℕ) (i : grid1.Coords)
    (arg2 : Memref sig .tc .vmem S512x1024 .bf16) (harg2 : arg2.IsWhole) (arg3 : Memref sig .tc .vmem S512x1024 .bf16) (harg3 : arg3.IsWhole)
    (arg4 : Memref sig .tc .vmem S512x1 .f32) (harg4 : arg4.IsWhole) (arg5 : Memref sig .tc .vmem S512x1 .f32) (harg5 : arg5.IsWhole)
    (arg6 : Memref sig .tc .vmem S512x1 .f32) (harg6 : arg6.IsWhole) (arg7 : Memref sig .tc .vmem S512x1 .f32) (harg7 : arg7.IsWhole)
    (arg8 : Memref sig .tc .vmem S512x1 .f32) (harg8 : arg8.IsWhole)
    (hc0 : ¬cond1_0 i) (hc1 : ¬cond1_1 i) (q k : Vec F S512x1024 .bf16) (s : Scr F) (K : PUnit → sProp 𝕄) :
    iprop(owns (c : Thread nD τ) arg2 fullShare q ∗ owns (c : Thread nD τ) arg3 fullShare k
        ∗ owns (c : Thread nD τ) arg6 fullShare s.1 ∗ owns (c : Thread nD τ) arg7 fullShare s.2.1 ∗ owns (c : Thread nD τ) arg8 fullShare s.2.2
        ∗ (iprop(owns (c : Thread nD τ) arg2 fullShare q ∗ owns (c : Thread nD τ) arg3 fullShare k
            ∗ owns (c : Thread nD τ) arg6 fullShare (scrStep i q k s).1 ∗ owns (c : Thread nD τ) arg7 fullShare (scrStep i q k s).2.1
            ∗ owns (c : Thread nD τ) arg8 fullShare (scrStep i q k s).2.2) -∗ K ⟨⟩))
      ⊢ wp frame (wpE (defs₀ (F := F)) Variants.none c none) E
          (cc1_kernel i arg2 harg2 arg3 harg3 arg4 harg4 arg5 harg5 arg6 harg6 arg7 harg7 arg8 harg8) K := by
  obtain ⟨s0, s1, s2⟩ := s
  simp only [cc1_kernel_eq_skeleton]; unfold cc1_kernel_skel
  simp only [k1_part1_eq_skeleton]; unfold k1_part1_skel
  unfold owns
  iintro ⟨⟨%f2, %hf2, H2⟩, ⟨%f3, %hf3, H3⟩, ⟨%f6, %hf6, H6⟩, ⟨%f7, %hf7, H7⟩, ⟨%f8, %hf8, H8⟩, Hk⟩
  obtain rfl := harg2.eq_unread hf2; obtain rfl := harg3.eq_unread hf3
  obtain rfl := harg6.eq_unread hf6; obtain rfl := harg7.eq_unread hf7; obtain rfl := harg8.eq_unread hf8
  sl_exec (disch := first | exact hc0 | exact hc1)
  sl_step
  iapply Hk
  isplitl [H2]
  · iexists _; isplitr; · ipureintro; exact harg2.read_unread _
    iexact H2
  isplitl [H3]
  · iexists _; isplitr; · ipureintro; exact harg3.read_unread _
    iexact H3
  isplitl [H6]
  · iexists _; isplitr
    swap; · iexact H6
    ipureintro; rw [read_after_store _ _ hz2]
    simp only [load_whole (sh := S512x1) _ _ hz2, load_whole (sh := S512x1024) _ _ hz2]
    rfl
  isplitl [H7]
  · iexists _; isplitr
    swap; · iexact H7
    ipureintro; rw [read_after_store _ _ hz2]
    simp only [load_whole (sh := S512x1) _ _ hz2, load_whole (sh := S512x1024) _ _ hz2]
    rfl
  iexists _; isplitr
  swap; · iexact H8
  ipureintro; rw [read_after_store _ _ hz2]
  simp only [load_whole (sh := S512x1) _ _ hz2, load_whole (sh := S512x1024) _ _ hz2]
  rfl

set_option maxHeartbeats 1000000 in
/-- A row block's last point: the carried columns are updated, and the two output blocks are stored from the
    updated columns. -/
theorem run1_C (c : Dev nD) (E : Set ℕ) (i : grid1.Coords)
    (arg2 : Memref sig .tc .vmem S512x1024 .bf16) (harg2 : arg2.IsWhole) (arg3 : Memref sig .tc .vmem S512x1024 .bf16) (harg3 : arg3.IsWhole)
    (arg4 : Memref sig .tc .vmem S512x1 .f32) (harg4 : arg4.IsWhole) (arg5 : Memref sig .tc .vmem S512x1 .f32) (harg5 : arg5.IsWhole)
    (arg6 : Memref sig .tc .vmem S512x1 .f32) (harg6 : arg6.IsWhole) (arg7 : Memref sig .tc .vmem S512x1 .f32) (harg7 : arg7.IsWhole)
    (arg8 : Memref sig .tc .vmem S512x1 .f32) (harg8 : arg8.IsWhole)
    (hc0 : ¬cond1_0 i) (hc1 : cond1_1 i) (q k : Vec F S512x1024 .bf16) (s : Scr F) (K : PUnit → sProp 𝕄) :
    iprop(owns (c : Thread nD τ) arg2 fullShare q ∗ owns (c : Thread nD τ) arg3 fullShare k
        ∗ (∃ d, owns (c : Thread nD τ) arg4 fullShare d) ∗ (∃ d, owns (c : Thread nD τ) arg5 fullShare d)
        ∗ owns (c : Thread nD τ) arg6 fullShare s.1 ∗ owns (c : Thread nD τ) arg7 fullShare s.2.1 ∗ owns (c : Thread nD τ) arg8 fullShare s.2.2
        ∗ (iprop(owns (c : Thread nD τ) arg2 fullShare q ∗ owns (c : Thread nD τ) arg3 fullShare k
            ∗ owns (c : Thread nD τ) arg4 fullShare (k1_pay5 (scrStep i q k s).1 (scrStep i q k s).2.1)
            ∗ owns (c : Thread nD τ) arg5 fullShare (scrStep i q k s).2.2
            ∗ owns (c : Thread nD τ) arg6 fullShare (scrStep i q k s).1 ∗ owns (c : Thread nD τ) arg7 fullShare (scrStep i q k s).2.1
            ∗ owns (c : Thread nD τ) arg8 fullShare (scrStep i q k s).2.2) -∗ K ⟨⟩))
      ⊢ wp frame (wpE (defs₀ (F := F)) Variants.none c none) E
          (cc1_kernel i arg2 harg2 arg3 harg3 arg4 harg4 arg5 harg5 arg6 harg6 arg7 harg7 arg8 harg8) K := by
  obtain ⟨s0, s1, s2⟩ := s
  simp only [cc1_kernel_eq_skeleton]; unfold cc1_kernel_skel
  simp only [k1_part1_eq_skeleton]; unfold k1_part1_skel
  unfold owns
  iintro ⟨⟨%f2, %hf2, H2⟩, ⟨%f3, %hf3, H3⟩, ⟨%d4, %f4, -, H4⟩, ⟨%d5, %f5, -, H5⟩, ⟨%f6, %hf6, H6⟩, ⟨%f7, %hf7, H7⟩, ⟨%f8, %hf8, H8⟩, Hk⟩
  obtain rfl := harg2.eq_unread hf2; obtain rfl := harg3.eq_unread hf3
  obtain rfl := harg6.eq_unread hf6; obtain rfl := harg7.eq_unread hf7; obtain rfl := harg8.eq_unread hf8
  sl_exec (disch := first | exact hc0 | exact hc1)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr
    swap; · iexact H4
    ipureintro; rw [read_after_store _ _ hz2]
    sl_unfold_run_names
    simp only [View.readCov_unit_zero (S := S512x1) _ hz2, load_whole (sh := S512x1) _ _ hz2, load_whole (sh := S512x1024) _ _ hz2]
    rfl
  isplitl [H5]
  · iexists _; isplitr
    swap; · iexact H5
    ipureintro; rw [read_after_store _ _ hz2]
    sl_unfold_run_names
    simp only [View.readCov_unit_zero (S := S512x1) _ hz2, load_whole (sh := S512x1) _ _ hz2, load_whole (sh := S512x1024) _ _ hz2]
    rfl
  isplitl [H6]
  · iexists _; isplitr
    swap; · iexact H6
    ipureintro
    sl_unfold_run_names
    rw [read_after_store _ _ hz2]
    simp only [View.readCov_unit_zero (S := S512x1) _ hz2, load_whole (sh := S512x1) _ _ hz2, load_whole (sh := S512x1024) _ _ hz2]
    rfl
  isplitl [H7]
  · iexists _; isplitr
    swap; · iexact H7
    ipureintro
    sl_unfold_run_names
    rw [read_after_store _ _ hz2]
    simp only [View.readCov_unit_zero (S := S512x1) _ hz2, load_whole (sh := S512x1) _ _ hz2, load_whole (sh := S512x1024) _ _ hz2]
    rfl
  iexists _; isplitr
  swap; · iexact H8
  ipureintro
  sl_unfold_run_names
  rw [read_after_store _ _ hz2]
  simp only [View.readCov_unit_zero (S := S512x1) _ hz2, load_whole (sh := S512x1) _ _ hz2, load_whole (sh := S512x1024) _ _ hz2]
  rfl

/-! ## The schedule at a point -/

/-- Each window's current staging memref at point `t`, as the pipeline passes it to the body, and its wholeness. -/
abbrev ms1_0 (t : Fin cfg1.N) : Memref sig .tc .vmem S512x1024 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S512x1024 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S512x1 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S512x1 .f32 := win1_3.stage (cfg1.slots t 3)
abbrev hs1_3 (t : Fin cfg1.N) : (ms1_3 t).IsWhole := hstage1_3 ((cfg1.slots t 3).cast nbuf1_3)

/-- The input windows are never idle. -/
theorem liveAt1_0 (t : Fin cfg1.N) : cfg1.idle 0 (grid1.coords t) = false := rfl
theorem liveAt1_1 (t : Fin cfg1.N) : cfg1.idle 1 (grid1.coords t) = false := rfl

/-- The output windows are idle exactly off a row block's last column block. -/
theorem idleAt1_2 : ∀ t : Fin cfg1.N, ¬t.val % 16 = 15 → cfg1.idle 2 (grid1.coords t) = true :=
  (by decide +kernel : ∀ t : Fin grid1.N, ¬t.val % 16 = 15 → idle1 2 (grid1.coords t) = true)
theorem idleAt1_3 : ∀ t : Fin cfg1.N, ¬t.val % 16 = 15 → cfg1.idle 3 (grid1.coords t) = true :=
  (by decide +kernel : ∀ t : Fin grid1.N, ¬t.val % 16 = 15 → idle1 3 (grid1.coords t) = true)
theorem liveAt1_2 : ∀ t : Fin cfg1.N, t.val % 16 = 15 → cfg1.idle 2 (grid1.coords t) = false :=
  (by decide +kernel : ∀ t : Fin grid1.N, t.val % 16 = 15 → idle1 2 (grid1.coords t) = false)
theorem liveAt1_3 : ∀ t : Fin cfg1.N, t.val % 16 = 15 → cfg1.idle 3 (grid1.coords t) = false :=
  (by decide +kernel : ∀ t : Fin grid1.N, t.val % 16 = 15 → idle1 3 (grid1.coords t) = false)

/-- Off it they are not written back either. -/
theorem noFlush1_2 (t : Fin cfg1.N) (h : ¬t.val % 16 = 15) : (cfg1.win 2).flush t = false :=
  Bool.eq_false_iff.mpr fun hf => h ((flush1_2 t).mp hf)
theorem noFlush1_3 (t : Fin cfg1.N) (h : ¬t.val % 16 = 15) : (cfg1.win 3).flush t = false :=
  Bool.eq_false_iff.mpr fun hf => h ((flush1_3 t).mp hf)

/-- An input block stays in its staging buffer: at every point the body finds the array's block there, fetched
    at that point or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The carried columns point by point -/

/-- At a row block's first point the carried columns are the update of the reset ones. -/
theorem scrAt_first (c : Dev nD) (t : Fin cfg1.N) (h : t.val % 16 = 0) :
    scrAt V c t.val t.isLt = scrStep (grid1.coords t) (iblk1 V c 0 t) (iblk1 V c 1 t) scrInit := by
  obtain ⟨n, hn⟩ := t
  cases n with
  | zero => rfl
  | succ n =>
    show scrStep _ _ _ (if (n + 1) % 16 = 0 then scrInit else scrAt V c n _) = _
    rw [if_pos h]

/-- At any other point they are the update of what the point before left. -/
theorem scrAt_later (c : Dev nD) (t : Fin cfg1.N) (h : ¬t.val % 16 = 0) :
    scrAt V c t.val t.isLt = scrStep (grid1.coords t) (iblk1 V c 0 t) (iblk1 V c 1 t)
      (scrAt V c (t.val - 1) (Nat.lt_of_le_of_lt (Nat.sub_le _ _) t.isLt)) := by
  obtain ⟨n, hn⟩ := t
  cases n with
  | zero => exact absurd (Nat.zero_mod _) h
  | succ n =>
    show scrStep _ _ _ (if (n + 1) % 16 = 0 then scrInit else scrAt V c n _) = _
    rw [if_neg h]; rfl

/-! ## The invariant, unfolded -/

/-- The launch's invariant hands out the carried columns as memrefs owned at some contents, -/
theorem PhiA1_open (c : Dev nD) :
    (Pipeline.ΦA spec1 c : sProp 𝕄)
      ⊢ iprop(rest1 (F := F) c ∗ (∃ d, owns (c : Thread nD τ) scM0 fullShare d) ∗ (∃ d, owns (c : Thread nD τ) scM1 fullShare d)
          ∗ (∃ d, owns (c : Thread nD τ) scM2 fullShare d) ∗ (∃ r, prngReg c r)) := by
  unfold Pipeline.ΦA rest1; rw [scopedRest1_eq]; simp only [scM0, scM1, scM2, owns_whole]
  iintro ⟨⟨A, B, C, D, S0, S1, S2⟩, Hg⟩
  isplitl [A B C D]
  · isplitl [A]; · iexact A
    isplitl [B]; · iexact B
    isplitl [C]; · iexact C
    iexact D
  isplitl [S0]; · iexact S0
  isplitl [S1]; · iexact S1
  isplitl [S2]; · iexact S2
  iexact Hg

/-- and takes them back so. -/
theorem PhiA1_close (c : Dev nD) :
    iprop(rest1 (F := F) c ∗ (∃ d, owns (c : Thread nD τ) scM0 fullShare d) ∗ (∃ d, owns (c : Thread nD τ) scM1 fullShare d)
          ∗ (∃ d, owns (c : Thread nD τ) scM2 fullShare d) ∗ (∃ r, prngReg c r))
      ⊢ (Pipeline.ΦA spec1 c : sProp 𝕄) := by
  unfold Pipeline.ΦA rest1; rw [scopedRest1_eq]; simp only [scM0, scM1, scM2, owns_whole]
  iintro ⟨⟨A, B, C, D⟩, S0, S1, S2, Hg⟩
  isplitr [Hg]
  · isplitl [A]; · iexact A
    isplitl [B]; · iexact B
    isplitl [C]; · iexact C
    isplitl [D]; · iexact D
    isplitl [S0]; · iexact S0
    isplitl [S1]; · iexact S1
    iexact S2
  iexact Hg

theorem PhiS_zero (c : Dev nD) (n : ℕ) (h : n ≤ cfg1.N) (hz : n = 0) : PhiS V c n h = Pipeline.ΦA spec1 c := by
  subst hz; rfl

/-- After point `n` (before point `n + 1`): the carried columns at that point's contents. -/
theorem PhiS_succ (c : Dev nD) (n : ℕ) (hn : n < cfg1.N) :
    PhiS V c (n + 1) hn = iprop(rest1 (F := F) c ∗ owns (c : Thread nD τ) scM0 fullShare (scrAt V c n hn).1 ∗ owns (c : Thread nD τ) scM1 fullShare (scrAt V c n hn).2.1
      ∗ owns (c : Thread nD τ) scM2 fullShare (scrAt V c n hn).2.2 ∗ (∃ r, prngReg c r)) := rfl

/-- Before a point that is not the first: the carried columns at what the point before left. -/
theorem PhiS_pos (c : Dev nD) (n : ℕ) (h : n ≤ cfg1.N) (hz : n ≠ 0) :
    PhiS V c n h = iprop(rest1 (F := F) c ∗ owns (c : Thread nD τ) scM0 fullShare (scrAt V c (n - 1) (by omega)).1 ∗ owns (c : Thread nD τ) scM1 fullShare (scrAt V c (n - 1) (by omega)).2.1
      ∗ owns (c : Thread nD τ) scM2 fullShare (scrAt V c (n - 1) (by omega)).2.2 ∗ (∃ r, prngReg c r)) := by
  cases n with
  | zero => exact absurd rfl hz
  | succ n => rfl

/-- Before any point the invariant holds the carried columns at some contents. -/
theorem PhiS_weak (c : Dev nD) (n : ℕ) (h : n ≤ cfg1.N) :
    PhiS V c n h ⊢ iprop(rest1 (F := F) c ∗ (∃ d, owns (c : Thread nD τ) scM0 fullShare d) ∗ (∃ d, owns (c : Thread nD τ) scM1 fullShare d)
          ∗ (∃ d, owns (c : Thread nD τ) scM2 fullShare d) ∗ (∃ r, prngReg c r)) := by
  by_cases hz : n = 0
  · rw [PhiS_zero V c n h hz]; exact PhiA1_open c
  · rw [PhiS_pos V c n h hz]
    iintro ⟨HR, H0, H1, H2, Hg⟩
    isplitl [HR]; · iexact HR
    isplitl [H0]; · iexists _; iexact H0
    isplitl [H1]; · iexists _; iexact H1
    isplitl [H2]; · iexists _; iexact H2
    iexact Hg

/-- The invariant at a point's start, restated at `t.val`. -/
theorem PhiS_castSucc (c : Dev nD) (t : Fin cfg1.N) :
    (dat1 V c).Φ t.castSucc = PhiS V c t.val (Nat.le_of_lt t.isLt) := by
  dsimp only [dat1]; simp only [Fin.coe_castSucc]

/-! ## The body obligation, at a generic point -/

theorem leaves1_0 (c : Dev nD) (t : Fin cfg1.N) :
    (dat1 V c).leavesExact 0 t = owns (c : Thread nD τ) (ms1_0 t) fullShare (iblk1 V c 0 t) := by
  rw [show (dat1 V c).leavesExact 0 t = owns (c : Thread nD τ) (ms1_0 t) fullShare ((dat1 V c).after 0 t) from by
    unfold Dat.leavesExact; rw [liveAt1_0 t], after1_0]
theorem leaves1_1 (c : Dev nD) (t : Fin cfg1.N) :
    (dat1 V c).leavesExact 1 t = owns (c : Thread nD τ) (ms1_1 t) fullShare (iblk1 V c 1 t) := by
  rw [show (dat1 V c).leavesExact 1 t = owns (c : Thread nD τ) (ms1_1 t) fullShare ((dat1 V c).after 1 t) from by
    unfold Dat.leavesExact; rw [liveAt1_1 t], after1_1]

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ (dat1 V c).leavesExact 0 t ∗ (dat1 V c).leavesExact 1 t ∗ (dat1 V c).leavesExact 2 t ∗ (dat1 V c).leavesExact 3 t)

set_option maxHeartbeats 4000000 in
/-- The body at any point. The inputs' memrefs hold their blocks; the point's place in its row block says which of the
    three runs applies; the invariant hands the body the carried columns (at what the point before left, or at anything
    where they are reset) and takes them back at this point's contents; an output window idle at the point goes back as
    it came. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = PhiS V c (t.val + 1) t.isLt from rfl, PhiS_succ]
  rw [leaves1_0, leaves1_1, PhiS_castSucc]
  have hN : t.val < 256 := lt_of_lt_of_eq t.isLt (show cfg1.N = 256 from N_1)
  by_cases h0 : t.val % 16 = 0
  · have h1 : ¬t.val % 16 = 15 := by omega
    rw [Dat.leavesExact_idle (dat1 V c) 2 t (idleAt1_2 t h1) (noFlush1_2 t h1),
      Dat.leavesExact_idle (dat1 V c) 3 t (idleAt1_3 t h1) (noFlush1_3 t h1)]
    rw [scrAt_first V c t h0]
    refine (sep_mono (PhiS_weak V c _ _) .rfl).trans ?_
    iintro ⟨⟨HR, HS0, HS1, HS2, Hg⟩, Ho, ⟨%d0, H0⟩, ⟨%d1, H1⟩, H2, H3⟩
    iapply (run1_A c Set.univ (grid1.coords t) (ms1_0 t) (hs1_0 t) (ms1_1 t) (hs1_1 t) (ms1_2 t) (hs1_2 t) (ms1_3 t) (hs1_3 t)
      scM0 (Memref.isWhole_whole _) scM1 (Memref.isWhole_whole _) scM2 (Memref.isWhole_whole _)
      ((hcond1_0 t).mpr h0) (fun h => h1 ((hcond1_1 t).mp h)) (iblk1 V c 0 t) (iblk1 V c 1 t) _)
    isplitl [H0]; · iexact H0
    isplitl [H1]; · iexact H1
    isplitl [HS0]; · iexact HS0
    isplitl [HS1]; · iexact HS1
    isplitl [HS2]; · iexact HS2
    iintro ⟨H0, H1, HS0, HS1, HS2⟩
    isplitl [HR HS0 HS1 HS2 Hg]
    · isplitl [HR]; · iexact HR
      isplitl [HS0]; · iexact HS0
      isplitl [HS1]; · iexact HS1
      isplitl [HS2]; · iexact HS2
      iexact Hg
    isplitl [Ho]; · iexact Ho
    isplitl [H0]; · iexact H0
    isplitl [H1]; · iexact H1
    isplitl [H2]; · iexact H2
    iexact H3
  · have hz : t.val ≠ 0 := fun e => h0 (by rw [e])
    by_cases h1 : t.val % 16 = 15
    · rw [show (dat1 V c).leavesExact 2 t = owns (c : Thread nD τ) (ms1_2 t) fullShare ((dat1 V c).after 2 t) from by
        unfold Dat.leavesExact; rw [liveAt1_2 t h1], after1_2]
      rw [show (dat1 V c).leavesExact 3 t = owns (c : Thread nD τ) (ms1_3 t) fullShare ((dat1 V c).after 3 t) from by
        unfold Dat.leavesExact; rw [liveAt1_3 t h1], after1_3]
      rw [scrAt_later V c t h0, PhiS_pos V c _ _ hz]
      iintro ⟨⟨HR, HS0, HS1, HS2, Hg⟩, Ho, ⟨%d0, H0⟩, ⟨%d1, H1⟩, ⟨%d2, H2⟩, ⟨%d3, H3⟩⟩
      iapply (run1_C c Set.univ (grid1.coords t) (ms1_0 t) (hs1_0 t) (ms1_1 t) (hs1_1 t) (ms1_2 t) (hs1_2 t) (ms1_3 t) (hs1_3 t)
        scM0 (Memref.isWhole_whole _) scM1 (Memref.isWhole_whole _) scM2 (Memref.isWhole_whole _)
        (fun h => h0 ((hcond1_0 t).mp h)) ((hcond1_1 t).mpr h1) (iblk1 V c 0 t) (iblk1 V c 1 t)
        (scrAt V c (t.val - 1) (Nat.lt_of_le_of_lt (Nat.sub_le _ _) t.isLt)) _)
      isplitl [H0]; · iexact H0
      isplitl [H1]; · iexact H1
      isplitl [H2]; · iexists _; iexact H2
      isplitl [H3]; · iexists _; iexact H3
      isplitl [HS0]; · iexact HS0
      isplitl [HS1]; · iexact HS1
      isplitl [HS2]; · iexact HS2
      iintro ⟨H0, H1, H2, H3, HS0, HS1, HS2⟩
      isplitl [HR HS0 HS1 HS2 Hg]
      · isplitl [HR]; · iexact HR
        isplitl [HS0]; · iexact HS0
        isplitl [HS1]; · iexact HS1
        isplitl [HS2]; · iexact HS2
        iexact Hg
      isplitl [Ho]; · iexact Ho
      isplitl [H0]; · iexact H0
      isplitl [H1]; · iexact H1
      isplitl [H2]; · iexact H2
      iexact H3
    · rw [Dat.leavesExact_idle (dat1 V c) 2 t (idleAt1_2 t h1) (noFlush1_2 t h1),
        Dat.leavesExact_idle (dat1 V c) 3 t (idleAt1_3 t h1) (noFlush1_3 t h1)]
      rw [scrAt_later V c t h0, PhiS_pos V c _ _ hz]
      iintro ⟨⟨HR, HS0, HS1, HS2, Hg⟩, Ho, ⟨%d0, H0⟩, ⟨%d1, H1⟩, H2, H3⟩
      iapply (run1_B c Set.univ (grid1.coords t) (ms1_0 t) (hs1_0 t) (ms1_1 t) (hs1_1 t) (ms1_2 t) (hs1_2 t) (ms1_3 t) (hs1_3 t)
        scM0 (Memref.isWhole_whole _) scM1 (Memref.isWhole_whole _) scM2 (Memref.isWhole_whole _)
        (fun h => h0 ((hcond1_0 t).mp h)) (fun h => h1 ((hcond1_1 t).mp h)) (iblk1 V c 0 t) (iblk1 V c 1 t)
        (scrAt V c (t.val - 1) (Nat.lt_of_le_of_lt (Nat.sub_le _ _) t.isLt)) _)
      isplitl [H0]; · iexact H0
      isplitl [H1]; · iexact H1
      isplitl [HS0]; · iexact HS0
      isplitl [HS1]; · iexact HS1
      isplitl [HS2]; · iexact HS2
      iintro ⟨H0, H1, HS0, HS1, HS2⟩
      isplitl [HR HS0 HS1 HS2 Hg]
      · isplitl [HR]; · iexact HR
        isplitl [HS0]; · iexact HS0
        isplitl [HS1]; · iexact HS1
        isplitl [HS2]; · iexact HS2
        iexact Hg
      isplitl [Ho]; · iexact Ho
      isplitl [H0]; · iexact H0
      isplitl [H1]; · iexact H1
      isplitl [H2]; · iexact H2
      iexact H3

/-- What the launch hands the region is the invariant before the first point. -/
theorem hin1 (c : Dev nD) : Pipeline.ΦA spec1 c ⊢ (dat1 V c).Φ 0 := by
  rw [show (dat1 V c).Φ 0 = PhiS V c 0 (Nat.zero_le _) from rfl, PhiS_zero V c 0 _ rfl]
  try exact Idealize.SL.BI.Entails.refl _

/-- The invariant after the last point gives the scoped buffers back at anything. -/
theorem hout1 (c : Dev nD) : (dat1 V c).Φ (Fin.last cfg1.N) ⊢ Pipeline.ΦA spec1 c := by
  rw [show (dat1 V c).Φ (Fin.last cfg1.N) = PhiS V c (Fin.last cfg1.N).val (Nat.le_of_lt_succ (Fin.last cfg1.N).isLt) from rfl]
  exact (PhiS_weak V c _ _).trans (PhiA1_close c)

/-- The library's body obligation, at every point. -/
theorem body_obligation1 (c : Dev nD) : BodyObligation (dat1 (F := F) V c) (defs₀ (F := F)) Variants.none () Set.univ := fun t => by
  rw [bigSep_W1, bigSep_W1]
  exact sound_body1 V c t

end Region1

end Cert.KernelIdeal.Hand

end
-- ==== Proof.KernelIdeal.RunMain.lean ====
/-
  The whole program's run, at any float instance: the first region from the launch contents, the second from what
  the first leaves, then the host operations that reduce the two result columns to the scalar. The buffers'
  contents between the items are named (`W0` … `W3`), so that the final memory is read off the last of them.
-/
import proofs.«164746_j32564442038466_1_alg».proof.Proof.Gen.KernelIdeal.Launch
import proofs.«164746_j32564442038466_1_alg».proof.Proof.Gen.KernelIdeal.Skeleton
import proofs.«164746_j32564442038466_1_alg».proof.Proof.Gen.KernelIdeal.Points
import proofs.«164746_j32564442038466_1_alg».proof.Proof.Gen.KernelIdeal.Regions
import proofs.«164746_j32564442038466_1_alg».proof.Proof.KernelIdeal.R0
import proofs.«164746_j32564442038466_1_alg».proof.Proof.KernelIdeal.R1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The buffers' contents between the items -/

/-- At launch. -/
abbrev W0 : Dev nD → Valuation τ sig (Elt F) := fun c b => m (c, b)
/-- The same read at the TensorCore's references: what the first region's proof data take. -/
abbrev VA : (c : Dev nD) → (b : Ref sig .tc) → Buf (Elt F) ((c : Thread nD τ).loc b) := fun c b => W0 m c b

/-- After the first region: its arrays at what its write-backs leave, every other buffer as launched. -/
def W1 (c : Dev nD) : Valuation τ sig (Elt F) :=
  Pipeline.withArrays spec0 c (W0 m c) fun w => (dat0 (VA m) c).arrAt w cfg0.N
theorem W1_arr (c : Dev nD) (w : Fin cfg0.W) :
    W1 m c (Proc.devRef .tc (Pipeline.arrRef spec0 w)) = (dat0 (VA m) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m c (Proc.devRef .tc b) = W0 m c (Proc.devRef .tc b) := by
  unfold W1; exact Pipeline.withArrays_of_ne spec0 c _ _ b hb
/-- The same read at the TensorCore's references: what the second region's proof data take. -/
abbrev VB : (c : Dev nD) → (b : Ref sig .tc) → Buf (Elt F) ((c : Thread nD τ).loc b) := fun c b => W1 m c b
theorem hF0 (c : Dev nD) (w : Fin cfg0.W) : (dat0 (VA m) c).arrAt w cfg0.N = VB m c (Pipeline.arrRef spec0 w) :=
  (W1_arr m c w).symm
theorem hrest0 (c : Dev nD) : ∀ b, b ∉ Finset.univ.image (Pipeline.arrRef spec0) → VB m c b = VA m c b :=
  fun b hb => W1_of_ne m c b fun w e => hb (Finset.mem_image.mpr ⟨w, Finset.mem_univ _, e⟩)

/-- After the second region: its two result columns at what its write-backs leave, every other buffer as it was. -/
def W2 (c : Dev nD) : Valuation τ sig (Elt F) :=
  Function.update (Function.update (W1 m c) (Proc.devRef .tc main_v1_0) ((dat1 (VB m) c).arrAt 2 cfg1.N))
    (Proc.devRef .tc main_v1_1) ((dat1 (VB m) c).arrAt 3 cfg1.N)
abbrev VC : (c : Dev nD) → (b : Ref sig .tc) → Buf (Elt F) ((c : Thread nD τ).loc b) := fun c b => W2 m c b
/-- After the host operations. -/
abbrev W3 : Dev nD → Valuation τ sig (Elt F) := fun c => StableHlo.after hostOps2 (W2 m c)

/-! ## The proof data family and the thread state -/

abbrev adm : (p : Fin 2) → (pcfgs (F := F) p).Adm := fun p => (cfgs p).toPCfg_adm
/-- Every region's proof data, each at its entry contents. -/
def pdats : (p : Fin 2) → (c : Dev nD) → Dat τ (Elt F) Unit ℕ (UR sig nD τ) ℕ (Pipeline.pin (pcfgs (F := F)) adm p) c
  | ⟨0, _⟩ => fun c => dat0 (VA m) c
  | ⟨1, _⟩ => fun c => dat1 (VB m) c
abbrev 𝒱₀ : Variants := Variants.none
abbrev L : GSem nD τ sig → Finset Unit := fun _ => ∅
abbrev lv : GSem nD τ sig → Unit → ℕ := fun _ _ => 0
/-- What rides beside the buffers: the generator register at some state and the core owing nothing. -/
abbrev R (c : Dev nD) : sProp 𝕄 := iprop((∃ r, prngReg c r) ∗ ∃ W, owes (c : Thread nD τ) (0 : CellTallies nD τ sig Unit) W)

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## The regions as segments -/

set_option backward.isDefEq.respectTransparency.types false in
/-- The first region: entered from the launch contents, left at `W1`. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (VA m) c).loose
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W1 m c) ∗ R c)
  X c := iprop(∃ r, prngReg c r)
  Y c := iprop(∃ r, prngReg c r)
  Z c := Pipeline.unscopedRest (Ix := Unit) (Name := ℕ) (U := UR sig nD τ) (Lvl := ℕ) spec0 c (VA m c)
  hentry c := by
    rw [Pipeline.ownSems0_none]
    have hsplit := Pipeline.arrays_of_unscopedBufs (p := 0) (pcfgs (F := F)) adm (pdats m) launch0.win launch0.arr_whole c
      ((pdats m 0 c).share_full fun _ => rfl) (VA m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (VA m c) (VB m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The second region's arrays: two of its windows read one array -/

/-- The distinct buffers behind the second region's windows. -/
theorem image_arr1 : Finset.univ.image (Pipeline.arrRef spec1) = ([main_v0, main_v1_0, main_v1_1] : List (Ref sig .tc)).toFinset := by decide

/-- They are three: the normalized rows (read by both input windows) and the two result columns. -/
theorem arrBufs1_eq (c : Dev nD) (V : (b : Ref sig .tc) → Buf (Elt F) ((c : Thread nD τ).loc b)) :
    (Pipeline.arrBufs (Ix := Unit) (Name := ℕ) (U := UR sig nD τ) (Lvl := ℕ) spec1 c V : sProp 𝕄)
      = iprop((((c : Thread nD τ).loc main_v0) ↦{fullShare} V main_v0) ∗ (((c : Thread nD τ).loc main_v1_0) ↦{fullShare} V main_v1_0) ∗ (((c : Thread nD τ).loc main_v1_1) ↦{fullShare} V main_v1_1)) := by
  unfold Pipeline.arrBufs
  exact bigSep_eq_bigSepL_of_eq [main_v0, main_v1_0, main_v1_1] image_arr1 (by decide) _

/-- The second region's arrays at contents `G`, window by window: the shared array at its two half shares. -/
theorem arrays1_eq (c : Dev nD) (G : (w : Fin cfg1.W) → Buf (Elt F) ((cfg1.win w).arr.view.loc (c : Thread nD τ))) :
    ((dat1 (VB m) c).arrays G : sProp 𝕄)
      = iprop((((c : Thread nD τ).loc main_v0) ↦{fullShare.left} G 0) ∗ (((c : Thread nD τ).loc main_v0) ↦{fullShare.right} G 1)
          ∗ (((c : Thread nD τ).loc main_v1_0) ↦{fullShare} G 2) ∗ (((c : Thread nD τ).loc main_v1_1) ↦{fullShare} G 3)) := by
  unfold Dat.arrays
  rw [bigSep_W1, (arr_whole1 0).set_eq_univ, (arr_whole1 2).set_eq_univ, (arr_whole1 3).set_eq_univ]
  rfl

/-- The second region's entry: the shared array split into its two half shares. -/
theorem hsplit1 (c : Dev nD) :
    (Pipeline.arrBufs (Ix := Unit) (Name := ℕ) (U := UR sig nD τ) (Lvl := ℕ) spec1 c (VB m c) : sProp 𝕄)
      ⊢ (dat1 (VB m) c).arrays ((dat1 (VB m) c).arrAt · 0) := by
  rw [arrBufs1_eq, arrays1_eq]
  iintro ⟨H0, H2, H3⟩
  ihave H0' := (pointsTo_share (PosShare.mem_left_op_right fullShare)).1 $$ H0
  icases H0' with ⟨Hl, Hr⟩
  isplitl [Hl]; · iexact Hl
  isplitl [Hr]; · iexact Hr
  isplitl [H2]; · iexact H2
  iexact H3

theorem VC_v0 (c : Dev nD) : VC m c main_v0 = VB m c main_v0 := by
  show W2 m c _ = _; unfold W2
  rw [Function.update_of_ne (StableHlo.devRef_ne_of_ne (by decide)), Function.update_of_ne (StableHlo.devRef_ne_of_ne (by decide))]
theorem VC_v1_0 (c : Dev nD) : VC m c main_v1_0 = (dat1 (VB m) c).arrAt 2 cfg1.N := by
  show W2 m c _ = _; unfold W2
  rw [Function.update_of_ne (StableHlo.devRef_ne_of_ne (by decide)), Function.update_self]
theorem VC_v1_1 (c : Dev nD) : VC m c main_v1_1 = (dat1 (VB m) c).arrAt 3 cfg1.N := by
  show W2 m c _ = _; unfold W2
  rw [Function.update_self]
/-- Off the two result columns the second region changes nothing. -/
theorem VC_of (c : Dev nD) (b : Ref sig .tc) (h : b ∉ ([main_v1_0, main_v1_1] : List (Ref sig .tc))) : VC m c b = VB m c b := by
  show W2 m c _ = _; unfold W2
  rw [Function.update_of_ne (StableHlo.devRef_ne_of_ne (List.ne_of_not_mem_cons (List.not_mem_of_not_mem_cons h))),
    Function.update_of_ne (StableHlo.devRef_ne_of_ne (List.ne_of_not_mem_cons h))]

/-- The second region's exit: the shared array's two half shares joined again (both windows leave it as entered),
    the result columns at what the write-backs leave. -/
theorem hjoin1 (c : Dev nD) :
    ((dat1 (VB m) c).arrays ((dat1 (VB m) c).arrAt · cfg1.N) : sProp 𝕄)
      ⊢ Pipeline.arrBufs (Ix := Unit) (Name := ℕ) (U := UR sig nD τ) (Lvl := ℕ) spec1 c (VC m c) := by
  rw [arrBufs1_eq, arrays1_eq]
  rw [show (dat1 (VB m) c).arrAt 0 cfg1.N = VB m c main_v0 from ((dat1 (VB m) c).arrAt_in 0 rfl _).trans (A_eq1 (VB m) c 0),
    show (dat1 (VB m) c).arrAt 1 cfg1.N = VB m c main_v0 from ((dat1 (VB m) c).arrAt_in 1 rfl _).trans (A_eq1 (VB m) c 1),
    VC_v0, VC_v1_0, VC_v1_1]
  iintro ⟨Hl, Hr, H2, H3⟩
  isplitl [Hl Hr]
  · iapply (pointsTo_share (PosShare.mem_left_op_right fullShare)).2
    isplitl [Hl] <;> iassumption
  isplitl [H2]; · iexact H2
  iexact H3

/-- Off its three arrays the second region changes nothing. -/
theorem rest1_congr (c : Dev nD) :
    (Pipeline.unscopedRest (Ix := Unit) (Name := ℕ) (U := UR sig nD τ) (Lvl := ℕ) spec1 c (VB m c) : sProp 𝕄)
      = Pipeline.unscopedRest (Ix := Unit) (Name := ℕ) (U := UR sig nD τ) (Lvl := ℕ) spec1 c (VC m c) := by
  rw [unscopedRest1_eq, unscopedRest1_eq, VC_of m c main_arg0 (by decide), VC_of m c main_v2 (by decide), VC_of m c main_cst (by decide),
    VC_of m c main_v3 (by decide), VC_of m c main_cst_0 (by decide), VC_of m c main_v4 (by decide), VC_of m c main_v5 (by decide)]

set_option backward.isDefEq.respectTransparency.types false in
/-- The second region: entered from `W1`, left at `W2`. -/
def reg1 : Pipeline.RegionSeg (pcfgs (F := F)) adm (pdats m) () defs₀ 𝒱₀ L lv 1 where
  win := winFacts₀1
  block_pos := block_pos1
  stage_whole := stage_whole1
  K := PEmpty
  osem k := k.elim
  ho := Pipeline.OwnSemFacts.none _
  hbody c := (body_obligation1 (VB m) c).loose
  hwaits := Pipeline.hwaits_of_owed_zero _ _ _ _ L lv 1 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec1 c (VB m c)
  hentry c := by
    rw [Pipeline.ownSems0_none]
    have hsplit : (unscopedBufs c (VB m c) : sProp 𝕄)
        ⊢ iprop((pdats m 1 c).arrays ((pdats m 1 c).arrAt · 0) ∗ Pipeline.unscopedRest (Ix := Unit) (Name := ℕ) (U := UR sig nD τ) (Lvl := ℕ) spec1 c (VB m c)) := by
      rw [Pipeline.unscopedBufs_split₀ (cfgs := cfgs) (p := 1) winFacts₀1.arr_unscoped c (VB m c)]
      exact sep_mono (hsplit1 m c) .rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (show _ ⊢ (Pipeline.ΦA spec1 c : sProp 𝕄) from ?_).trans (hin1 (VB m) c)
    unfold Pipeline.ΦA
    iintro ⟨Hp, -, Hr⟩
    isplitl [Hr]; · iexact Hr
    iexact Hp
  hout c := by
    rw [Pipeline.ownSems0_none]
    refine (hout1 (VB m) c).trans ?_
    unfold Pipeline.ΦA
    iintro ⟨Hr, Hp⟩
    isplitl [Hp]; · iexact Hp
    isplitr; · iempintro
    iexact Hr
  hexit c := by
    have hjoin : iprop((pdats m 1 c).arrays ((pdats m 1 c).arrAt · cfg1.N) ∗ Pipeline.unscopedRest (Ix := Unit) (Name := ℕ) (U := UR sig nD τ) (Lvl := ℕ) spec1 c (VB m c))
        ⊢ (unscopedBufs c (VC m c) : sProp 𝕄) := by
      rw [Pipeline.unscopedBufs_split₀ (cfgs := cfgs) (p := 1) winFacts₀1.arr_unscoped c (VC m c), rest1_congr]
      exact sep_mono (hjoin1 m c) .rfl
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- The host operations after the regions as a segment over the unscoped references from `W2`. -/
abbrev hseg2 : Pipeline.HostSeg (Name := ℕ) (U := UR sig nD τ) (pcfgs (F := F)) defs₀ 𝒱₀ L lv :=
  Pipeline.HostSeg.ofOps _ _ _ _ _ (Pipeline.ucRefs τ sig) hostOps2
    (fun op h => Pipeline.sub_ucRefs op ((List.forall_iff_forall_mem.mp hostOps2_sub) op h))
    (fun op h => (List.forall_iff_forall_mem.mp hostOps2_fresh) op h) (W2 m) R

/-- @main's three items in order. -/
abbrev segs : List (Pipeline.Seg (pcfgs (F := F)) adm (pdats m) () defs₀ 𝒱₀ L lv) :=
  [ .region (reg0 m), .region (reg1 m), .host (hseg2 m) ]

theorem main_run (c : Dev nD) : main (F := F) c = Pipeline.Seg.run (segs m) := (main_chain c).trans (by chain_rfl)

/-- The last thread state without the `owes`. -/
abbrev Tₙ (c : Dev nD) : sProp 𝕄 := iprop(StableHlo.held (c : Thread nD τ) (Pipeline.ucRefs τ sig) (W3 m c) ∗ ∃ r, prngReg c r)

set_option backward.isDefEq.respectTransparency.types false in
/-- THE RUN: from any memory with zero counters every weakly fair execution of @main terminates, nothing faulting,
    and every final memory holds every unscoped buffer at the last boundary's contents `W3`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W3 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun c => by
      show iprop(StableHlo.held (c : Thread nD τ) (Pipeline.ucRefs τ sig) (W3 m c) ∗ R c) ⊢ _
      iintro ⟨Hh, Hp, HO⟩
      isplitl [Hh Hp]
      · isplitl [Hh] <;> iassumption
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m c b)
    (hfin := fun c s' => by
      iintro ⟨⟨Hh, -⟩, HSI⟩
      unfold StableHlo.held
      imodintro
      iapply (pointsTo_read_all (Pipeline.ucRefs τ sig) (fun b => (((c : Thread nD τ)).1, b)) (W3 m c) s')
      isplitl [Hh] <;> iassumption)
    (hQ := fun s h c => h c)

/-! ## What the run says of the result and of the argument -/

/-- The argument array reaches the end as launched: no host operation writes it and both regions only read it. -/
theorem W3_main_arg0 (c : Dev nD) : W3 m c (Proc.devRef .tc main_arg0) = m ((c : Thread nD τ).loc main_arg0) :=
  calc W3 m c (Proc.devRef .tc main_arg0)
    _ = W2 m c (Proc.devRef .tc main_arg0) := StableHlo.after_of_writes_sub hostOps2 _ hostOps2_writes (by decide)
    _ = W1 m c (Proc.devRef .tc main_arg0) := VC_of m c main_arg0 (by decide)
    _ = W0 m c (Proc.devRef .tc main_arg0) := (W1_arr m c 0).trans (((dat0 (VA m) c).arrAt_in 0 rfl _).trans (A_eq0 (VA m) c 0))
    _ = m ((c : Thread nD τ).loc main_arg0) := rfl

/-- THE RUN, read at the result and at the argument. -/
theorem run_main : θ_run defs (onTc (τ := τ) (main (F := F))) ⟨m, fun _ => 0, ρ⟩ (fun r => ∀ c : Dev nD,
      r.2.mem ((c.tc : Thread nD τ).loc main_v5) = W3 m c (Proc.devRef .tc main_v5)
      ∧ r.2.mem ((c.tc : Thread nD τ).loc main_arg0) = m ((c.tc : Thread nD τ).loc main_arg0)) :=
  (θ_run defs _ _).mono (fun r h c => ⟨h c _ (mem_uc main_v5 (by decide)), (h c _ (mem_uc main_arg0 (by decide))).trans (W3_main_arg0 m c)⟩)
    (run_all m ρ)

/-- THE FRAME: the program runs to the end, faults nowhere, and leaves its argument as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  (θ_run defs _ _).mono (fun r h c => (h c).2) (run_main m ρ)

end Cert.KernelIdeal.Hand

end
-- ==== Proof.Spec.lean ====
/-
  The mathematics both programs compute, stated once over plain matrices of extended reals.

  For features `x : 8192 × 1024`: each row is divided by its Euclidean norm clamped below at the word ε
  (`fn`); `dotp` is the Gram matrix of the normalized rows; the logits are the Gram matrix scaled by the
  temperature (the kernel multiplies by the named reciprocal `invTemp`, the reference divides by the word
  `tempW`: `invTemp` is exactly `1 / tempW`), the diagonal masked to `⊥`; the loss is minus the mean over rows
  `i` of the log-softmax of row `i` at the paired column `lab i = i ± 4096`.

  The kernel reaches the row maximum and the row's sum of exponentials by the online recurrence over 16
  column blocks of 512 (`accStep`); the reference by one pass (`rowMax`, `logp`). `loss_eq` says the two
  agree when every entry of `x` is a real number.
-/
import Idealize.ShloMosaic.PureOps.Ideal
import Idealize.ShloMosaic.PureOps.Ideal.Laws
import Idealize.ShloMosaic.Lib.ValueIdx

noncomputable section

namespace Cert.Spec

open Idealize.ShloMosaic

abbrev Mat (r c : ℕ) := Fin r → Fin c → EReal

/-- An 8192 × 1024 array of extended reals as a matrix. -/
def toMat (a : (⟨2, ![8192, 1024]⟩ : Shape).Idx → EReal) : Mat 8192 1024 := fun i d => a (ValueIdx.ix2 i d)

/-- The f32 words the programs carry, as the extended reals they denote. -/
def epsW : EReal := Ideal.ofBits .f32 0x322BCC77#32
def tempW : EReal := Ideal.ofBits .f32 0x3D8F5C29#32
def negInfW : EReal := Ideal.ofBits .f32 0xFF800000#32
def nW : EReal := Ideal.ofBits .f32 0x46000000#32
/-- The kernel's named reciprocal of the temperature. -/
def invTemp : EReal := ((134217728 / 9395241 : ℝ) : EReal)

/-- A row's Euclidean norm, clamped below at ε. -/
def nrm (x : Mat 8192 1024) (i : Fin 8192) : EReal := max (Ideal.sqrt (∑ d, x i d * x i d)) epsW
/-- The normalized rows. -/
def fn (x : Mat 8192 1024) : Mat 8192 1024 := fun i d => Ideal.div (x i d) (nrm x i)
/-- The Gram matrix. -/
def dotp (y : Mat 8192 1024) (i j : Fin 8192) : EReal := ∑ d, y i d * y j d
/-- Row `i`'s paired column. -/
def lab (i : Fin 8192) : Fin 8192 :=
  if h : i.val < 4096 then ⟨i.val + 4096, by omega⟩ else ⟨i.val - 4096, by omega⟩

/-! ## The kernel's side -/

def sK (y : Mat 8192 1024) (i j : Fin 8192) : EReal := dotp y i j * invTemp
def sKm (y : Mat 8192 1024) (i j : Fin 8192) : EReal := if i = j then ⊥ else sK y i j
/-- Column `q` of column block `k`. -/
def col (k : Fin 16) (q : Fin 512) : Fin 8192 := ⟨k.val * 512 + q.val, by omega⟩

/-- The carried triple: running maximum, running sum of exponentials, running paired logit. -/
structure Acc where
  m : EReal
  l : EReal
  p : EReal

def acc0 : Acc := ⟨⊥, 0, 0⟩

/-- One column block's update of row `i`'s triple. -/
def accStep (y : Mat 8192 1024) (i : Fin 8192) (k : Fin 16) (a : Acc) : Acc :=
  let mn := max a.m (Finset.univ.sup fun q : Fin 512 => sKm y i (col k q))
  ⟨mn, Ideal.exp (a.m - mn) * a.l + ∑ q : Fin 512, Ideal.exp (sKm y i (col k q) - mn),
   a.p + ∑ q : Fin 512, (if lab i = col k q then sK y i (col k q) else 0)⟩

/-- Row `i`'s triple after the first `k` column blocks. -/
def accAt (y : Mat 8192 1024) (i : Fin 8192) : ℕ → Acc
  | 0 => acc0
  | k + 1 => if h : k < 16 then accStep y i ⟨k, h⟩ (accAt y i k) else accAt y i k

def lseK (y : Mat 8192 1024) (i : Fin 8192) : EReal := (accAt y i 16).m + Ideal.log (accAt y i 16).l
def lposK (y : Mat 8192 1024) (i : Fin 8192) : EReal := (accAt y i 16).p
def lossK (x : Mat 8192 1024) : EReal := -(Ideal.div (∑ i, (lposK (fn x) i - lseK (fn x) i)) nW)

/-! ## The reference's side -/

def sR (y : Mat 8192 1024) (i j : Fin 8192) : EReal := Ideal.div (dotp y i j) tempW
def sRm (y : Mat 8192 1024) (i j : Fin 8192) : EReal := if i = j then ⊥ else sR y i j
def rowMax (s : Fin 8192 → Fin 8192 → EReal) (i : Fin 8192) : EReal := Finset.univ.sup (s i)
def logp (s : Fin 8192 → Fin 8192 → EReal) (i j : Fin 8192) : EReal :=
  (s i j - rowMax s i) - Ideal.log (∑ j', Ideal.exp (s i j' - rowMax s i))
def lossR (x : Mat 8192 1024) : EReal := -(Ideal.div (∑ i, logp (sRm (fn x)) i (lab i)) nW)

/-! ## The words' values -/

theorem negInfW_eq : negInfW = ⊥ := by simp [negInfW, Ideal.ofBits, Ideal.ieee]
theorem tempW_eq : tempW = ((9395241 / 134217728 : ℝ) : EReal) := by
  simp [tempW, Ideal.ofBits, Ideal.ieee, -EReal.coe_mul]; norm_num
theorem epsW_pos : ∃ e : ℝ, 0 < e ∧ epsW = (e : EReal) := by
  refine ⟨11258999 / 1125899906842624, by norm_num, ?_⟩
  simp [epsW, Ideal.ofBits, Ideal.ieee, -EReal.coe_mul]; norm_num

/-! ## Real entries stay real -/

/-- A finite sum of reals, read in the extended reals, is the sum of their readings. -/
private theorem coe_sum {ι : Type} (s : Finset ι) (g : ι → ℝ) :
    ∑ i ∈ s, ((g i : ℝ) : EReal) = ((∑ i ∈ s, g i : ℝ) : EReal) := by
  classical
  induction s using Finset.induction_on with
  | empty => simp
  | insert a s ha ih => rw [Finset.sum_insert ha, Finset.sum_insert ha, ih, EReal.coe_add]

/-- The clamped norm of a real row is a positive real. -/
private theorem nrm_real (x : Mat 8192 1024) (hx : ∀ i d, ∃ r : ℝ, x i d = (r : EReal)) (i : Fin 8192) :
    ∃ n : ℝ, 0 < n ∧ nrm x i = (n : EReal) := by
  choose r hr using hx
  obtain ⟨e, he, hE⟩ := epsW_pos
  refine ⟨max (Real.sqrt (∑ d, r i d * r i d)) e, lt_max_of_lt_right he, ?_⟩
  have h1 : (∑ d, x i d * x i d) = ((∑ d, r i d * r i d : ℝ) : EReal) := by
    rw [← coe_sum]; exact Finset.sum_congr rfl fun d _ => by rw [hr, ← EReal.coe_mul]
  have h2 : ¬ (∑ d, r i d * r i d) < 0 := not_lt.mpr (Finset.sum_nonneg fun d _ => mul_self_nonneg _)
  rw [nrm, h1, Ideal.sqrt_coe, if_neg h2, hE, EReal.coe_strictMono.monotone.map_max]

/-- The normalized rows of a real matrix are real. -/
private theorem fn_real (x : Mat 8192 1024) (hx : ∀ i d, ∃ r : ℝ, x i d = (r : EReal)) (i : Fin 8192) (d : Fin 1024) :
    ∃ r : ℝ, fn x i d = (r : EReal) := by
  obtain ⟨n, hn, hN⟩ := nrm_real x hx i
  obtain ⟨r, hr⟩ := hx i d
  exact ⟨r * (1 / n), by rw [fn, hN, Ideal.div_coe hn.ne', hr, ← EReal.coe_mul]⟩

/-- The scaled Gram entries of a real matrix are real. -/
private theorem sK_real (y : Mat 8192 1024) (hy : ∀ i d, ∃ r : ℝ, y i d = (r : EReal)) (i j : Fin 8192) :
    ∃ t : ℝ, sK y i j = (t : EReal) := by
  choose r hr using hy
  refine ⟨(∑ d, r i d * r j d) * (134217728 / 9395241), ?_⟩
  have h1 : dotp y i j = ((∑ d, r i d * r j d : ℝ) : EReal) := by
    rw [dotp, ← coe_sum]; exact Finset.sum_congr rfl fun d _ => by rw [hr, hr, ← EReal.coe_mul]
  rw [sK, h1, invTemp, ← EReal.coe_mul]

/-- Multiplying by the named reciprocal is dividing by the temperature word: `2^27 / 9395241` is exactly
    the reciprocal of `9395241 / 2^27`. -/
private theorem sK_eq_sR (y : Mat 8192 1024) (i j : Fin 8192) : sK y i j = sR y i j := by
  have ht : (9395241 / 134217728 : ℝ) ≠ 0 := by norm_num
  have hq : (1 / (9395241 / 134217728) : ℝ) = 134217728 / 9395241 := by norm_num
  rw [sK, sR, tempW_eq, Ideal.div_coe ht, invTemp, hq]

/-- The masked logits of a real matrix never reach `⊤`. -/
private theorem sKm_ne_top (y : Mat 8192 1024) (hy : ∀ i d, ∃ r : ℝ, y i d = (r : EReal)) (i j : Fin 8192) :
    sKm y i j ≠ ⊤ := by
  rw [sKm]
  split_ifs
  · exact bot_ne_top
  · obtain ⟨t, ht⟩ := sK_real y hy i j
    rw [ht]; exact EReal.coe_ne_top t

/-- The paired column is never the diagonal one. -/
private theorem lab_ne (i : Fin 8192) : lab i ≠ i := by
  intro h
  have h' := congrArg Fin.val h
  simp only [lab] at h'
  split_ifs at h' with hc <;> simp at h' <;> omega

/-! ## The column blocks tile the row -/

/-- The columns of the first `k` column blocks. -/
private def cols (k : ℕ) : Finset (Fin 8192) := Finset.univ.filter fun j => j.val < k * 512

private theorem cols_zero : cols 0 = ∅ := by
  rw [cols]; exact Finset.filter_false_of_mem fun j _ => by omega

private theorem cols_full : cols 16 = Finset.univ := by
  rw [cols]; exact Finset.filter_true_of_mem fun j _ => by have := j.isLt; omega

private theorem cols_succ (k : ℕ) (h : k < 16) : cols (k + 1) = cols k ∪ Finset.univ.image (col ⟨k, h⟩) := by
  ext j
  simp only [cols, Finset.mem_filter, Finset.mem_univ, true_and, Finset.mem_union, Finset.mem_image]
  constructor
  · intro hj
    by_cases h' : j.val < k * 512
    · exact Or.inl h'
    · refine Or.inr ⟨⟨j.val - k * 512, by omega⟩, Fin.ext ?_⟩
      simp only [col]; omega
  · rintro (hj | ⟨q, rfl⟩)
    · omega
    · simp only [col]; have := q.isLt; omega

private theorem cols_disj (k : ℕ) (h : k < 16) : Disjoint (cols k) (Finset.univ.image (col ⟨k, h⟩)) := by
  rw [Finset.disjoint_left]
  intro j hj hj'
  simp only [cols, Finset.mem_filter, Finset.mem_univ, true_and, Finset.mem_image] at hj hj'
  obtain ⟨q, rfl⟩ := hj'
  simp only [col] at hj; omega

private theorem col_inj (k : Fin 16) : Function.Injective (col k) := by
  intro q q' h
  have h' := congrArg Fin.val h
  simp only [col] at h'
  exact Fin.ext (by omega)

/-! ## Rescaling a partial sum of exponentials -/

/-- For `a` real or `⊥` and `μ` real, `exp (a - μ) = exp a · exp (-μ)`, a product of reals. -/
private theorem exp_sub_coe {a : EReal} (ha : a ≠ ⊤) (μ : ℝ) :
    Ideal.exp (a - (μ : EReal)) = (((Ideal.exp a).toReal * Real.exp (-μ) : ℝ) : EReal) := by
  induction a using EReal.rec with
  | bot => rw [EReal.bot_sub, Ideal.exp_bot]; simp
  | top => exact absurd rfl ha
  | coe r =>
    rw [← EReal.coe_sub, Ideal.exp_coe, Ideal.exp_coe, EReal.toReal_coe, sub_eq_add_neg, Real.exp_add]

/-- The online step's correction: a sum of exponentials taken against its own supremum `M`, times
    `exp (M - M')` for a later maximum `M' ≥ M`, is the sum taken against `M'`. When `M = ⊥` every
    term is `exp ⊥ = 0` on both sides; when `M` is real so is `M'`, and the identity is
    `exp (M - M') · exp (-M) = exp (-M')` termwise. -/
private theorem rescale {ι : Type} (S : Finset ι) (f : ι → EReal) (hf : ∀ j ∈ S, f j ≠ ⊤) (mn : EReal)
    (hle : S.sup f ≤ mn) (hmn : mn ≠ ⊤) :
    Ideal.exp (S.sup f - mn) * ∑ j ∈ S, Ideal.exp (f j - S.sup f) = ∑ j ∈ S, Ideal.exp (f j - mn) := by
  generalize hM : S.sup f = M at hle ⊢
  induction M using EReal.rec with
  | bot =>
    have hb : ∀ j ∈ S, f j = ⊥ := (Finset.sup_eq_bot_iff f S).mp hM
    rw [Finset.sum_eq_zero (fun j hj => by rw [hb j hj, EReal.bot_sub, Ideal.exp_bot]),
      Finset.sum_eq_zero (fun j hj => by rw [hb j hj, EReal.bot_sub, Ideal.exp_bot]), mul_zero]
  | coe μ =>
    have hmb : mn ≠ ⊥ := fun hb => EReal.coe_ne_bot μ (le_bot_iff.mp (hb ▸ hle))
    lift mn to ℝ using ⟨hmn, hmb⟩ with μ'
    have hE : Real.exp (μ - μ') * Real.exp (-μ) = Real.exp (-μ') := by
      rw [← Real.exp_add]; congr 1; ring
    rw [Finset.sum_congr rfl (fun j hj => exp_sub_coe (hf j hj) μ),
      Finset.sum_congr rfl (fun j hj => exp_sub_coe (hf j hj) μ'), coe_sum, coe_sum, ← EReal.coe_sub,
      Ideal.exp_coe, ← EReal.coe_mul, Finset.mul_sum]
    congr 1
    refine Finset.sum_congr rfl fun j _ => ?_
    rw [← hE]; ring
  | top =>
    exfalso
    have hlt : S.sup f < ⊤ := (Finset.sup_lt_iff bot_lt_top).mpr fun j hj => lt_top_iff_ne_top.mpr (hf j hj)
    exact hlt.ne hM

/-! ## The recurrence's invariant -/

/-- After `k` column blocks the carried triple is: the supremum of the masked logits over the columns seen,
    the sum over them of the exponentials against that supremum, and the paired logit if its column was seen. -/
private structure Inv (y : Mat 8192 1024) (i : Fin 8192) (k : ℕ) : Prop where
  m : (accAt y i k).m = (cols k).sup (sKm y i)
  l : (accAt y i k).l = ∑ j ∈ cols k, Ideal.exp (sKm y i j - (cols k).sup (sKm y i))
  p : (accAt y i k).p = ∑ j ∈ cols k, (if lab i = j then sK y i j else 0)

private theorem inv (y : Mat 8192 1024) (hy : ∀ i d, ∃ r : ℝ, y i d = (r : EReal)) (i : Fin 8192) :
    ∀ k, k ≤ 16 → Inv y i k := by
  intro k
  induction k with
  | zero =>
    intro _
    refine ⟨?_, ?_, ?_⟩ <;> simp [accAt, acc0, cols_zero]
  | succ k ih =>
    intro hk
    have h : k < 16 := hk
    have ih := ih h.le
    have hsup : (Finset.univ.image (col ⟨k, h⟩)).sup (sKm y i) = Finset.univ.sup fun q => sKm y i (col ⟨k, h⟩ q) := by
      rw [Finset.sup_image]; rfl
    have hsum : ∀ F : Fin 8192 → EReal,
        ∑ j ∈ Finset.univ.image (col ⟨k, h⟩), F j = ∑ q, F (col ⟨k, h⟩ q) :=
      fun F => Finset.sum_image fun a _ b _ hab => col_inj ⟨k, h⟩ hab
    have hacc : accAt y i (k + 1) = accStep y i ⟨k, h⟩ (accAt y i k) := by
      rw [accAt, dif_pos h]
    have hB : (Finset.univ.sup fun q => sKm y i (col ⟨k, h⟩ q)) ≠ ⊤ := by
      refine ne_of_lt ((Finset.sup_lt_iff bot_lt_top).mpr fun q _ => lt_top_iff_ne_top.mpr (sKm_ne_top y hy i _))
    have hS : (cols k).sup (sKm y i) ≠ ⊤ := by
      refine ne_of_lt ((Finset.sup_lt_iff bot_lt_top).mpr fun q _ => lt_top_iff_ne_top.mpr (sKm_ne_top y hy i _))
    refine ⟨?_, ?_, ?_⟩
    · rw [hacc, cols_succ k h, Finset.sup_union, hsup]
      simp only [accStep]
      rw [ih.m]
    · rw [hacc, cols_succ k h, Finset.sup_union, Finset.sum_union (cols_disj k h), hsum, hsup]
      simp only [accStep]
      rw [ih.m, ih.l, rescale (cols k) (sKm y i) (fun j _ => sKm_ne_top y hy i j) _ le_sup_left
        (by rw [ne_eq, max_eq_top]; exact not_or.mpr ⟨hS, hB⟩)]
    · rw [hacc, cols_succ k h, Finset.sum_union (cols_disj k h), hsum]
      simp only [accStep]
      rw [ih.p]

/-! ## The two sides agree on real inputs -/

/-- Row `i`: the recurrence's `p - (m + log l)` is the one-pass log-softmax at the paired column. The row
    maximum is real (the paired column's entry is real and nothing is `⊤`), which is what lets
    `p - (m + c)` reassociate to `(p - m) - c` in the extended reals. -/
private theorem row_eq (y : Mat 8192 1024) (hy : ∀ i d, ∃ r : ℝ, y i d = (r : EReal)) (i : Fin 8192) :
    lposK y i - lseK y i = logp (sRm y) i (lab i) := by
  have hI := inv y hy i 16 le_rfl
  have hs : sRm y = sKm y := by
    funext a b; simp only [sRm, sKm, sK_eq_sR]
  have hm : (accAt y i 16).m = rowMax (sKm y) i := by rw [hI.m, cols_full]; rfl
  have hl : (accAt y i 16).l = ∑ j', Ideal.exp (sKm y i j' - rowMax (sKm y) i) := by
    rw [hI.l, cols_full]; rfl
  have hp : (accAt y i 16).p = sKm y i (lab i) := by
    rw [hI.p, cols_full, Fintype.sum_ite_eq, sKm, if_neg (lab_ne i).symm]
  obtain ⟨t, ht⟩ := sK_real y hy i (lab i)
  have hlt : rowMax (sKm y) i < ⊤ :=
    (Finset.sup_lt_iff bot_lt_top).mpr fun j _ => lt_top_iff_ne_top.mpr (sKm_ne_top y hy i j)
  have hge : ((t : ℝ) : EReal) ≤ rowMax (sKm y) i := by
    have := Finset.le_sup (f := sKm y i) (Finset.mem_univ (lab i))
    rwa [sKm, if_neg (lab_ne i).symm, ht] at this
  have hbot : rowMax (sKm y) i ≠ ⊥ := fun hb => EReal.coe_ne_bot t (le_bot_iff.mp (hb ▸ hge))
  obtain ⟨μ, hμ⟩ : ∃ μ : ℝ, rowMax (sKm y) i = (μ : EReal) :=
    ⟨(rowMax (sKm y) i).toReal, (EReal.coe_toReal hlt.ne hbot).symm⟩
  rw [lposK, lseK, logp, hs, hm, hl, hp, hμ, sub_eq_add_neg,
    EReal.neg_add (Or.inl (EReal.coe_ne_bot μ)) (Or.inl (EReal.coe_ne_top μ)), sub_eq_add_neg (-(μ : EReal)),
    ← add_assoc, ← sub_eq_add_neg, ← sub_eq_add_neg]

theorem loss_eq (x : Mat 8192 1024) (hx : ∀ i d, ∃ r : ℝ, x i d = (r : EReal)) : lossK x = lossR x := by
  have h : ∀ i, lposK (fn x) i - lseK (fn x) i = logp (sRm (fn x)) i (lab i) :=
    row_eq (fn x) (fn_real x hx)
  simp only [lossK, lossR, h]

end Cert.Spec

end
-- ==== Proof.KernelIdeal.V0.lean ====
/-
  What the row-normalizing region leaves in its output array, over the extended reals: entry (i, d) is the
  input's entry (i, d) divided by row i's Euclidean norm clamped below at ε.

  The block a grid point stores is one payload of its input block: the squares summed along each row, the
  square root, the maximum with ε, that column spread back over the row, and the division (the closing change
  of format is the identity on extended reals). Read at row p, column q it is
  x(p, q) / max(√(∑ₖ x(p, k)²), ε) (`pay_apply`). Point t's blocks are rows 1024 t … 1024 t + 1023 of both
  arrays (`idx_facts`, `iblk0_apply`), so what the point writes back is its block of ONE function of the whole
  input array (`flushed0_1_eq`); the eight blocks cover the 8192 rows (`cover0_1_arr`), hence the array ends
  holding that function (`arr0_eq`, `arr0_value`).
-/
import proofs.«164746_j32564442038466_1_alg».proof.Proof.KernelIdeal.R0
import proofs.«164746_j32564442038466_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)

section Layout
variable {α : Type}

/-- A length-`a` vector viewed as a column reads, at `(i, u)`, its entry `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column spread over `b` columns reads, at `(p, q)`, the column's entry `p`. -/
theorem broadcastTo_a1_ab_apply {a b : ℕ} (v : (⟨2, ![a, 1]⟩ : Shape).Idx → α) (h : (⟨2, ![a, 1]⟩ : Shape).Broadcasts ⟨2, ![a, b]⟩)
    (p : Fin a) (q : Fin b) : broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

end Layout

/-- The block's payload at row `p`, column `q`: the entry over its row's clamped norm. -/
theorem pay_apply (x0 : Vec Ideal S1024x1024 .f32) (p q : Fin 1024) :
    k0_pay1 (F := Ideal) x0 (ix2 p q)
      = Ideal.div (x0 (ix2 p q)) (max (Ideal.sqrt (∑ k : Fin 1024, x0 (ix2 p k) * x0 (ix2 p k))) Cert.Spec.epsW) := by
  unfold k0_pay1
  show Ideal.div (x0 (ix2 p q)) (broadcastTo S1024x1024 _ broadcasts_S1024x1_S1024x1024 (ix2 p q)) = _
  refine congrArg (Ideal.div (x0 (ix2 p q))) ?_
  refine (broadcastTo_a1_ab_apply _ _ p q).trans ?_
  show max (Ideal.sqrt (shapeCast S1024x1 _ shapeCasts_S1024_S1024x1 (ix2 p (0 : Fin 1)))) Cert.Spec.epsW = _
  refine congrArg (fun z => max (Ideal.sqrt z) Cert.Spec.epsW) ?_
  refine (shapeCast_a_a1_apply _ _ p 0).trans ?_
  refine (Ideal.multiReduction_add_single (mulf x0 x0) _ reduces_S1024x1024_S1024 _ _ (ix1 p)).trans ?_
  show ∑ k : Fin 1024, x0 (reduces_S1024x1024_S1024.lift (ix1 p) k) * x0 (reduces_S1024x1024_S1024.lift (ix1 p) k) = _
  refine Finset.sum_congr rfl fun k _ => ?_
  have hk : reduces_S1024x1024_S1024.lift (ix1 p) k = ix2 p k :=
    funext fun c => Fin.ext (match c with | ⟨0, _⟩ => rfl | ⟨1, _⟩ => rfl)
  rw [hk]

section Region0Value

variable (V : (c : Dev nD) → (b : Ref sig .tc) → Buf (Elt Ideal) ((c : Thread nD τ).loc b))

/-- The normalized rows as one function of the whole input array. -/
abbrev normRows (a : S8192x1024.Idx → EReal) : S8192x1024.Idx → EReal :=
  fun j => Cert.Spec.fn (Cert.Spec.toMat a) (j 0) (j 1)

/-- The input array as the region finds it, at its literal type. -/
abbrev xarr (c : Dev nD) : S8192x1024.Idx → EReal := V c main_arg0

theorem hz : (![0, 0] : Fin 2 → Nat) = fun _ => 0 := funext fun a => by fin_cases a <;> rfl

/-- Both windows move down the rows with the point: point `t`'s block starts at row `1024 t`, column 0. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0 :=
  (by decide +kernel : ∀ t : Fin grid0.N, _)

/-- The input block at point `t` is rows `1024 t … 1024 t + 1023` of the input array. -/
theorem iblk0_apply (c : Dev nD) (t : Fin cfg0.N) (p q : Fin 1024) (r : Fin 8192) (hr : r.val = 1024 * t.val + p.val) :
    (iblk0 V c 0 t : Vec Ideal S1024x1024 .f32) (ix2 p q) = xarr V c (ix2 r q) := by
  obtain ⟨e0, e1, -, -⟩ := idx_facts t
  unfold iblk0
  rw [View.read_apply]
  show V c main_arg0 _ = V c main_arg0 _
  congr 1
  funext a
  apply Fin.ext
  match a with
  | ⟨0, _⟩ => show win0_0.index t (0 : Fin 2) * 1024 + 1 * p.val = r.val; rw [e0, hr]; omega
  | ⟨1, _⟩ => show win0_0.index t (1 : Fin 2) * 1024 + 1 * q.val = q.val; rw [e1]; omega

/-- What point `t` writes back is its block of the normalized rows of the input array. -/
theorem flushed0_1_eq (c : Dev nD) (t : Fin cfg0.N) :
    (dat0 (F := Ideal) V c).flushed 1 t
      = ((cfg0.win 1).blk t).view.read (Elt Ideal) (normRows (xarr V c)) := by
  show (cfg0.win 1).cut (grid0.coords t) ((dat0 V c).after 1 t) = _
  rw [after0_1]
  unfold out0_1
  rw [View.canon_unit_zero hz]
  simp only [View.ld_unit_zero (S := S1024x1024) hz]
  obtain ⟨-, -, e2, e3⟩ := idx_facts t
  have ht : t.val < 8 := lt_of_lt_of_eq t.isLt (N_0 : cfg0.N = 8)
  funext j
  obtain ⟨p, q, rfl⟩ : ∃ (p : Fin 1024) (q : Fin 1024), j = ix2 p q := ⟨j 0, j 1, eq_ix2 j⟩
  let r : Fin 8192 := ⟨1024 * t.val + p.val, by have := p.isLt; omega⟩
  rw [View.read_apply]
  have hemb : ((cfg0.win 1).blk t).view.emb (ix2 p q) = (ix2 r q : S8192x1024.Idx) := by
    funext a
    apply Fin.ext
    match a with
    | ⟨0, _⟩ => show win0_1.index t (0 : Fin 2) * 1024 + 1 * p.val = 1024 * t.val + p.val; rw [e2]; omega
    | ⟨1, _⟩ => show win0_1.index t (1 : Fin 2) * 1024 + 1 * q.val = q.val; rw [e3]; omega
  rw [hemb]
  show k0_pay1 (F := Ideal) (iblk0 V c 0 t) (ix2 p q)
    = Ideal.div (xarr V c (ix2 r q))
        (max (Ideal.sqrt (∑ d : Fin 1024, xarr V c (ix2 r d) * xarr V c (ix2 r d))) Cert.Spec.epsW)
  refine (pay_apply (iblk0 V c 0 t) p q).trans ?_
  rw [iblk0_apply V c t p q r rfl]
  refine congrArg (fun z => Ideal.div _ (max (Ideal.sqrt z) Cert.Spec.epsW)) ?_
  refine Finset.sum_congr rfl fun k _ => ?_
  rw [iblk0_apply V c t p k r rfl]

/-- Row `i` of the output array lies in the block of point `i / 1024`. -/
theorem cover0_1_arr (i : S8192x1024.Idx) :
    ∃ t : Fin cfg0.N, (cfg0.win 1).flush t = true ∧ i ∈ ((cfg0.win 1).blk t).view.set := by
  have h0 : (i 0).val < 8192 := (i 0).isLt
  have h1 : (i 1).val < 1024 := (i 1).isLt
  let t : Fin cfg0.N := ⟨(i 0).val / 1024, by rw [show cfg0.N = 8 from N_0]; omega⟩
  obtain ⟨-, -, e2, e3⟩ := idx_facts t
  refine ⟨t, flush0_1 t, ?_⟩
  show i ∈ ((View.whole main_v0).slice (win0_1.rect t)).set
  rw [View.set_slice_whole, Rect.mem_set_unit]
  intro a
  match a with
  | ⟨0, _⟩ =>
    show win0_1.index t (0 : Fin 2) * 1024 ≤ (i 0).val ∧ (i 0).val < win0_1.index t (0 : Fin 2) * 1024 + 1024
    rw [e2]; show (i 0).val / 1024 * 1024 ≤ (i 0).val ∧ (i 0).val < (i 0).val / 1024 * 1024 + 1024; omega
  | ⟨1, _⟩ =>
    show win0_1.index t (1 : Fin 2) * 1024 ≤ (i 1).val ∧ (i 1).val < win0_1.index t (1 : Fin 2) * 1024 + 1024
    rw [e3]; omega

/-- After the region the output array holds the normalized rows of the input array. -/
theorem arr0_eq (c : Dev nD) : (dat0 (F := Ideal) V c).arrAt 1 cfg0.N = normRows (xarr V c) :=
  (dat0 (F := Ideal) V c).arrAt_eq_of_cover 1 (normRows (xarr V c)) (fun t _ => flushed0_1_eq V c t) cover0_1_arr

/-- Entry `(i, d)` of the output array: the input's entry over its row's clamped Euclidean norm. -/
theorem arr0_value (c : Dev nD) (i : Fin 8192) (d : Fin 1024) :
    (dat0 (F := Ideal) V c).arrAt 1 cfg0.N (ix2 i d) = Cert.Spec.fn (Cert.Spec.toMat (V c main_arg0)) i d := by
  rw [arr0_eq V c]

end Region0Value

end Cert.KernelIdeal.Hand

end
-- ==== Proof.KernelIdeal.V1a.lean ====
/-
  The similarity region's arithmetic read entry by entry, at the ideal instance. For a row block `q` and a column
  block `k` of the normalized features (512 rows of 1024 each), the scaled Gram block has at (p, j) the sum over
  the 1024 features of `q p d * k j d`, times the reciprocal temperature; the row and column numbers of the block's
  entries in the whole 8192 × 8192 matrix are `512 * rb + p` and `512 * cb + j`; the diagonal is masked to −∞ and
  the paired column `row ± 4096` is picked out by an equality test. Each lemma states one of these readings over
  explicit coordinates `p j : Fin 512`.
-/
import proofs.«164746_j32564442038466_1_alg».proof.Proof.Gen.KernelIdeal.Skeleton
import proofs.«164746_j32564442038466_1_alg».proof.Proof.Spec
import Idealize.ShloMosaic.PureOps.Ideal.Laws
import Idealize.ShloMosaic.PureOps.IdealRules
import Idealize.ShloMosaic.Lib.ValueIdx
import Idealize.ShloMosaic.Lib.ValueLayout
import Idealize.ShloMosaic.Lib.Pipeline.Value
import Idealize.ShloMosaic.Lib.StableHlo.Predicate

set_option maxRecDepth 16384

noncomputable section

namespace Cert.KernelIdeal.Hand

open Cert.KernelIdeal Cert.KernelIdeal.Gen
open Idealize.ShloMosaic Idealize.ShloMosaic.ValueIdx
open scoped BigOperators

/-! ## The two named constants -/

/-- The named reciprocal of the temperature is the rational the table gives it. -/
theorem inv_temp_eq :
    Named.named (F := Ideal) Cert.KernelIdeal.κ "inv_temp" (φ := .f32) 0x41649249#32 = Cert.Spec.invTemp :=
  IdealRules.named_const.ideal_named_scalar _ _ _ _ rfl

/-- The named mask value is −∞. -/
theorem neg_big_eq :
    Named.named (F := Ideal) Cert.KernelIdeal.κ "neg_big" (φ := .f32) 0xF149F2CA#32 = (⊥ : EReal) :=
  IdealRules.named_const.ideal_named_scalar _ _ _ _ rfl

/-! ## The product of a row block with a transposed column block -/

/-- The block product's dimension numbers: rows × features times features × columns. -/
abbrev D1 : DotDims S512x1024 S1024x512 S512x512 := dot_S512x1024_S1024x512_S512x512_1_0_0_1_n_n

theorem lhs1_0 (i : S512x512.Idx) (c : dot_S512x1024_S1024x512_S512x512_1_0_0_1_n_n.contr.Idx) :
    (dot_S512x1024_S1024x512_S512x512_1_0_0_1_n_n.lhsIdx i c 0).val = (i 0).val := by
  unfold DotDims.lhsIdx
  rw [dif_neg (show ¬(0 : Fin S512x1024.rank) ∈ dot_S512x1024_S1024x512_S512x512_1_0_0_1_n_n.lhsBatch by decide), dif_pos (show (0 : Fin S512x1024.rank) ∈ dot_S512x1024_S1024x512_S512x512_1_0_0_1_n_n.lhsNonContracting by decide)]
  rfl
theorem lhs1_1 (i : S512x512.Idx) (c : dot_S512x1024_S1024x512_S512x512_1_0_0_1_n_n.contr.Idx) :
    (dot_S512x1024_S1024x512_S512x512_1_0_0_1_n_n.lhsIdx i c 1).val = (c ⟨0, by decide⟩).val :=
  dot_S512x1024_S1024x512_S512x512_1_0_0_1_n_n.lhsIdx_val_of_single rfl i c
theorem rhs1_0 (i : S512x512.Idx) (c : dot_S512x1024_S1024x512_S512x512_1_0_0_1_n_n.contr.Idx) :
    (dot_S512x1024_S1024x512_S512x512_1_0_0_1_n_n.rhsIdx i c 0).val = (c ⟨0, by decide⟩).val :=
  dot_S512x1024_S1024x512_S512x512_1_0_0_1_n_n.rhsIdx_val_of_single rfl i c
theorem rhs1_1 (i : S512x512.Idx) (c : dot_S512x1024_S1024x512_S512x512_1_0_0_1_n_n.contr.Idx) :
    (dot_S512x1024_S1024x512_S512x512_1_0_0_1_n_n.rhsIdx i c 1).val = (i 1).val := by
  unfold DotDims.rhsIdx
  rw [dif_neg (show ¬(1 : Fin S1024x512.rank) ∈ dot_S512x1024_S1024x512_S512x512_1_0_0_1_n_n.rhsBatch by decide), dif_pos (show (1 : Fin S1024x512.rank) ∈ dot_S512x1024_S1024x512_S512x512_1_0_0_1_n_n.rhsNonContracting by decide)]
  rfl

/-- The product into the zero block, at (p, j): the sum over the features of row `p` of the left operand against
    column `j` of the right one. -/
theorem matmul1_apply (a : FVec Ideal S512x1024 .bf16) (b : FVec Ideal S1024x512 .bf16) (p j : Fin 512) :
    FloatOps.matmul dot_S512x1024_S1024x512_S512x512_1_0_0_1_n_n none a b (constant (F := Ideal) S512x512 .f32 0x00000000#32) (ix2 p j)
      = ∑ d : Fin 1024, a (ix2 p d) * b (ix2 d j) := by
  rw [Ideal.matmul_constant_zero_apply, ← Equiv.sum_comp (ValueIdx.contrEquiv1 dot_S512x1024_S1024x512_S512x512_1_0_0_1_n_n 1024 rfl rfl).symm]
  refine Finset.sum_congr rfl fun d _ => ?_
  have hd := ValueIdx.contrEquiv1_symm_val dot_S512x1024_S1024x512_S512x512_1_0_0_1_n_n 1024 rfl rfl d
  have el : dot_S512x1024_S1024x512_S512x512_1_0_0_1_n_n.lhsIdx (ix2 p j) ((ValueIdx.contrEquiv1 dot_S512x1024_S1024x512_S512x512_1_0_0_1_n_n 1024 rfl rfl).symm d) = ix2 p d := funext fun ax => Fin.ext (by
    match ax with
    | ⟨0, _⟩ => exact lhs1_0 _ _
    | ⟨1, _⟩ => exact (lhs1_1 _ _).trans hd)
  have er : dot_S512x1024_S1024x512_S512x512_1_0_0_1_n_n.rhsIdx (ix2 p j) ((ValueIdx.contrEquiv1 dot_S512x1024_S1024x512_S512x512_1_0_0_1_n_n 1024 rfl rfl).symm d) = ix2 d j := funext fun ax => Fin.ext (by
    match ax with
    | ⟨0, _⟩ => exact (rhs1_0 _ _).trans hd
    | ⟨1, _⟩ => exact rhs1_1 _ _)
  rw [el, er]

/-- The scaled Gram block at (p, j). -/
theorem pay9_apply (q k : Vec Ideal S512x1024 .bf16) (p j : Fin 512) :
    k1_pay9 (F := Ideal) q k (ix2 p j) = (∑ d : Fin 1024, q (ix2 p d) * k (ix2 j d)) * Cert.Spec.invTemp := by
  unfold k1_pay9
  try dsimp only
  refine (mulf_apply _ _ _).trans ?_
  refine congrArg₂ (· * ·) ?_ inv_temp_eq
  refine (matmul1_apply _ _ p j).trans ?_
  refine Finset.sum_congr rfl fun d _ => ?_
  refine congrArg₂ (· * ·) (congrFun (shapeCast_self q _) _) ?_
  exact (transpose_ix2_apply _ _ d j).trans (congrFun (shapeCast_self k _) _)

/-! ## Row and column numbers as 32-bit words -/

theorem word_lin (a p : ℕ) : BitVec.ofNat 32 a * 512#32 + BitVec.ofNat 32 p = BitVec.ofNat 32 (512 * a + p) := by
  rw [show (512#32 : BitVec 32) = BitVec.ofNat 32 512 from rfl, ← BitVec.ofNat_mul, ← BitVec.ofNat_add, Nat.mul_comm]

theorem word_eq_iff (a b : ℕ) (ha : a < 2 ^ 32) (hb : b < 2 ^ 32) :
    IntOp.cmpi .eq (BitVec.ofNat 32 a) (BitVec.ofNat 32 b) = 1#1 ↔ a = b := by
  rw [StableHlo.Predicate.cmpi_eq_iff]
  constructor
  · intro h
    have := congrArg BitVec.toNat h
    rw [BitVec.toNat_ofNat, BitVec.toNat_ofNat, Nat.mod_eq_of_lt ha, Nat.mod_eq_of_lt hb] at this
    exact this
  · rintro rfl; rfl

theorem word_slt_iff (a b : ℕ) (ha : a < 2 ^ 31) (hb : b < 2 ^ 31) :
    IntOp.cmpi .slt (BitVec.ofNat 32 a) (BitVec.ofNat 32 b) = 1#1 ↔ a < b := by
  unfold IntOp.cmpi; exact StableHlo.Predicate.slt_ofNat_iff a b ha hb

theorem word_add (a b : ℕ) : IntOp.addi (BitVec.ofNat 32 a) (BitVec.ofNat 32 b) = BitVec.ofNat 32 (a + b) := by
  unfold IntOp.addi; rw [← BitVec.ofNat_add]

theorem word_sub (a b : ℕ) (hab : b ≤ a) (ha : a < 2 ^ 32) :
    IntOp.subi (BitVec.ofNat 32 a) (BitVec.ofNat 32 b) = BitVec.ofNat 32 (a - b) := by
  unfold IntOp.subi
  apply BitVec.eq_of_toNat_eq
  simp only [BitVec.toNat_sub, BitVec.toNat_ofNat]
  omega

/-- Row `p` of row block `i 0` has number `512 * i 0 + p`. -/
theorem pay10_apply (i : grid1.Coords) (p : Fin 512) :
    k1_pay10 i (ix2 p (0 : Fin 1)) = BitVec.ofNat 32 (512 * (i 0).val + p.val) := by
  unfold k1_pay10
  try dsimp only
  refine Eq.trans ?_ (word_lin (i 0).val p.val)
  show IntOp.addi _ _ = _
  unfold IntOp.addi
  refine congrArg₂ (· + ·) rfl ?_
  exact iota_single_apply .tc S512x1 32 0 _ (ix2 p (0 : Fin 1))

/-- Column `j` of column block `i 1` has number `512 * i 1 + j`. -/
theorem pay11_apply (i : grid1.Coords) (j : Fin 512) :
    k1_pay11 i (ix2 (0 : Fin 1) j) = BitVec.ofNat 32 (512 * (i 1).val + j.val) := by
  unfold k1_pay11
  try dsimp only
  refine Eq.trans ?_ (word_lin (i 1).val j.val)
  show IntOp.addi _ _ = _
  unfold IntOp.addi
  refine congrArg₂ (· + ·) rfl ?_
  exact iota_single_apply .tc S1x512 32 1 _ (ix2 (0 : Fin 1) j)

/-! ## Layout steps over the block's coordinates -/

section Layout
variable {α : Type}

/-- A column spread over the block's columns reads its row's entry. -/
theorem bcast_col_apply (v : S512x1.Idx → α) (h : S512x1.Broadcasts S512x512) (p j : Fin 512) :
    broadcastTo S512x512 v h (ix2 p j) = v (ix2 p (0 : Fin 1)) :=
  broadcastTo_apply v h (ix2 p j) (ix2 p (0 : Fin 1)) fun ax => match ax with
    | ⟨0, _⟩ => rfl
    | ⟨1, _⟩ => rfl

/-- A row spread over the block's rows reads its column's entry. -/
theorem bcast_row_apply (v : S1x512.Idx → α) (h : S1x512.Broadcasts S512x512) (p j : Fin 512) :
    broadcastTo S512x512 v h (ix2 p j) = v (ix2 (0 : Fin 1) j) :=
  broadcastTo_1b_ab_apply v h p j

/-- A vector of 512 entries written as a column. -/
theorem col_of_vec_apply (v : S512.Idx → α) (h : S512.ShapeCasts S512x1) (p : Fin 512) :
    shapeCast S512x1 v h (ix2 p (0 : Fin 1)) = v (ix1 p) :=
  shapeCast_apply v h _ _ (by
    rw [Shape.rowMajor_val_two, Shape.rowMajor_val_one]
    show p.val = p.val * 1 + 0
    omega)

end Layout

/-! ## The lane reductions -/

/-- The lane sum of a 512 × 512 block, at row `p`. -/
theorem lane_sum_apply (v : FVec Ideal S512x512 .f32) (h : S512x512.Reduces [1] S512) (p : Fin 512) :
    multiReduction .add [1] S512 v 0x00000000#32 h (.inl rfl) rfl (ix1 p) = ∑ j : Fin 512, v (ix2 p j) := by
  refine (Ideal.multiReduction_add_single v 0x00000000#32 h (.inl rfl) rfl (ix1 p)).trans ?_
  refine Finset.sum_congr rfl fun j _ => congrArg v ?_
  funext ax
  match ax with
  | ⟨0, _⟩ => rfl
  | ⟨1, _⟩ => rfl

theorem fold_max_bot_eq_sup {ι : Type} [DecidableEq ι] (s : Finset ι) (f : ι → EReal) : s.fold max ⊥ f = s.sup f := by
  induction s using Finset.induction_on with
  | empty => simp
  | insert a s ha ih => rw [Finset.fold_insert ha, Finset.sup_insert, ih]

/-- The lane maximum of a 512 × 512 block from −∞, at row `p`. -/
theorem lane_max_apply (v : FVec Ideal S512x512 .f32) (h : S512x512.Reduces [1] S512) (p : Fin 512) :
    multiReduction .maximumf [1] S512 v 0xFF800000#32 h (.inl rfl) rfl (ix1 p)
      = Finset.univ.sup fun j : Fin 512 => v (ix2 p j) := by
  refine (Ideal.multiReduction_maximumf_single v 0xFF800000#32 h (.inl rfl) rfl (ix1 p)).trans ?_
  have hb : (FloatOps.ofBits .f32 0xFF800000#32 : Ideal .f32) = (⊥ : EReal) := Cert.Spec.negInfW_eq
  rw [hb]
  refine (fold_max_bot_eq_sup _ _).trans ?_
  refine Finset.sup_congr rfl fun j _ => congrArg v ?_
  funext ax
  match ax with
  | ⟨0, _⟩ => rfl
  | ⟨1, _⟩ => rfl

/-! ## The masked block, the paired-column pick, and the column updates -/

/-- The scaled Gram block with the matrix's diagonal masked to −∞, at (p, j). -/
theorem pay12_apply (i : grid1.Coords) (h0 : (i 0).val < 16) (h1 : (i 1).val < 16) (q k : Vec Ideal S512x1024 .bf16)
    (p j : Fin 512) :
    k1_pay12 (F := Ideal) i q k (ix2 p j)
      = if 512 * (i 0).val + p.val = 512 * (i 1).val + j.val then (⊥ : EReal)
        else (∑ d : Fin 1024, q (ix2 p d) * k (ix2 j d)) * Cert.Spec.invTemp := by
  unfold k1_pay12
  try dsimp only
  refine (select_apply _ _ _ _).trans ?_
  have hc : cmpi .eq (broadcastTo S512x512 (k1_pay10 i) broadcasts_S512x1_S512x512)
      (broadcastTo S512x512 (k1_pay11 i) broadcasts_S1x512_S512x512) (ix2 p j)
      = IntOp.cmpi .eq (BitVec.ofNat 32 (512 * (i 0).val + p.val)) (BitVec.ofNat 32 (512 * (i 1).val + j.val)) := by
    show IntOp.cmpi .eq _ _ = _
    refine congrArg₂ (IntOp.cmpi .eq) ?_ ?_
    · exact (bcast_col_apply _ _ p j).trans (pay10_apply i p)
    · exact (bcast_row_apply _ _ p j).trans (pay11_apply i j)
  rw [hc]
  have hp := p.isLt
  have hj := j.isLt
  by_cases he : 512 * (i 0).val + p.val = 512 * (i 1).val + j.val
  · rw [if_pos he, (word_eq_iff _ _ (by omega) (by omega)).mpr he, select_one]
    exact neg_big_eq
  · rw [if_neg he, eq_zero_of_ne_one (fun h => he ((word_eq_iff _ _ (by omega) (by omega)).mp h)), select_zero]
    exact pay9_apply q k p j

/-- The number of the column paired with a row: 4096 further on for the first 4096 rows, 4096 back for the others. -/
def pairOf (r : ℕ) : ℕ := if r < 4096 then r + 4096 else r - 4096

/-- The paired logit a column block contributes to row `p`: the scaled Gram entry at the paired column when that
    column lies in the block, else nothing. -/
theorem pay13_apply (i : grid1.Coords) (h0 : (i 0).val < 16) (h1 : (i 1).val < 16) (q k : Vec Ideal S512x1024 .bf16)
    (p : Fin 512) :
    k1_pay13 (F := Ideal) i q k (ix2 p (0 : Fin 1))
      = ∑ j : Fin 512, if pairOf (512 * (i 0).val + p.val) = 512 * (i 1).val + j.val
          then (∑ d : Fin 1024, q (ix2 p d) * k (ix2 j d)) * Cert.Spec.invTemp else 0 := by
  unfold k1_pay13
  try dsimp only
  refine (col_of_vec_apply _ _ p).trans ?_
  refine (lane_sum_apply _ _ p).trans ?_
  refine Finset.sum_congr rfl fun j _ => ?_
  refine (select_apply _ _ _ _).trans ?_
  have hp := p.isLt
  have hj := j.isLt
  -- the paired column's number as a word
  have hpair : select (cmpi .slt (k1_pay10 i) (broadcast S512x1 4096#32)) (addi (k1_pay10 i) (broadcast S512x1 4096#32))
      (subi (k1_pay10 i) (broadcast S512x1 4096#32)) (ix2 p (0 : Fin 1))
      = BitVec.ofNat 32 (pairOf (512 * (i 0).val + p.val)) := by
    refine (select_apply _ _ _ _).trans ?_
    show Scalar.select (IntOp.cmpi .slt (k1_pay10 i (ix2 p (0 : Fin 1))) 4096#32)
      (IntOp.addi (k1_pay10 i (ix2 p (0 : Fin 1))) 4096#32) (IntOp.subi (k1_pay10 i (ix2 p (0 : Fin 1))) 4096#32) = _
    rw [pay10_apply i p, show (4096#32 : BitVec 32) = BitVec.ofNat 32 4096 from rfl]
    unfold pairOf
    by_cases hlt : 512 * (i 0).val + p.val < 4096
    · rw [if_pos hlt, (word_slt_iff _ _ (by omega) (by omega)).mpr hlt, select_one, word_add]
    · rw [if_neg hlt, eq_zero_of_ne_one (fun h => hlt ((word_slt_iff _ _ (by omega) (by omega)).mp h)), select_zero,
        word_sub _ _ (by omega) (by omega)]
  have hc : cmpi .eq (broadcastTo S512x512 (select (cmpi .slt (k1_pay10 i) (broadcast S512x1 4096#32))
        (addi (k1_pay10 i) (broadcast S512x1 4096#32)) (subi (k1_pay10 i) (broadcast S512x1 4096#32))) broadcasts_S512x1_S512x512)
      (broadcastTo S512x512 (k1_pay11 i) broadcasts_S1x512_S512x512) (ix2 p j)
      = IntOp.cmpi .eq (BitVec.ofNat 32 (pairOf (512 * (i 0).val + p.val))) (BitVec.ofNat 32 (512 * (i 1).val + j.val)) := by
    show IntOp.cmpi .eq _ _ = _
    refine congrArg₂ (IntOp.cmpi .eq) ?_ ?_
    · exact (bcast_col_apply _ _ p j).trans hpair
    · exact (bcast_row_apply _ _ p j).trans (pay11_apply i j)
  rw [hc]
  have hpo : pairOf (512 * (i 0).val + p.val) < 2 ^ 32 := by unfold pairOf; split <;> omega
  by_cases he : pairOf (512 * (i 0).val + p.val) = 512 * (i 1).val + j.val
  · rw [if_pos he, (word_eq_iff _ _ hpo (by omega)).mpr he, select_one]
    exact pay9_apply q k p j
  · rw [if_neg he, eq_zero_of_ne_one (fun h => he ((word_eq_iff _ _ hpo (by omega)).mp h)), select_zero]
    exact Ideal.ofBits_zero_f32

/-- The new running maximum of row `p`: the old one against the block row's largest entry. -/
theorem pay2_apply (s : FVec Ideal S512x512 .f32) (m : Vec Ideal S512x1 .f32) (p : Fin 512) :
    k1_pay2 (F := Ideal) s m (ix2 p (0 : Fin 1))
      = max (m (ix2 p (0 : Fin 1))) (Finset.univ.sup fun j : Fin 512 => s (ix2 p j)) := by
  unfold k1_pay2
  try dsimp only
  refine (maximumf_apply _ _ _).trans ?_
  refine congrArg (max (m (ix2 p (0 : Fin 1)))) ?_
  exact (col_of_vec_apply _ _ p).trans (lane_max_apply _ _ p)

/-- The stored maximum column is the new running maximum. -/
theorem pay4_apply (s : FVec Ideal S512x512 .f32) (m : Vec Ideal S512x1 .f32) (p : Fin 512) :
    k1_pay4 (F := Ideal) s m (ix2 p (0 : Fin 1))
      = max (m (ix2 p (0 : Fin 1))) (Finset.univ.sup fun j : Fin 512 => s (ix2 p j)) := by
  unfold k1_pay4
  try dsimp only
  exact (congrFun (shapeCast_self _ _) _).trans (pay2_apply s m p)

/-- The new running sum of exponentials of row `p`: the old one rescaled to the new maximum, plus the block row's. -/
theorem pay3_apply (s : FVec Ideal S512x512 .f32) (m m' l : Vec Ideal S512x1 .f32) (p : Fin 512) :
    k1_pay3 (F := Ideal) s m m' l (ix2 p (0 : Fin 1))
      = Ideal.exp (m' (ix2 p (0 : Fin 1)) - k1_pay2 (F := Ideal) s m (ix2 p (0 : Fin 1))) * l (ix2 p (0 : Fin 1))
        + ∑ j : Fin 512, Ideal.exp (s (ix2 p j) - k1_pay2 (F := Ideal) s m (ix2 p (0 : Fin 1))) := by
  unfold k1_pay3
  try dsimp only
  refine (congrFun (shapeCast_self _ _) _).trans ?_
  refine (addf_apply _ _ _).trans ?_
  refine congrArg₂ (· + ·) rfl ?_
  refine (col_of_vec_apply _ _ p).trans ?_
  refine (lane_sum_apply _ _ p).trans ?_
  refine Finset.sum_congr rfl fun j _ => ?_
  show Ideal.exp (s (ix2 p j) - broadcastTo S512x512 (k1_pay2 (F := Ideal) s m) broadcasts_S512x1_S512x512 (ix2 p j)) = _
  rw [bcast_col_apply]

/-- The new running paired logit: the old one plus the block's contribution. -/
theorem pay1_apply (x : FVec Ideal S512x1 .f32) (a : Vec Ideal S512x1 .f32) (p : Fin 512) :
    k1_pay1 (F := Ideal) x a (ix2 p (0 : Fin 1)) = a (ix2 p (0 : Fin 1)) + x (ix2 p (0 : Fin 1)) := by
  unfold k1_pay1
  try dsimp only
  exact (congrFun (shapeCast_self _ _) _).trans (addf_apply _ _ _)

/-- The stored log-sum-exp: the maximum plus the logarithm of the sum. -/
theorem pay5_apply (m l : Vec Ideal S512x1 .f32) (p : Fin 512) :
    k1_pay5 (F := Ideal) m l (ix2 p (0 : Fin 1)) = m (ix2 p (0 : Fin 1)) + Ideal.log (l (ix2 p (0 : Fin 1))) := by
  unfold k1_pay5
  try dsimp only
  exact addf_apply _ _ _

/-- The reset values: −∞, 0, 0. -/
theorem pay6_apply (p : Fin 512) : (k1_pay6 (F := Ideal)) (ix2 p (0 : Fin 1)) = (⊥ : EReal) := by
  unfold k1_pay6
  try dsimp only
  exact (congrFun (shapeCast_self _ _) _).trans Cert.Spec.negInfW_eq
theorem pay7_apply (p : Fin 512) : (k1_pay7 (F := Ideal)) (ix2 p (0 : Fin 1)) = (0 : EReal) := by
  unfold k1_pay7
  try dsimp only
  exact (congrFun (shapeCast_self _ _) _).trans Ideal.ofBits_zero_f32
theorem pay8_apply (p : Fin 512) : (k1_pay8 (F := Ideal)) (ix2 p (0 : Fin 1)) = (0 : EReal) := by
  unfold k1_pay8
  try dsimp only
  exact (congrFun (shapeCast_self _ _) _).trans Ideal.ofBits_zero_f32

end Cert.KernelIdeal.Hand

end
-- ==== Proof.KernelIdeal.V1b.lean ====
/-
  The carried columns of the similarity region are the online recurrence of the specification. At grid point
  `t = 16 * rb + cb` the row block `rb` meets the column block `cb`; row `p` of the three carried columns (running
  maximum, running sum of exponentials, running paired logit) is the triple `Spec.accAt` of matrix row `512 * rb + p`
  after `cb + 1` column blocks. One point's update is `Spec.accStep` (from the entrywise readings of the payloads), and
  the induction runs along the points: a row block's first point starts from the reset triple.
-/
import proofs.«164746_j32564442038466_1_alg».proof.Proof.KernelIdeal.R1
import proofs.«164746_j32564442038466_1_alg».proof.Proof.KernelIdeal.V1a
import proofs.«164746_j32564442038466_1_alg».proof.Proof.Spec
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat)
open scoped BigOperators

variable (V : (c : Dev nD) → (b : Ref sig .tc) → Buf (Elt Ideal) ((c : Thread nD τ).loc b))

/-- The normalized features as the region finds them, and as a matrix. -/
abbrev yarr (c : Dev nD) : S8192x1024.Idx → EReal := V c main_v0
abbrev ymat (c : Dev nD) : Cert.Spec.Mat 8192 1024 := Cert.Spec.toMat (yarr V c)

/-- The row block and the column block a grid point reads. -/
abbrev qblk (c : Dev nD) (t : Fin cfg1.N) : Vec Ideal S512x1024 .bf16 := iblk1 V c 0 t
abbrev kblk (c : Dev nD) (t : Fin cfg1.N) : Vec Ideal S512x1024 .bf16 := iblk1 V c 1 t

/-- Grid point `t` is column block `t % 16` of row block `t / 16`; the windows' block numbers there. -/
theorem grid_facts1 : ∀ t : Fin cfg1.N, (grid1.coords t 0).val = t.val / 16 ∧ (grid1.coords t 1).val = t.val % 16
    ∧ win1_0.index t (0 : Fin 2) = t.val / 16 ∧ win1_0.index t (1 : Fin 2) = 0
    ∧ win1_1.index t (0 : Fin 2) = t.val % 16 ∧ win1_1.index t (1 : Fin 2) = 0
    ∧ win1_2.index t (0 : Fin 2) = t.val / 16 ∧ win1_2.index t (1 : Fin 2) = 0
    ∧ win1_3.index t (0 : Fin 2) = t.val / 16 ∧ win1_3.index t (1 : Fin 2) = 0 :=
  (by decide +kernel : ∀ t : Fin grid1.N, _)

theorem rb_lt (n : ℕ) (hn : n < cfg1.N) : n / 16 < 16 := by
  have hN : cfg1.N = 256 := N_1
  omega

theorem cb_lt (n : ℕ) : n % 16 < 16 := Nat.mod_lt _ (by decide)

/-- The row block at point `t` is rows `512 * (t / 16) …` of the features. -/
theorem qblk_apply (c : Dev nD) (t : Fin cfg1.N) (p : Fin 512) (d : Fin 1024) :
    qblk V c t (ix2 p d) = ymat V c (Cert.Spec.col ⟨t.val / 16, rb_lt t.val t.isLt⟩ p) d := by
  obtain ⟨-, -, e0, e1, -⟩ := grid_facts1 t
  unfold qblk iblk1
  rw [View.read_apply]
  show V c main_v0 _ = V c main_v0 _
  congr 1
  funext a
  apply Fin.ext
  match a with
  | ⟨0, _⟩ => show win1_0.index t (0 : Fin 2) * 512 + 1 * p.val = t.val / 16 * 512 + p.val; rw [e0]; omega
  | ⟨1, _⟩ => show win1_0.index t (1 : Fin 2) * 1024 + 1 * d.val = d.val; rw [e1]; omega

/-- The column block at point `t` is rows `512 * (t % 16) …` of the features. -/
theorem kblk_apply (c : Dev nD) (t : Fin cfg1.N) (j : Fin 512) (d : Fin 1024) :
    kblk V c t (ix2 j d) = ymat V c (Cert.Spec.col ⟨t.val % 16, cb_lt t.val⟩ j) d := by
  obtain ⟨-, -, -, -, e0, e1, -⟩ := grid_facts1 t
  unfold kblk iblk1
  rw [View.read_apply]
  show V c main_v0 _ = V c main_v0 _
  congr 1
  funext a
  apply Fin.ext
  match a with
  | ⟨0, _⟩ => show win1_1.index t (0 : Fin 2) * 512 + 1 * j.val = t.val % 16 * 512 + j.val; rw [e0]; omega
  | ⟨1, _⟩ => show win1_1.index t (1 : Fin 2) * 1024 + 1 * d.val = d.val; rw [e1]; omega

/-! ## One point's update is the specification's step -/

/-- Row `p`'s triple in the three carried columns. -/
def accOf (s : Scr Ideal) (p : Fin 512) : Cert.Spec.Acc :=
  ⟨s.1 (ix2 p (0 : Fin 1)), s.2.1 (ix2 p (0 : Fin 1)), s.2.2 (ix2 p (0 : Fin 1))⟩

theorem lab_val (r : Fin 8192) : (Cert.Spec.lab r).val = pairOf r.val := by
  unfold Cert.Spec.lab pairOf
  split <;> rename_i h <;> simp [h]

theorem accAt_succ (y : Cert.Spec.Mat 8192 1024) (r : Fin 8192) (k : ℕ) (hk : k < 16) :
    Cert.Spec.accAt y r (k + 1) = Cert.Spec.accStep y r ⟨k, hk⟩ (Cert.Spec.accAt y r k) := by
  rw [Cert.Spec.accAt, dif_pos hk]

/-- The reset columns hold the starting triple in every row. -/
theorem accOf_init (p : Fin 512) : accOf (scrInit (F := Ideal)) p = Cert.Spec.acc0 := by
  unfold accOf scrInit Cert.Spec.acc0
  dsimp only
  rw [pay6_apply, pay7_apply, pay8_apply]

/-- For blocks that are rows `512 * rb …` and `512 * cb …` of a matrix `y`, one point's update of row `p`'s triple is
    the specification's step of matrix row `512 * rb + p` at column block `cb`. -/
theorem scrStep_acc (i : grid1.Coords) (rb cb : Fin 16) (hr : (i 0).val = rb.val) (hc : (i 1).val = cb.val)
    (q k : Vec Ideal S512x1024 .bf16) (y : Cert.Spec.Mat 8192 1024)
    (hq : ∀ (p : Fin 512) (d : Fin 1024), q (ix2 p d) = y (Cert.Spec.col rb p) d)
    (hk : ∀ (j : Fin 512) (d : Fin 1024), k (ix2 j d) = y (Cert.Spec.col cb j) d)
    (s : Scr Ideal) (p : Fin 512) :
    accOf (scrStep i q k s) p = Cert.Spec.accStep y (Cert.Spec.col rb p) cb (accOf s p) := by
  have h0 : (i 0).val < 16 := hr ▸ rb.isLt
  have h1 : (i 1).val < 16 := hc ▸ cb.isLt
  have er : 512 * (i 0).val + p.val = (Cert.Spec.col rb p).val := by
    show _ = rb.val * 512 + p.val
    omega
  have ec : ∀ j : Fin 512, 512 * (i 1).val + j.val = (Cert.Spec.col cb j).val := by
    intro j
    show _ = cb.val * 512 + j.val
    omega
  have hdot : ∀ j : Fin 512, (∑ d : Fin 1024, q (ix2 p d) * k (ix2 j d)) * Cert.Spec.invTemp
      = Cert.Spec.sK y (Cert.Spec.col rb p) (Cert.Spec.col cb j) := by
    intro j
    unfold Cert.Spec.sK Cert.Spec.dotp
    refine congrArg (· * Cert.Spec.invTemp) (Finset.sum_congr rfl fun d _ => ?_)
    rw [hq, hk]
  have hS : ∀ j : Fin 512, k1_pay12 (F := Ideal) i q k (ix2 p j)
      = Cert.Spec.sKm y (Cert.Spec.col rb p) (Cert.Spec.col cb j) := by
    intro j
    rw [pay12_apply i h0 h1 q k p j, hdot j, er, ec j]
    unfold Cert.Spec.sKm
    exact if_congr Fin.ext_iff.symm rfl rfl
  have hP : k1_pay13 (F := Ideal) i q k (ix2 p (0 : Fin 1))
      = ∑ j : Fin 512, if Cert.Spec.lab (Cert.Spec.col rb p) = Cert.Spec.col cb j
          then Cert.Spec.sK y (Cert.Spec.col rb p) (Cert.Spec.col cb j) else 0 := by
    rw [pay13_apply i h0 h1 q k p]
    refine Finset.sum_congr rfl fun j _ => ?_
    rw [hdot j, er, ec j, ← lab_val]
    exact if_congr Fin.ext_iff.symm rfl rfl
  have hm : k1_pay2 (F := Ideal) (k1_pay12 (F := Ideal) i q k) s.1 (ix2 p (0 : Fin 1))
      = max (s.1 (ix2 p (0 : Fin 1))) (Finset.univ.sup fun j : Fin 512 => Cert.Spec.sKm y (Cert.Spec.col rb p) (Cert.Spec.col cb j)) := by
    rw [pay2_apply]
    exact congrArg _ (Finset.sup_congr rfl fun j _ => hS j)
  unfold accOf scrStep Cert.Spec.accStep
  dsimp only
  rw [pay4_apply, pay3_apply, pay1_apply, hm, hP]
  simp only [hS]

/-! ## Along the points -/

/-- The update at position `n` takes row `p`'s triple after `n % 16` column blocks to the one after `n % 16 + 1`. -/
theorem scrAt_step (c : Dev nD) (n : ℕ) (hn : n < cfg1.N) (prev : Scr Ideal) (p : Fin 512)
    (hprev : accOf prev p = Cert.Spec.accAt (ymat V c) (Cert.Spec.col ⟨n / 16, rb_lt n hn⟩ p) (n % 16)) :
    accOf (scrStep (grid1.coords ⟨n, hn⟩) (qblk V c ⟨n, hn⟩) (kblk V c ⟨n, hn⟩) prev) p
      = Cert.Spec.accAt (ymat V c) (Cert.Spec.col ⟨n / 16, rb_lt n hn⟩ p) (n % 16 + 1) := by
  obtain ⟨g0, g1, -⟩ := grid_facts1 ⟨n, hn⟩
  rw [scrStep_acc (grid1.coords ⟨n, hn⟩) ⟨n / 16, rb_lt n hn⟩ ⟨n % 16, cb_lt n⟩ g0 g1 (qblk V c ⟨n, hn⟩) (kblk V c ⟨n, hn⟩)
    (ymat V c) (fun p d => qblk_apply V c ⟨n, hn⟩ p d) (fun j d => kblk_apply V c ⟨n, hn⟩ j d) prev p, hprev]
  exact (accAt_succ (ymat V c) _ (n % 16) (cb_lt n)).symm

/-- After the body at position `n`, row `p` of the carried columns is the triple of matrix row `512 * (n / 16) + p`
    after `n % 16 + 1` column blocks. -/
theorem scrAt_acc (c : Dev nD) : ∀ (n : ℕ) (hn : n < cfg1.N) (p : Fin 512),
    accOf (scrAt V c n hn) p = Cert.Spec.accAt (ymat V c) (Cert.Spec.col ⟨n / 16, rb_lt n hn⟩ p) (n % 16 + 1)
  | 0, hn, p => by
    rw [scrAt]
    refine scrAt_step V c 0 hn scrInit p ?_
    rw [accOf_init]
    rfl
  | n + 1, hn, p => by
    rw [scrAt]
    refine scrAt_step V c (n + 1) hn _ p ?_
    by_cases h : (n + 1) % 16 = 0
    · rw [if_pos h, accOf_init, h]
      rfl
    · rw [if_neg h, scrAt_acc c n (Nat.lt_of_succ_lt hn) p]
      have e1 : (⟨n / 16, rb_lt n (Nat.lt_of_succ_lt hn)⟩ : Fin 16) = ⟨(n + 1) / 16, rb_lt (n + 1) hn⟩ :=
        Fin.ext (show n / 16 = (n + 1) / 16 by omega)
      have e2 : n % 16 + 1 = (n + 1) % 16 := by omega
      rw [e1, e2]

/-! ## What the last column block of a row block leaves -/

/-- At a row block's last point the log-sum-exp column holds the specification's value of each of its rows. -/
theorem lse_at_last (c : Dev nD) (t : Fin cfg1.N) (ht : t.val % 16 = 15) (p : Fin 512) :
    k1_pay5 (F := Ideal) (scrAt V c t.val t.isLt).1 (scrAt V c t.val t.isLt).2.1 (ix2 p (0 : Fin 1))
      = Cert.Spec.lseK (ymat V c) (Cert.Spec.col ⟨t.val / 16, rb_lt t.val t.isLt⟩ p) := by
  have h := scrAt_acc V c t.val t.isLt p
  rw [ht] at h
  rw [pay5_apply]
  unfold Cert.Spec.lseK
  exact congrArg₂ (fun a b => a + Ideal.log b) (congrArg Cert.Spec.Acc.m h) (congrArg Cert.Spec.Acc.l h)

/-- and the paired-logit column the specification's paired logit. -/
theorem lpos_at_last (c : Dev nD) (t : Fin cfg1.N) (ht : t.val % 16 = 15) (p : Fin 512) :
    (scrAt V c t.val t.isLt).2.2 (ix2 p (0 : Fin 1))
      = Cert.Spec.lposK (ymat V c) (Cert.Spec.col ⟨t.val / 16, rb_lt t.val t.isLt⟩ p) := by
  have h := scrAt_acc V c t.val t.isLt p
  rw [ht] at h
  unfold Cert.Spec.lposK
  exact congrArg Cert.Spec.Acc.p h

end Cert.KernelIdeal.Hand

end
-- ==== Proof.KernelIdeal.V1.lean ====
/-
  From the blocks to the two result arrays of the similarity region. Row block `rb` of each 8192 × 1 result is written
  back once, after the row block's last column block (grid point `16 * rb + 15`), from the carried columns, which there
  hold the specification's log-sum-exp and paired logit of rows `512 * rb …`; the sixteen row blocks tile the array. So
  each array ends holding the specification's value of every row.
-/
import proofs.«164746_j32564442038466_1_alg».proof.Proof.KernelIdeal.V1b
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat)
open scoped BigOperators

variable (V : (c : Dev nD) → (b : Ref sig .tc) → Buf (Elt Ideal) ((c : Thread nD τ).loc b))

/-- A row of an 8192 × 1 array. -/
abbrev rowOf (i : S8192x1.Idx) : Fin 8192 := ⟨(i 0).val, (i 0).isLt⟩

/-- What the two result arrays end holding: the specification's log-sum-exp and paired logit of each row. -/
abbrev lseArr (c : Dev nD) : S8192x1.Idx → EReal := fun i => Cert.Spec.lseK (ymat V c) (rowOf i)
abbrev lposArr (c : Dev nD) : S8192x1.Idx → EReal := fun i => Cert.Spec.lposK (ymat V c) (rowOf i)

/-- What a row block's last point writes back into the first result is that block of `lseArr`. -/
theorem flushed1_2_eq (c : Dev nD) (t : Fin cfg1.N) (hf : (cfg1.win 2).flush t = true) :
    (dat1 V c).flushed 2 t = ((cfg1.win 2).blk t).view.read (Elt Ideal) (lseArr V c) := by
  have ht : t.val % 16 = 15 := (flush1_2 t).mp hf
  obtain ⟨-, -, -, -, -, -, e0, e1, -⟩ := grid_facts1 t
  show (cfg1.win 2).cut (grid1.coords t) ((dat1 V c).after 2 t) = _
  rw [after1_2]
  funext j
  obtain ⟨p, u, rfl⟩ : ∃ (p : Fin 512) (u : Fin 1), j = ix2 p u := ⟨j 0, j 1, eq_ix2 j⟩
  obtain rfl : u = 0 := Subsingleton.elim _ _
  show k1_pay5 (F := Ideal) (scrAt V c t.val t.isLt).1 (scrAt V c t.val t.isLt).2.1 (ix2 p (0 : Fin 1))
    = Cert.Spec.lseK (ymat V c) (rowOf (((cfg1.win 2).blk t).view.emb (ix2 p (0 : Fin 1))))
  rw [lse_at_last V c t ht p]
  refine congrArg (Cert.Spec.lseK (ymat V c)) (Fin.ext ?_)
  show t.val / 16 * 512 + p.val = win1_2.index t (0 : Fin 2) * 512 + 1 * p.val
  rw [e0]; omega

/-- and into the second result that block of `lposArr`. -/
theorem flushed1_3_eq (c : Dev nD) (t : Fin cfg1.N) (hf : (cfg1.win 3).flush t = true) :
    (dat1 V c).flushed 3 t = ((cfg1.win 3).blk t).view.read (Elt Ideal) (lposArr V c) := by
  have ht : t.val % 16 = 15 := (flush1_3 t).mp hf
  obtain ⟨-, -, -, -, -, -, -, -, e0, e1⟩ := grid_facts1 t
  show (cfg1.win 3).cut (grid1.coords t) ((dat1 V c).after 3 t) = _
  rw [after1_3]
  funext j
  obtain ⟨p, u, rfl⟩ : ∃ (p : Fin 512) (u : Fin 1), j = ix2 p u := ⟨j 0, j 1, eq_ix2 j⟩
  obtain rfl : u = 0 := Subsingleton.elim _ _
  show (scrAt V c t.val t.isLt).2.2 (ix2 p (0 : Fin 1))
    = Cert.Spec.lposK (ymat V c) (rowOf (((cfg1.win 3).blk t).view.emb (ix2 p (0 : Fin 1))))
  rw [lpos_at_last V c t ht p]
  refine congrArg (Cert.Spec.lposK (ymat V c)) (Fin.ext ?_)
  show t.val / 16 * 512 + p.val = win1_3.index t (0 : Fin 2) * 512 + 1 * p.val
  rw [e0]; omega

/-- The last point of the row block that holds row `r`. -/
def lastPt (r : ℕ) (hr : r < 8192) : Fin cfg1.N := ⟨16 * (r / 512) + 15, by
  have hN : cfg1.N = 256 := N_1
  omega⟩

/-- Every row of the first result lies in the block some row block's last point writes back. -/
theorem cover1_2 (i : S8192x1.Idx) :
    ∃ t : Fin cfg1.N, (cfg1.win 2).flush t = true ∧ i ∈ ((cfg1.win 2).blk t).view.set := by
  have hi0 : (i 0).val < 8192 := (i 0).isLt
  have hi1 : (i 1).val < 1 := (i 1).isLt
  refine ⟨lastPt (i 0).val hi0, (flush1_2 _).mpr (by show (16 * ((i 0).val / 512) + 15) % 16 = 15; omega), ?_⟩
  obtain ⟨-, -, -, -, -, -, e0, e1, -⟩ := grid_facts1 (lastPt (i 0).val hi0)
  have ev : (lastPt (i 0).val hi0).val = 16 * ((i 0).val / 512) + 15 := rfl
  show i ∈ ((View.whole main_v1_0).slice (win1_2.rect (lastPt (i 0).val hi0))).set
  rw [View.set_slice_whole, Rect.mem_set_unit]
  intro a
  match a with
  | ⟨0, _⟩ =>
    show win1_2.index (lastPt (i 0).val hi0) (0 : Fin 2) * 512 ≤ (i 0).val
      ∧ (i 0).val < win1_2.index (lastPt (i 0).val hi0) (0 : Fin 2) * 512 + 512
    rw [e0, ev]; omega
  | ⟨1, _⟩ =>
    show win1_2.index (lastPt (i 0).val hi0) (1 : Fin 2) * 1 ≤ (i 1).val
      ∧ (i 1).val < win1_2.index (lastPt (i 0).val hi0) (1 : Fin 2) * 1 + 1
    rw [e1]; omega

/-- Likewise for the second result. -/
theorem cover1_3 (i : S8192x1.Idx) :
    ∃ t : Fin cfg1.N, (cfg1.win 3).flush t = true ∧ i ∈ ((cfg1.win 3).blk t).view.set := by
  have hi0 : (i 0).val < 8192 := (i 0).isLt
  have hi1 : (i 1).val < 1 := (i 1).isLt
  refine ⟨lastPt (i 0).val hi0, (flush1_3 _).mpr (by show (16 * ((i 0).val / 512) + 15) % 16 = 15; omega), ?_⟩
  obtain ⟨-, -, -, -, -, -, -, -, e0, e1⟩ := grid_facts1 (lastPt (i 0).val hi0)
  have ev : (lastPt (i 0).val hi0).val = 16 * ((i 0).val / 512) + 15 := rfl
  show i ∈ ((View.whole main_v1_1).slice (win1_3.rect (lastPt (i 0).val hi0))).set
  rw [View.set_slice_whole, Rect.mem_set_unit]
  intro a
  match a with
  | ⟨0, _⟩ =>
    show win1_3.index (lastPt (i 0).val hi0) (0 : Fin 2) * 512 ≤ (i 0).val
      ∧ (i 0).val < win1_3.index (lastPt (i 0).val hi0) (0 : Fin 2) * 512 + 512
    rw [e0, ev]; omega
  | ⟨1, _⟩ =>
    show win1_3.index (lastPt (i 0).val hi0) (1 : Fin 2) * 1 ≤ (i 1).val
      ∧ (i 1).val < win1_3.index (lastPt (i 0).val hi0) (1 : Fin 2) * 1 + 1
    rw [e1]; omega

/-- The first result array after the region. -/
theorem arr1_lse (c : Dev nD) : (dat1 (F := Ideal) V c).arrAt 2 cfg1.N = lseArr V c :=
  (dat1 (F := Ideal) V c).arrAt_eq_of_cover 2 (lseArr V c) (flushed1_2_eq V c) (cover1_2)

/-- The second result array after the region. -/
theorem arr1_lpos (c : Dev nD) : (dat1 (F := Ideal) V c).arrAt 3 cfg1.N = lposArr V c :=
  (dat1 (F := Ideal) V c).arrAt_eq_of_cover 3 (lposArr V c) (flushed1_3_eq V c) (cover1_3)

/-- Row `r` of the first result is the specification's log-sum-exp of row `r` of the normalized features. -/
theorem arr1_lse_value (c : Dev nD) (r : Fin 8192) :
    (dat1 (F := Ideal) V c).arrAt 2 cfg1.N (ValueIdx.ix2 r (0 : Fin 1))
      = Cert.Spec.lseK (Cert.Spec.toMat (V c main_v0)) r :=
  congrFun (arr1_lse V c) (ValueIdx.ix2 r (0 : Fin 1))

/-- Row `r` of the second result is the specification's paired logit of row `r`. -/
theorem arr1_lpos_value (c : Dev nD) (r : Fin 8192) :
    (dat1 (F := Ideal) V c).arrAt 3 cfg1.N (ValueIdx.ix2 r (0 : Fin 1))
      = Cert.Spec.lposK (Cert.Spec.toMat (V c main_v0)) r :=
  congrFun (arr1_lpos V c) (ValueIdx.ix2 r (0 : Fin 1))

end Cert.KernelIdeal.Hand

end
-- ==== Proof.KernelIdeal.Tail.lean ====
/-
  The six host operations after the two regions: the difference of the two 8192 × 1 columns the second region leaves,
  its sum over all 8192 rows from the initial value zero, the quotient by the word 8192.0, and the negation. Read at the
  ideal instance the stretch's result is minus the quotient by that word of the sum over the rows of the differences.
-/
import proofs.«164746_j32564442038466_1_alg».proof.Proof.Gen.KernelIdeal.Launch
import proofs.«164746_j32564442038466_1_alg».proof.Proof.Spec
import Idealize.ShloMosaic.Lib.StableHlo.Run
import Idealize.ShloMosaic.Lib.ValueIdx
import Idealize.ShloMosaic.Lib.IdealHost
import Idealize.ShloMosaic.PureOps.Ideal.Laws

noncomputable section

namespace Cert.KernelIdeal.Hand

open Idealize.ShloMosaic Idealize.ShloMosaic.ValueIdx Cert.KernelIdeal

/-- A sum over the indices of an `n × 1` column is the sum over its rows. -/
theorem sum_column {n : Nat} (f : (⟨2, ![n, 1]⟩ : Shape).Idx → EReal) :
    ∑ j, f j = ∑ i : Fin n, f (ix2 i (0 : Fin 1)) := by
  rw [sum_idx2]
  exact Finset.sum_congr rfl fun i _ => Fin.sum_univ_one _

/-- The column of paired logits the second region leaves, as an 8192 × 1 array of extended reals. -/
abbrev colPos (W : Valuation τ sig (Elt Ideal)) : (⟨2, ![8192, 1]⟩ : Shape).Idx → EReal := W (Proc.devRef .tc main_v1_1)
/-- The column of log-sum-exps the second region leaves, likewise. -/
abbrev colLse (W : Valuation τ sig (Elt Ideal)) : (⟨2, ![8192, 1]⟩ : Shape).Idx → EReal := W (Proc.devRef .tc main_v1_0)

/-- The host stretch's result: minus the quotient by the word `8192.0` of the sum over the rows of the differences. -/
theorem tail_value (W : Valuation τ sig (Elt Ideal)) :
    StableHlo.after (Gen.hostOps2 (F := Ideal)) W (Proc.devRef .tc main_v5)
      = fun _ => -(Ideal.div (∑ i : Fin 8192, (colPos W (ix2 i (0 : Fin 1)) - colLse W (ix2 i (0 : Fin 1)))) Cert.Spec.nW) := by
  after_results
  funext j
  show -(Ideal.div (Ideal.hostReduceAdd Gen.reducesTo_S8192x1_S_d0_1
      (subf (F := Ideal) (s := ⟨2, ![8192, 1]⟩) (φ := .f32) (colPos W) (colLse W)) (Ideal.ofBits .f32 0x00000000#32) j)
      (Ideal.ofBits .f32 0x46000000#32)) = _
  rw [Ideal.hostReduceAdd_total Gen.reducesTo_S8192x1_S_d0_1 (fun b => b.elim0), Ideal.ofBits_zero_f32, zero_add,
    sum_column]
  rfl

end Cert.KernelIdeal.Hand

end
-- ==== Proof.KernelIdeal.KValue.lean ====
/-
  The idealized kernel's result as the specification's function of its argument. The host stretch after the
  regions returns minus the quotient by the word 8192.0 of the sum over the rows of (paired logit − log-sum-exp);
  the second region leaves those two columns as the online recurrence's `lposK` and `lseK` of the array it reads;
  that array is what the first region leaves, the row-normalized argument. Put together the result is `lossK` of
  the argument, on every device, and the run's post can be stated with it.
-/
import proofs.«164746_j32564442038466_1_alg».proof.Proof.KernelIdeal.RunMain
import proofs.«164746_j32564442038466_1_alg».proof.Proof.KernelIdeal.V0
import proofs.«164746_j32564442038466_1_alg».proof.Proof.KernelIdeal.V1
import proofs.«164746_j32564442038466_1_alg».proof.Proof.KernelIdeal.Tail
import proofs.«164746_j32564442038466_1_alg».proof.Proof.Spec

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ)

/-- The array the second region reads is the row-normalized argument. -/
theorem normalized_eq (c : Dev nD) :
    Cert.Spec.toMat (VB m c main_v0) = Cert.Spec.fn (Cert.Spec.toMat (m ((c.tc : Thread nD τ).loc main_arg0))) := by
  funext i d
  show VB m c main_v0 (ix2 i d) = _
  have h1 : VB m c main_v0 = (dat0 (F := Ideal) (VA m) c).arrAt 1 cfg0.N := (hF0 m c 1).symm
  rw [h1, arr0_value (VA m) c i d]

/-- The paired-logit column after the second region, row by row. -/
theorem colPos_value (c : Dev nD) (i : Fin 8192) :
    colPos (W2 m c) (ix2 i (0 : Fin 1))
      = Cert.Spec.lposK (Cert.Spec.fn (Cert.Spec.toMat (m ((c.tc : Thread nD τ).loc main_arg0)))) i := by
  show VC m c main_v1_1 (ix2 i (0 : Fin 1)) = _
  rw [VC_v1_1 m c, arr1_lpos_value (VB m) c i, normalized_eq m c]

/-- The log-sum-exp column after the second region, row by row. -/
theorem colLse_value (c : Dev nD) (i : Fin 8192) :
    colLse (W2 m c) (ix2 i (0 : Fin 1))
      = Cert.Spec.lseK (Cert.Spec.fn (Cert.Spec.toMat (m ((c.tc : Thread nD τ).loc main_arg0)))) i := by
  show VC m c main_v1_0 (ix2 i (0 : Fin 1)) = _
  rw [VC_v1_0 m c, arr1_lse_value (VB m) c i, normalized_eq m c]

/-- The result buffer at the end: the kernel-side loss of the argument. -/
theorem result_value (c : Dev nD) :
    W3 (F := Ideal) m c (Proc.devRef .tc main_v5)
      = fun _ => Cert.Spec.lossK (Cert.Spec.toMat (m ((c.tc : Thread nD τ).loc main_arg0))) := by
  show StableHlo.after (hostOps2 (F := Ideal)) (W2 m c) (Proc.devRef .tc main_v5) = _
  rw [tail_value (W2 m c)]
  funext _
  simp only [colPos_value m c, colLse_value m c]
  rfl

/-- The run with its result named: on every device the result is the kernel-side loss of the argument, and the
    argument is left as launched. -/
theorem kernel_run (ρ : Dev nD → PrngReg) :
    θ_run (defs (F := Ideal)) (onTc (τ := τ) (main (F := Ideal))) ⟨m, fun _ => 0, ρ⟩ (fun r => ∀ c : Dev nD,
      r.2.mem ((c.tc : Thread nD τ).loc main_v5)
        = (fun _ => Cert.Spec.lossK (Cert.Spec.toMat (m ((c.tc : Thread nD τ).loc main_arg0))))
      ∧ r.2.mem ((c.tc : Thread nD τ).loc main_arg0) = m ((c.tc : Thread nD τ).loc main_arg0)) :=
  (θ_run defs _ _).mono (fun r h c => ⟨(h c).1.trans (result_value m c), (h c).2⟩) (run_main m ρ)

end Cert.KernelIdeal.Hand

end
-- ==== Proof.RefStagesA.lean ====
/-
  The reference's first thirty-one host operations, read back in four stretches. From the argument array `x`
  (8192 rows of 1024 entries): the rows' Euclidean norms (the square root of each row's sum of squares); the rows
  divided by their norms clamped below, and the Gram matrix of the normalized rows divided by the temperature; that
  matrix with its diagonal put at −∞ (the row index compared with the column index); and, independent of `x`, the
  paired-column labels, row `r` paired with column `r + 4096` in the first half and `r − 4096` in the second (two
  iotas, the first shifted by 4096, joined end to end). Each stretch's live-out buffer, after the stretch's
  operations run from any valuation `W`, holds the value the per-operation reading names for it, given that the
  stretch's live-in buffers hold theirs; and a buffer the stretch does not write keeps its contents.
-/
import proofs.«164746_j32564442038466_1_alg».proof.Proof.RefReadQ
import Idealize.ShloMosaic.Lib.StableHlo.Run
import Idealize.ShloMosaic.Lib.Pipeline.Frame

noncomputable section

namespace Cert.ReferenceIdeal.Stages

open Cert.ReferenceIdeal Cert.ReferenceIdeal.Gen Idealize.ShloMosaic Idealize.ShloMosaic.TcCoe Idealize.SL.Sem Idealize.ShloMosaic.StableHlo

variable {F : FTy → Type} [FloatOps F]

/-- An operation's one written reference is in the listed ones. -/
local macro "writes_in" : tactic =>
  `(tactic| (simp only [StableHlo.nullary_writes, StableHlo.unary_writes, StableHlo.binary_writes, StableHlo.ternary_writes,
      Finset.singleton_subset_iff, List.mem_toFinset]; exact List.mem_map_of_mem (by decide)))

/-! ## The row norms -/

/-- The square of every entry, the sum along each row, the square root. -/
abbrev opsA : List (HloOp τ sig (Elt F)) :=
  [ TRef.binary (TRef.of (T := ⟨S8192x1024, .f32⟩) main_arg0) (TRef.of (T := ⟨S8192x1024, .f32⟩) main_arg0) (TRef.of (T := ⟨S8192x1024, .f32⟩) main_call0_v0) mulf,
    TRef.nullary (TRef.of (T := ⟨S_, .f32⟩) main_call0_cst) (constant S_ .f32 0x00000000#32),
    TRef.binary (TRef.of (T := ⟨S8192x1024, .f32⟩) main_call0_v0) (TRef.of (T := ⟨S_, .f32⟩) main_call0_cst) (TRef.of (T := ⟨S8192, .f32⟩) main_call0_v1) (fun x v => Host.reduceAdd x v reducesTo_S8192x1024_S8192_d1 h_S_),
    TRef.unary (TRef.of (T := ⟨S8192, .f32⟩) main_call0_v1) (TRef.of (T := ⟨S8192x1, .f32⟩) main_call0_v2) (broadcastInDim S8192x1 ![0] bcast_S8192_S8192x1_0),
    TRef.unary (TRef.of (T := ⟨S8192x1, .f32⟩) main_call0_v2) (TRef.of (T := ⟨S8192x1, .f32⟩) main_v0) Host.sqrt ]
abbrev writtenA : List (Ref sig .tc) := [main_call0_v0, main_call0_cst, main_call0_v1, main_call0_v2, main_v0]
theorem opsA_writes : (opsA : List (HloOp τ sig (Elt F))).Forall fun op => op.writes ⊆ (writtenA.map (Proc.devRef (τ := τ) .tc)).toFinset := by
  simp only [List.Forall]
  refine ⟨?_, ?_, ?_, ?_, ?_⟩ <;> writes_in
/-- A buffer the stretch does not write keeps its contents. -/
theorem keepA (W : Valuation τ sig (Elt F)) (r : Ref sig .tc) (h : r ∉ writtenA) :
    StableHlo.after opsA W (Proc.devRef .tc r) = W (Proc.devRef .tc r) :=
  StableHlo.after_of_writes_sub opsA W opsA_writes h

theorem stage_A (W : Valuation τ sig (Elt F)) :
    StableHlo.after opsA W (Proc.devRef .tc main_v0) = ReadQ.val_main_v0 (W (Proc.devRef .tc main_arg0)) := by
  after_results_simp
  simp only [TRef.ofBuf, TRef.toBuf, cast_eq]
  rfl

/-! ## The normalized rows' Gram matrix over the temperature -/

/-- The norms clamped below, the rows divided by them, the product with the transpose, the division by the temperature. -/
abbrev opsB : List (HloOp τ sig (Elt F)) :=
  [ nullary main_cst (constant S_ .f32 0x322BCC77#32),
    unary main_cst main_v1 (broadcastInDim S8192x1 ![] bcast_S_S8192x1 : (⟨S_, .f32⟩ : BufTy).Contents (Elt F) → (⟨S8192x1, .f32⟩ : BufTy).Contents (Elt F)),
    binary main_v0 main_v1 main_v2 (maximumf : (⟨S8192x1, .f32⟩ : BufTy).Contents (Elt F) → (⟨S8192x1, .f32⟩ : BufTy).Contents (Elt F) → (⟨S8192x1, .f32⟩ : BufTy).Contents (Elt F)),
    unary main_v2 main_v3 (broadcastInDim S8192x1024 ![0, 1] bcast_S8192x1_S8192x1024_0_1 : (⟨S8192x1, .f32⟩ : BufTy).Contents (Elt F) → (⟨S8192x1024, .f32⟩ : BufTy).Contents (Elt F)),
    binary main_arg0 main_v3 main_v4 (Host.divf : (⟨S8192x1024, .f32⟩ : BufTy).Contents (Elt F) → (⟨S8192x1024, .f32⟩ : BufTy).Contents (Elt F) → (⟨S8192x1024, .f32⟩ : BufTy).Contents (Elt F)),
    unary main_v4 main_v5 ((transpose S1024x8192 [1, 0] · transposes_S8192x1024_S1024x8192_1_0) : (⟨S8192x1024, .f32⟩ : BufTy).Contents (Elt F) → (⟨S1024x8192, .f32⟩ : BufTy).Contents (Elt F)),
    binary main_v4 main_v5 main_v6 ((fun l r => Host.dotGeneral dot_S8192x1024_S1024x8192_S8192x8192_1_0_0_1_n_n none l r) : (⟨S8192x1024, .f32⟩ : BufTy).Contents (Elt F) → (⟨S1024x8192, .f32⟩ : BufTy).Contents (Elt F) → (⟨S8192x8192, .f32⟩ : BufTy).Contents (Elt F)),
    nullary main_cst_0 (constant S_ .f32 0x3D8F5C29#32),
    unary main_cst_0 main_v7 (broadcastInDim S8192x8192 ![] bcast_S_S8192x8192 : (⟨S_, .f32⟩ : BufTy).Contents (Elt F) → (⟨S8192x8192, .f32⟩ : BufTy).Contents (Elt F)),
    binary main_v6 main_v7 main_v8 (Host.divf : (⟨S8192x8192, .f32⟩ : BufTy).Contents (Elt F) → (⟨S8192x8192, .f32⟩ : BufTy).Contents (Elt F) → (⟨S8192x8192, .f32⟩ : BufTy).Contents (Elt F)) ]
abbrev writtenB : List (Ref sig .tc) := [main_cst, main_v1, main_v2, main_v3, main_v4, main_v5, main_v6, main_cst_0, main_v7, main_v8]
theorem opsB_writes : (opsB : List (HloOp τ sig (Elt F))).Forall fun op => op.writes ⊆ (writtenB.map (Proc.devRef (τ := τ) .tc)).toFinset := by
  simp only [List.Forall]
  refine ⟨?_, ?_, ?_, ?_, ?_, ?_, ?_, ?_, ?_, ?_⟩ <;> writes_in
/-- A buffer the stretch does not write keeps its contents. -/
theorem keepB (W : Valuation τ sig (Elt F)) (r : Ref sig .tc) (h : r ∉ writtenB) :
    StableHlo.after opsB W (Proc.devRef .tc r) = W (Proc.devRef .tc r) :=
  StableHlo.after_of_writes_sub opsB W opsB_writes h

theorem stage_B (W : Valuation τ sig (Elt F)) (x : (⟨S8192x1024, .f32⟩ : BufTy).Contents (Elt F))
    (h0 : W (Proc.devRef .tc main_arg0) = x) (h1 : W (Proc.devRef .tc main_v0) = ReadQ.val_main_v0 x) :
    StableHlo.after opsB W (Proc.devRef .tc main_v8) = ReadQ.val_main_v8 x := by
  after_results_simp
  rw [h0, h1]
  rfl

/-! ## The diagonal at −∞ -/

/-- The row index compared with the column index selects −∞ on the diagonal and the matrix's entry off it. -/
abbrev opsC : List (HloOp τ sig (Elt F)) :=
  [ nullary main_v9 (iotaInDim S8192x8192 32 0),
    nullary main_v10 (iotaInDim S8192x8192 32 1),
    nullary main_c (constantI S_ 32 0#32),
    unary main_c main_v11 (broadcastInDim S8192x8192 ![] bcast_S_S8192x8192 : (⟨S_, .i32⟩ : BufTy).Contents (Elt F) → (⟨S8192x8192, .i32⟩ : BufTy).Contents (Elt F)),
    binary main_v9 main_v11 main_v12 (addi : (⟨S8192x8192, .i32⟩ : BufTy).Contents (Elt F) → (⟨S8192x8192, .i32⟩ : BufTy).Contents (Elt F) → (⟨S8192x8192, .i32⟩ : BufTy).Contents (Elt F)),
    binary main_v12 main_v10 main_v13 (cmpi .eq : (⟨S8192x8192, .i32⟩ : BufTy).Contents (Elt F) → (⟨S8192x8192, .i32⟩ : BufTy).Contents (Elt F) → (⟨S8192x8192, .i1⟩ : BufTy).Contents (Elt F)),
    nullary main_cst_1 (constant S_ .f32 0xFF800000#32),
    TRef.unary (TRef.of (T := ⟨S_, .f32⟩) main_cst_1) (TRef.of (T := ⟨S_, .f32⟩) main_call1_v0) id,
    TRef.unary (TRef.of (T := ⟨S_, .f32⟩) main_call1_v0) (TRef.of (T := ⟨S8192x8192, .f32⟩) main_call1_v1) (broadcastInDim S8192x8192 ![] bcast_S_S8192x8192),
    TRef.ternary (TRef.of (T := ⟨S8192x8192, .i1⟩) main_v13) (TRef.of (T := ⟨S8192x8192, .f32⟩) main_call1_v1) (TRef.of (T := ⟨S8192x8192, .f32⟩) main_v8) (TRef.of (T := ⟨S8192x8192, .f32⟩) main_v14) select ]
abbrev writtenC : List (Ref sig .tc) := [main_v9, main_v10, main_c, main_v11, main_v12, main_v13, main_cst_1, main_call1_v0, main_call1_v1, main_v14]
theorem opsC_writes : (opsC : List (HloOp τ sig (Elt F))).Forall fun op => op.writes ⊆ (writtenC.map (Proc.devRef (τ := τ) .tc)).toFinset := by
  simp only [List.Forall]
  refine ⟨?_, ?_, ?_, ?_, ?_, ?_, ?_, ?_, ?_, ?_⟩ <;> writes_in
/-- A buffer the stretch does not write keeps its contents. -/
theorem keepC (W : Valuation τ sig (Elt F)) (r : Ref sig .tc) (h : r ∉ writtenC) :
    StableHlo.after opsC W (Proc.devRef .tc r) = W (Proc.devRef .tc r) :=
  StableHlo.after_of_writes_sub opsC W opsC_writes h

theorem stage_C (W : Valuation τ sig (Elt F)) (x : (⟨S8192x1024, .f32⟩ : BufTy).Contents (Elt F))
    (h : W (Proc.devRef .tc main_v8) = ReadQ.val_main_v8 x) :
    StableHlo.after opsC W (Proc.devRef .tc main_v14) = ReadQ.val_main_v14 x := by
  after_results_simp
  simp only [TRef.ofBuf, TRef.toBuf, cast_eq]
  rw [h]
  rfl

/-! ## The paired-column labels -/

/-- The indices below 4096 shifted up by 4096, followed by the indices below 4096. -/
abbrev opsD : List (HloOp τ sig (Elt F)) :=
  [ nullary main_v15 (iotaInDim S4096 32 0),
    nullary main_c_2 (constantI S_ 32 4096#32),
    unary main_c_2 main_v16 (broadcastInDim S4096 ![] bcast_S_S4096 : (⟨S_, .i32⟩ : BufTy).Contents (Elt F) → (⟨S4096, .i32⟩ : BufTy).Contents (Elt F)),
    binary main_v15 main_v16 main_v17 (addi : (⟨S4096, .i32⟩ : BufTy).Contents (Elt F) → (⟨S4096, .i32⟩ : BufTy).Contents (Elt F) → (⟨S4096, .i32⟩ : BufTy).Contents (Elt F)),
    nullary main_v18 (iotaInDim S4096 32 0),
    binary main_v17 main_v18 main_v19 ((fun a b => concatenate S8192 0 [⟨S4096, a⟩, ⟨S4096, b⟩] concatenates_S4096_S4096_S8192_d0) : (⟨S4096, .i32⟩ : BufTy).Contents (Elt F) → (⟨S4096, .i32⟩ : BufTy).Contents (Elt F) → (⟨S8192, .i32⟩ : BufTy).Contents (Elt F)) ]
abbrev writtenD : List (Ref sig .tc) := [main_v15, main_c_2, main_v16, main_v17, main_v18, main_v19]
theorem opsD_writes : (opsD : List (HloOp τ sig (Elt F))).Forall fun op => op.writes ⊆ (writtenD.map (Proc.devRef (τ := τ) .tc)).toFinset := by
  simp only [List.Forall]
  refine ⟨?_, ?_, ?_, ?_, ?_, ?_⟩ <;> writes_in
/-- A buffer the stretch does not write keeps its contents. -/
theorem keepD (W : Valuation τ sig (Elt F)) (r : Ref sig .tc) (h : r ∉ writtenD) :
    StableHlo.after opsD W (Proc.devRef .tc r) = W (Proc.devRef .tc r) :=
  StableHlo.after_of_writes_sub opsD W opsD_writes h

theorem stage_D (W : Valuation τ sig (Elt F)) :
    StableHlo.after opsD W (Proc.devRef .tc main_v19) = ReadQ.val_main_v19 := by
  after_results
  rfl

end Cert.ReferenceIdeal.Stages

end
-- ==== Proof.RefStagesB.lean ====
/-
  The last two stretches of the reference, operation by operation. The first is the row-wise log-softmax of the masked
  logits `s` (8192 × 8192): with `m i` the maximum of row `i` (taken from −∞), the result at (i, j) is
  `(s i j − m i) − log (∑ j', exp (s i j' − m i))`. The second picks, for each row `i`, the entry at its paired column
  (the index pair `(i, pair i)`, each coordinate wrapped into range, joined as two columns of an 8192 × 2 index array
  and gathered), sums the 8192 picked entries, divides by 8192 and negates: minus the mean of the paired
  log-probabilities. Each stretch's result buffer is shown to hold the corresponding stage of the reference read one
  operation at a time, given that the buffers it reads hold theirs; and a buffer the stretch does not write is unchanged.
-/
import proofs.«164746_j32564442038466_1_alg».proof.Proof.RefReadQ
import Idealize.ShloMosaic.Lib.StableHlo.Run
import Idealize.ShloMosaic.Lib.Pipeline.Frame

noncomputable section

namespace Cert.ReferenceIdeal.Stages

open Cert.ReferenceIdeal Cert.ReferenceIdeal.Gen Idealize.ShloMosaic Idealize.ShloMosaic.TcCoe Idealize.SL.Sem Idealize.ShloMosaic.StableHlo

variable {F : FTy → Type} [FloatOps F]

local macro "writes_mem" : tactic =>
  `(tactic| (simp only [StableHlo.nullary_writes, StableHlo.unary_writes, StableHlo.binary_writes, StableHlo.ternary_writes,
      Finset.singleton_subset_iff, List.mem_toFinset]; exact List.mem_map_of_mem (by decide)))

/-- Contents moved to a typed reference's buffer and back are unchanged. -/
theorem ofBuf_toBuf {Val : EltTy → Type} {T : BufTy} (x : TRef sig T) (v : T.Contents Val) : x.ofBuf (x.toBuf v) = v := by
  obtain ⟨r, rfl, _, _⟩ := x
  rfl

/-! ## The row-wise log-softmax -/

/-- The log-softmax's fifteen operations. -/
abbrev opsE : List (HloOp τ sig (Elt F)) :=
  [ TRef.nullary (TRef.of (T := ⟨S_, .f32⟩) main_call2_cst) (constant S_ .f32 0xFF800000#32),
    TRef.binary (TRef.of (T := ⟨S8192x8192, .f32⟩) main_v14) (TRef.of (T := ⟨S_, .f32⟩) main_call2_cst) (TRef.of (T := ⟨S8192, .f32⟩) main_call2_v0) (fun x v => Host.reduce FloatOps.maximumf x v reducesTo_S8192x8192_S8192_d1 h_S_),
    TRef.nullary (TRef.of (T := ⟨S_, .f32⟩) main_call2_cst_0) (constant S_ .f32 0xFF800000#32),
    TRef.unary (TRef.of (T := ⟨S_, .f32⟩) main_call2_cst_0) (TRef.of (T := ⟨S8192, .f32⟩) main_call2_v1) (broadcastInDim S8192 ![] bcast_S_S8192),
    TRef.binary (TRef.of (T := ⟨S8192, .f32⟩) main_call2_v1) (TRef.of (T := ⟨S8192, .f32⟩) main_call2_v0) (TRef.of (T := ⟨S8192, .f32⟩) main_call2_v2) maximumf,
    TRef.unary (TRef.of (T := ⟨S8192, .f32⟩) main_call2_v2) (TRef.of (T := ⟨S8192x1, .f32⟩) main_call2_v3) (broadcastInDim S8192x1 ![0] bcast_S8192_S8192x1_0),
    TRef.unary (TRef.of (T := ⟨S8192x1, .f32⟩) main_call2_v3) (TRef.of (T := ⟨S8192x8192, .f32⟩) main_call2_v4) (broadcastInDim S8192x8192 ![0, 1] bcast_S8192x1_S8192x8192_0_1),
    TRef.binary (TRef.of (T := ⟨S8192x8192, .f32⟩) main_v14) (TRef.of (T := ⟨S8192x8192, .f32⟩) main_call2_v4) (TRef.of (T := ⟨S8192x8192, .f32⟩) main_call2_v5) subf,
    TRef.unary (TRef.of (T := ⟨S8192x8192, .f32⟩) main_call2_v5) (TRef.of (T := ⟨S8192x8192, .f32⟩) main_call2_v6) Host.exp,
    TRef.nullary (TRef.of (T := ⟨S_, .f32⟩) main_call2_cst_1) (constant S_ .f32 0x00000000#32),
    TRef.binary (TRef.of (T := ⟨S8192x8192, .f32⟩) main_call2_v6) (TRef.of (T := ⟨S_, .f32⟩) main_call2_cst_1) (TRef.of (T := ⟨S8192, .f32⟩) main_call2_v7) (fun x v => Host.reduceAdd x v reducesTo_S8192x8192_S8192_d1 h_S_),
    TRef.unary (TRef.of (T := ⟨S8192, .f32⟩) main_call2_v7) (TRef.of (T := ⟨S8192x1, .f32⟩) main_call2_v8) (broadcastInDim S8192x1 ![0] bcast_S8192_S8192x1_0),
    TRef.unary (TRef.of (T := ⟨S8192x1, .f32⟩) main_call2_v8) (TRef.of (T := ⟨S8192x1, .f32⟩) main_call2_v9) Host.log,
    TRef.unary (TRef.of (T := ⟨S8192x1, .f32⟩) main_call2_v9) (TRef.of (T := ⟨S8192x8192, .f32⟩) main_call2_v10) (broadcastInDim S8192x8192 ![0, 1] bcast_S8192x1_S8192x8192_0_1),
    TRef.binary (TRef.of (T := ⟨S8192x8192, .f32⟩) main_call2_v5) (TRef.of (T := ⟨S8192x8192, .f32⟩) main_call2_v10) (TRef.of (T := ⟨S8192x8192, .f32⟩) main_v20) subf ]

/-- The references `opsE`'s operations write. -/
abbrev writtenE : List (Ref sig .tc) := [main_call2_cst, main_call2_v0, main_call2_cst_0, main_call2_v1, main_call2_v2, main_call2_v3, main_call2_v4, main_call2_v5, main_call2_v6, main_call2_cst_1, main_call2_v7, main_call2_v8, main_call2_v9, main_call2_v10, main_v20]

theorem opsE_writes : (opsE : List (HloOp τ sig (Elt F))).Forall fun op => op.writes ⊆ (writtenE.map (Proc.devRef (τ := τ) .tc)).toFinset := by
  simp only [List.Forall]
  and_intros <;> writes_mem

/-- A buffer `opsE` does not write keeps its contents. -/
theorem keepE (W : Valuation τ sig (Elt F)) (r : Ref sig .tc) (h : r ∉ writtenE) :
    StableHlo.after (opsE (F := F)) W (Proc.devRef .tc r) = W (Proc.devRef .tc r) :=
  StableHlo.after_of_writes_sub opsE W opsE_writes h

/-- At the two literal references the stretch reads and writes through a typed reference, the transport is the identity. -/
theorem ofBuf_v14 (v : main_v14.ty.Contents (Elt F)) : (TRef.of (T := ⟨S8192x8192, .f32⟩) main_v14).ofBuf v = v := rfl
theorem toBuf_v20 (v : (⟨S8192x8192, .f32⟩ : BufTy).Contents (Elt F)) : (TRef.of (T := ⟨S8192x8192, .f32⟩) main_v20).toBuf v = v := rfl

set_option maxRecDepth 8192 in
/-- From the masked logits, the log-softmax's result buffer holds the log-probabilities. -/
theorem stage_E (W : Valuation τ sig (Elt F)) (x : (⟨S8192x1024, .f32⟩ : BufTy).Contents (Elt F))
    (h : W (Proc.devRef .tc main_v14) = ReadQ.val_main_v14 x) :
    StableHlo.after (opsE (F := F)) W (Proc.devRef .tc main_v20) = ReadQ.val_main_v20 x := by
  after_results_simp
  simp only [ofBuf_toBuf]
  rw [toBuf_v20]
  simp only [ofBuf_v14]
  rw [h]
  rfl

/-! ## Picking each row's paired entry, and minus the mean -/

/-- The index arithmetic: the two index columns, rows `0 … 8191` and their paired columns, each wrapped into range. -/
abbrev opsF1 : List (HloOp τ sig (Elt F)) :=
  [ nullary main_v21 (iotaInDim S8192 32 0),
    nullary main_c_3 (constantI S_ 32 0#32),
    unary main_c_3 main_v22 (broadcastInDim S8192 ![] bcast_S_S8192 : (⟨S_, .i32⟩ : BufTy).Contents (Elt F) → (⟨S8192, .i32⟩ : BufTy).Contents (Elt F)),
    binary main_v21 main_v22 main_v23 (cmpi .slt : (⟨S8192, .i32⟩ : BufTy).Contents (Elt F) → (⟨S8192, .i32⟩ : BufTy).Contents (Elt F) → (⟨S8192, .i1⟩ : BufTy).Contents (Elt F)),
    nullary main_c_4 (constantI S_ 32 8192#32),
    unary main_c_4 main_v24 (broadcastInDim S8192 ![] bcast_S_S8192 : (⟨S_, .i32⟩ : BufTy).Contents (Elt F) → (⟨S8192, .i32⟩ : BufTy).Contents (Elt F)),
    binary main_v21 main_v24 main_v25 (addi : (⟨S8192, .i32⟩ : BufTy).Contents (Elt F) → (⟨S8192, .i32⟩ : BufTy).Contents (Elt F) → (⟨S8192, .i32⟩ : BufTy).Contents (Elt F)),
    ternary main_v23 main_v25 main_v21 main_v26 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    nullary main_c_5 (constantI S_ 32 0#32),
    unary main_c_5 main_v27 (broadcastInDim S8192 ![] bcast_S_S8192 : (⟨S_, .i32⟩ : BufTy).Contents (Elt F) → (⟨S8192, .i32⟩ : BufTy).Contents (Elt F)),
    binary main_v19 main_v27 main_v28 (cmpi .slt : (⟨S8192, .i32⟩ : BufTy).Contents (Elt F) → (⟨S8192, .i32⟩ : BufTy).Contents (Elt F) → (⟨S8192, .i1⟩ : BufTy).Contents (Elt F)),
    nullary main_c_6 (constantI S_ 32 8192#32),
    unary main_c_6 main_v29 (broadcastInDim S8192 ![] bcast_S_S8192 : (⟨S_, .i32⟩ : BufTy).Contents (Elt F) → (⟨S8192, .i32⟩ : BufTy).Contents (Elt F)),
    binary main_v19 main_v29 main_v30 (addi : (⟨S8192, .i32⟩ : BufTy).Contents (Elt F) → (⟨S8192, .i32⟩ : BufTy).Contents (Elt F) → (⟨S8192, .i32⟩ : BufTy).Contents (Elt F)),
    ternary main_v28 main_v30 main_v19 main_v31 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    unary main_v26 main_v32 (broadcastInDim S8192x1 ![0] bcast_S8192_S8192x1_0 : (⟨S8192, .i32⟩ : BufTy).Contents (Elt F) → (⟨S8192x1, .i32⟩ : BufTy).Contents (Elt F)),
    unary main_v31 main_v33 (broadcastInDim S8192x1 ![0] bcast_S8192_S8192x1_0 : (⟨S8192, .i32⟩ : BufTy).Contents (Elt F) → (⟨S8192x1, .i32⟩ : BufTy).Contents (Elt F)) ]

/-- The references `opsF1`'s operations write. -/
abbrev writtenF1 : List (Ref sig .tc) := [main_v21, main_c_3, main_v22, main_v23, main_c_4, main_v24, main_v25, main_v26, main_c_5, main_v27, main_v28, main_c_6, main_v29, main_v30, main_v31, main_v32, main_v33]

theorem opsF1_writes : (opsF1 : List (HloOp τ sig (Elt F))).Forall fun op => op.writes ⊆ (writtenF1.map (Proc.devRef (τ := τ) .tc)).toFinset := by
  simp only [List.Forall]
  and_intros <;> writes_mem

/-- A buffer `opsF1` does not write keeps its contents. -/
theorem keepF1 (W : Valuation τ sig (Elt F)) (r : Ref sig .tc) (h : r ∉ writtenF1) :
    StableHlo.after (opsF1 (F := F)) W (Proc.devRef .tc r) = W (Proc.devRef .tc r) :=
  StableHlo.after_of_writes_sub opsF1 W opsF1_writes h

set_option maxRecDepth 8192 in
/-- The first index column: the row numbers. -/
theorem stage_F1_v32 (W : Valuation τ sig (Elt F)) :
    StableHlo.after (opsF1 (F := F)) W (Proc.devRef .tc main_v32) = ReadQ.val_main_v32 := by
  after_results_simp
  rfl

set_option maxRecDepth 8192 in
/-- The second index column: the paired column numbers. -/
theorem stage_F1_v33 (W : Valuation τ sig (Elt F)) (h19 : W (Proc.devRef .tc main_v19) = ReadQ.val_main_v19) :
    StableHlo.after (opsF1 (F := F)) W (Proc.devRef .tc main_v33) = ReadQ.val_main_v33 := by
  after_results_simp
  rw [h19]
  rfl

/-- Joining the two columns, the gather, the sum, the division by the row count and the negation. -/
abbrev opsF2 : List (HloOp τ sig (Elt F)) :=
  [ binary main_v32 main_v33 main_v34 ((fun a b => concatenate S8192x2 1 [⟨S8192x1, a⟩, ⟨S8192x1, b⟩] concatenates_S8192x1_S8192x1_S8192x2_d1) : (⟨S8192x1, .i32⟩ : BufTy).Contents (Elt F) → (⟨S8192x1, .i32⟩ : BufTy).Contents (Elt F) → (⟨S8192x2, .i32⟩ : BufTy).Contents (Elt F)),
    binary main_v20 main_v34 main_v35 ((fun x i => Host.gather gather_S8192x8192_S8192x2_S8192_n_01_n_n_01_1_11 x i) : (⟨S8192x8192, .f32⟩ : BufTy).Contents (Elt F) → (⟨S8192x2, .i32⟩ : BufTy).Contents (Elt F) → (⟨S8192, .f32⟩ : BufTy).Contents (Elt F)),
    nullary main_cst_7 (constant S_ .f32 0x00000000#32),
    binary main_v35 main_cst_7 main_v36 ((fun x v => Host.reduceAdd x v reducesTo_S8192_S_d0 h_S_) : (⟨S8192, .f32⟩ : BufTy).Contents (Elt F) → (⟨S_, .f32⟩ : BufTy).Contents (Elt F) → (⟨S_, .f32⟩ : BufTy).Contents (Elt F)),
    nullary main_cst_8 (constant S_ .f32 0x46000000#32),
    binary main_v36 main_cst_8 main_v37 (Host.divf : (⟨S_, .f32⟩ : BufTy).Contents (Elt F) → (⟨S_, .f32⟩ : BufTy).Contents (Elt F) → (⟨S_, .f32⟩ : BufTy).Contents (Elt F)),
    unary main_v37 main_v38 (Host.negf : (⟨S_, .f32⟩ : BufTy).Contents (Elt F) → (⟨S_, .f32⟩ : BufTy).Contents (Elt F)) ]

/-- The references `opsF2`'s operations write. -/
abbrev writtenF2 : List (Ref sig .tc) := [main_v34, main_v35, main_cst_7, main_v36, main_cst_8, main_v37, main_v38]

theorem opsF2_writes : (opsF2 : List (HloOp τ sig (Elt F))).Forall fun op => op.writes ⊆ (writtenF2.map (Proc.devRef (τ := τ) .tc)).toFinset := by
  simp only [List.Forall]
  and_intros <;> writes_mem

/-- A buffer `opsF2` does not write keeps its contents. -/
theorem keepF2 (W : Valuation τ sig (Elt F)) (r : Ref sig .tc) (h : r ∉ writtenF2) :
    StableHlo.after (opsF2 (F := F)) W (Proc.devRef .tc r) = W (Proc.devRef .tc r) :=
  StableHlo.after_of_writes_sub opsF2 W opsF2_writes h

set_option maxRecDepth 8192 in
/-- From the log-probabilities and the two index columns, the result buffer holds minus the mean of the picked entries. -/
theorem stage_F2 (W : Valuation τ sig (Elt F)) (x : (⟨S8192x1024, .f32⟩ : BufTy).Contents (Elt F))
    (h20 : W (Proc.devRef .tc main_v20) = ReadQ.val_main_v20 x)
    (h32 : W (Proc.devRef .tc main_v32) = ReadQ.val_main_v32) (h33 : W (Proc.devRef .tc main_v33) = ReadQ.val_main_v33) :
    StableHlo.after (opsF2 (F := F)) W (Proc.devRef .tc main_v38) = ReadQ.val_main_v38 x := by
  after_results_simp
  rw [h20, h32, h33]
  rfl

/-- The whole stretch: the index arithmetic, then the pick and the mean. -/
abbrev opsF : List (HloOp τ sig (Elt F)) :=
  [ nullary main_v21 (iotaInDim S8192 32 0),
    nullary main_c_3 (constantI S_ 32 0#32),
    unary main_c_3 main_v22 (broadcastInDim S8192 ![] bcast_S_S8192 : (⟨S_, .i32⟩ : BufTy).Contents (Elt F) → (⟨S8192, .i32⟩ : BufTy).Contents (Elt F)),
    binary main_v21 main_v22 main_v23 (cmpi .slt : (⟨S8192, .i32⟩ : BufTy).Contents (Elt F) → (⟨S8192, .i32⟩ : BufTy).Contents (Elt F) → (⟨S8192, .i1⟩ : BufTy).Contents (Elt F)),
    nullary main_c_4 (constantI S_ 32 8192#32),
    unary main_c_4 main_v24 (broadcastInDim S8192 ![] bcast_S_S8192 : (⟨S_, .i32⟩ : BufTy).Contents (Elt F) → (⟨S8192, .i32⟩ : BufTy).Contents (Elt F)),
    binary main_v21 main_v24 main_v25 (addi : (⟨S8192, .i32⟩ : BufTy).Contents (Elt F) → (⟨S8192, .i32⟩ : BufTy).Contents (Elt F) → (⟨S8192, .i32⟩ : BufTy).Contents (Elt F)),
    ternary main_v23 main_v25 main_v21 main_v26 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    nullary main_c_5 (constantI S_ 32 0#32),
    unary main_c_5 main_v27 (broadcastInDim S8192 ![] bcast_S_S8192 : (⟨S_, .i32⟩ : BufTy).Contents (Elt F) → (⟨S8192, .i32⟩ : BufTy).Contents (Elt F)),
    binary main_v19 main_v27 main_v28 (cmpi .slt : (⟨S8192, .i32⟩ : BufTy).Contents (Elt F) → (⟨S8192, .i32⟩ : BufTy).Contents (Elt F) → (⟨S8192, .i1⟩ : BufTy).Contents (Elt F)),
    nullary main_c_6 (constantI S_ 32 8192#32),
    unary main_c_6 main_v29 (broadcastInDim S8192 ![] bcast_S_S8192 : (⟨S_, .i32⟩ : BufTy).Contents (Elt F) → (⟨S8192, .i32⟩ : BufTy).Contents (Elt F)),
    binary main_v19 main_v29 main_v30 (addi : (⟨S8192, .i32⟩ : BufTy).Contents (Elt F) → (⟨S8192, .i32⟩ : BufTy).Contents (Elt F) → (⟨S8192, .i32⟩ : BufTy).Contents (Elt F)),
    ternary main_v28 main_v30 main_v19 main_v31 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    unary main_v26 main_v32 (broadcastInDim S8192x1 ![0] bcast_S8192_S8192x1_0 : (⟨S8192, .i32⟩ : BufTy).Contents (Elt F) → (⟨S8192x1, .i32⟩ : BufTy).Contents (Elt F)),
    unary main_v31 main_v33 (broadcastInDim S8192x1 ![0] bcast_S8192_S8192x1_0 : (⟨S8192, .i32⟩ : BufTy).Contents (Elt F) → (⟨S8192x1, .i32⟩ : BufTy).Contents (Elt F)),
    binary main_v32 main_v33 main_v34 ((fun a b => concatenate S8192x2 1 [⟨S8192x1, a⟩, ⟨S8192x1, b⟩] concatenates_S8192x1_S8192x1_S8192x2_d1) : (⟨S8192x1, .i32⟩ : BufTy).Contents (Elt F) → (⟨S8192x1, .i32⟩ : BufTy).Contents (Elt F) → (⟨S8192x2, .i32⟩ : BufTy).Contents (Elt F)),
    binary main_v20 main_v34 main_v35 ((fun x i => Host.gather gather_S8192x8192_S8192x2_S8192_n_01_n_n_01_1_11 x i) : (⟨S8192x8192, .f32⟩ : BufTy).Contents (Elt F) → (⟨S8192x2, .i32⟩ : BufTy).Contents (Elt F) → (⟨S8192, .f32⟩ : BufTy).Contents (Elt F)),
    nullary main_cst_7 (constant S_ .f32 0x00000000#32),
    binary main_v35 main_cst_7 main_v36 ((fun x v => Host.reduceAdd x v reducesTo_S8192_S_d0 h_S_) : (⟨S8192, .f32⟩ : BufTy).Contents (Elt F) → (⟨S_, .f32⟩ : BufTy).Contents (Elt F) → (⟨S_, .f32⟩ : BufTy).Contents (Elt F)),
    nullary main_cst_8 (constant S_ .f32 0x46000000#32),
    binary main_v36 main_cst_8 main_v37 (Host.divf : (⟨S_, .f32⟩ : BufTy).Contents (Elt F) → (⟨S_, .f32⟩ : BufTy).Contents (Elt F) → (⟨S_, .f32⟩ : BufTy).Contents (Elt F)),
    unary main_v37 main_v38 (Host.negf : (⟨S_, .f32⟩ : BufTy).Contents (Elt F) → (⟨S_, .f32⟩ : BufTy).Contents (Elt F)) ]

theorem opsF_eq : (opsF : List (HloOp τ sig (Elt F))) = opsF1 ++ opsF2 := rfl

/-- The references `opsF`'s operations write. -/
abbrev writtenF : List (Ref sig .tc) := [main_v21, main_c_3, main_v22, main_v23, main_c_4, main_v24, main_v25, main_v26, main_c_5, main_v27, main_v28, main_c_6, main_v29, main_v30, main_v31, main_v32, main_v33, main_v34, main_v35, main_cst_7, main_v36, main_cst_8, main_v37, main_v38]

theorem opsF_writes : (opsF : List (HloOp τ sig (Elt F))).Forall fun op => op.writes ⊆ (writtenF.map (Proc.devRef (τ := τ) .tc)).toFinset := by
  simp only [List.Forall]
  and_intros <;> writes_mem

/-- A buffer `opsF` does not write keeps its contents. -/
theorem keepF (W : Valuation τ sig (Elt F)) (r : Ref sig .tc) (h : r ∉ writtenF) :
    StableHlo.after (opsF (F := F)) W (Proc.devRef .tc r) = W (Proc.devRef .tc r) :=
  StableHlo.after_of_writes_sub opsF W opsF_writes h

/-- From the paired-column numbers and the log-probabilities, the result buffer holds the reference's loss. -/
theorem stage_F (W : Valuation τ sig (Elt F)) (x : (⟨S8192x1024, .f32⟩ : BufTy).Contents (Elt F))
    (h19 : W (Proc.devRef .tc main_v19) = ReadQ.val_main_v19) (h20 : W (Proc.devRef .tc main_v20) = ReadQ.val_main_v20 x) :
    StableHlo.after (opsF (F := F)) W (Proc.devRef .tc main_v38) = ReadQ.val_main_v38 x := by
  rw [opsF_eq, StableHlo.after_append]
  exact stage_F2 _ x ((keepF1 W main_v20 (by decide)).trans h20) (stage_F1_v32 W) (stage_F1_v33 W h19)

end Cert.ReferenceIdeal.Stages

end
-- ==== Proof.RefStages.lean ====
/-
  The reference program's seventy operations run as six consecutive stretches. Each stretch's value at the buffer
  it hands on is a function of the buffers it was handed, and leaves every buffer it does not write as it was; so
  the whole line's result is the composition: the loss stage reads the log-softmax and the labels, the log-softmax
  reads the masked logits, those the scaled Gram matrix, that the row norms and the argument. The argument itself
  is written by no operation.
-/
import proofs.«164746_j32564442038466_1_alg».proof.Proof.RefStagesA
import proofs.«164746_j32564442038466_1_alg».proof.Proof.RefStagesB
import Idealize.ShloMosaic.Lib.Pipeline.Frame

set_option maxRecDepth 16384

noncomputable section

namespace Cert.ReferenceIdeal.Stages

open Cert.ReferenceIdeal Cert.ReferenceIdeal.Gen Idealize.ShloMosaic Idealize.ShloMosaic.TcCoe Idealize.SL.Sem Idealize.ShloMosaic.StableHlo

variable {F : FTy → Type} [FloatOps F]

/-- The line of operations is the six stretches one after the other. -/
theorem ops_split : ValueQ.ops (F := F) = opsA ++ opsB ++ opsC ++ opsD ++ opsE ++ opsF := rfl

/-- The result buffer after the whole line, as the composed value of the argument. -/
theorem after_ops (W : Valuation τ sig (Elt F)) :
    StableHlo.after (ValueQ.ops (F := F)) W (Proc.devRef .tc main_v38) = ReadQ.val_main_v38 (W (Proc.devRef .tc main_arg0)) := by
  rw [ops_split, StableHlo.after_append, StableHlo.after_append, StableHlo.after_append, StableHlo.after_append,
    StableHlo.after_append]
  -- the argument and the norms after the first stretch
  have hA0 : StableHlo.after (opsA (F := F)) W (Proc.devRef .tc main_arg0) = W (Proc.devRef .tc main_arg0) :=
    keepA W main_arg0 (by decide)
  have hA1 := stage_A W
  -- the scaled Gram matrix after the second
  have hB := stage_B (StableHlo.after opsA W) (W (Proc.devRef .tc main_arg0)) hA0 hA1
  -- the masked logits after the third, kept by the fourth
  have hC := stage_C (StableHlo.after opsB (StableHlo.after opsA W)) (W (Proc.devRef .tc main_arg0)) hB
  have hD14 := (keepD (StableHlo.after opsC (StableHlo.after opsB (StableHlo.after opsA W))) main_v14 (by decide)).trans hC
  -- the labels after the fourth, kept by the fifth
  have hD19 := stage_D (StableHlo.after opsC (StableHlo.after opsB (StableHlo.after opsA W)))
  have hE19 := (keepE (StableHlo.after opsD (StableHlo.after opsC (StableHlo.after opsB (StableHlo.after opsA W)))) main_v19
    (by decide)).trans hD19
  -- the log-softmax after the fifth
  have hE20 := stage_E (StableHlo.after opsD (StableHlo.after opsC (StableHlo.after opsB (StableHlo.after opsA W))))
    (W (Proc.devRef .tc main_arg0)) hD14
  exact stage_F _ (W (Proc.devRef .tc main_arg0)) hE19 hE20

/-- No operation writes the argument. -/
theorem after_arg0 (W : Valuation τ sig (Elt F)) :
    StableHlo.after (ValueQ.ops (F := F)) W (Proc.devRef .tc main_arg0) = W (Proc.devRef .tc main_arg0) := by
  rw [ops_split, StableHlo.after_append, StableHlo.after_append, StableHlo.after_append, StableHlo.after_append,
    StableHlo.after_append]
  exact (keepF _ main_arg0 (by decide)).trans <| (keepE _ main_arg0 (by decide)).trans <| (keepD _ main_arg0 (by decide)).trans <|
    (keepC _ main_arg0 (by decide)).trans <| (keepB _ main_arg0 (by decide)).trans (keepA W main_arg0 (by decide))

end Cert.ReferenceIdeal.Stages

end
-- ==== Proof.RefValueQ.lean ====
/-
  The reference program computes the loss `Spec.lossR` of its features.

  Stage by stage, each read at an index: the rows' clamped norms and the normalized rows (`fn`), their Gram
  matrix divided by the temperature with the diagonal at `⊥` (`sRm`), the row maximum (a fold of `max` from
  `-∞`, which is the supremum over the row; the extra maximum with `-∞` changes nothing), the log-softmax
  (`logp`), the start indices of the gather (row `r` reads `[r, lab r]`: the wrap of negative indices is the
  identity on words below 2³¹, and the labels are the two halves `r + 4096`, `r - 4096` joined), the gathered
  entries `logp r (lab r)`, and minus their mean.
-/
import proofs.«164746_j32564442038466_1_alg».proof.Proof.RefStages
import proofs.«164746_j32564442038466_1_alg».proof.Proof.Spec
import Idealize.ShloMosaic.Lib.StableHlo.Predicate
import Idealize.ShloMosaic.Lib.ValueIdxRank1

noncomputable section

namespace Cert.ReferenceIdeal.RefValueQ

open Cert.ReferenceIdeal Cert.ReferenceIdeal.Gen Cert.ReferenceIdeal.ReadQ Idealize.ShloMosaic Idealize.ShloMosaic.TcCoe Idealize.SL.Sem
  Idealize.ShloMosaic.StableHlo Idealize.ShloMosaic.ValueIdx Cert.Spec

/-- The features as the reference program holds them. -/
abbrev Feat := (⟨S8192x1024, .f32⟩ : BufTy).Contents (Elt Ideal)

/-! ## The normalized rows -/

/-- The squared norm of row `i`, as the reference sums it. -/
theorem sq_apply (x : Feat) (i : S8192.Idx) :
    val_main_call0_v1 (F := Ideal) x i = ∑ d : Fin 1024, toMat x (i 0) d * toMat x (i 0) d := by
  rw [val_main_call0_v1_apply, val_main_call0_cst_apply, Ideal.ofBits_def, Ideal.ofBits_zero_f32, zero_add]
  refine Finset.sum_congr rfl fun d _ => ?_
  rw [val_main_call0_v0_apply, Ideal.mulf_def]
  have e : idx_main_call0_v1 i d = ix2 (i 0) d := by
    funext a; match a with | ⟨0, _⟩ => rfl | ⟨1, _⟩ => rfl
  rw [e]; rfl

/-- The clamped norm of row `i`. -/
theorem nrm_apply (x : Feat) (i : S8192x1.Idx) :
    val_main_v2 (F := Ideal) x i = nrm (toMat x) (i 0) := by
  rw [val_main_v2_apply, val_main_v0_apply, val_main_call0_v2_apply, sq_apply, val_main_v1_apply, val_main_cst_apply,
    Ideal.maximumf_def, Ideal.hostUnary_sqrt_def, Ideal.ofBits_def]
  rfl

/-- The normalized features. -/
theorem fn_apply (x : Feat) (i : S8192x1024.Idx) :
    val_main_v4 (F := Ideal) x i = fn (toMat x) (i 0) (i 1) := by
  rw [val_main_v4_apply, val_main_v3_apply, nrm_apply, Ideal.hostDivf_def]
  conv_lhs => rw [eq_ix2 i]
  rfl

/-! ## The masked, scaled Gram matrix -/

/-- The Gram matrix of the normalized rows. -/
theorem dot_apply (x : Feat) (i : S8192x8192.Idx) :
    val_main_v6 (F := Ideal) x i = dotp (fn (toMat x)) (i 0) (i 1) := by
  rw [val_main_v6_apply]
  refine Finset.sum_congr rfl fun k _ => ?_
  rw [val_main_v5_apply, fn_apply, fn_apply]
  rfl

/-- The Gram matrix divided by the temperature. -/
theorem sR_apply (x : Feat) (i : S8192x8192.Idx) :
    val_main_v8 (F := Ideal) x i = sR (fn (toMat x)) (i 0) (i 1) := by
  rw [val_main_v8_apply, dot_apply, val_main_v7_apply, val_main_cst_0_apply, Ideal.hostDivf_def, Ideal.ofBits_def]
  rfl

/-- The diagonal's mask bit is set exactly where the row and column coordinates agree. -/
theorem diag_apply (a b : Fin 8192) : val_main_v13 (F := Ideal) (ix2 a b) = 1#1 ↔ a = b := by
  rw [val_main_v13_apply, StableHlo.Predicate.cmpi_eq_iff, val_main_v12_apply, val_main_v9_apply, val_main_v10_apply,
    val_main_v11_apply, val_main_c_apply]
  show BitVec.ofNat 32 a.val + 0#32 = BitVec.ofNat 32 b.val ↔ _
  rw [BitVec.add_zero]
  constructor
  · intro h
    have e := congrArg BitVec.toNat h
    simp only [BitVec.toNat_ofNat] at e
    have h0 := a.isLt
    have h1 := b.isLt
    exact Fin.ext (by omega)
  · intro h
    rw [h]

/-- The logits: the scaled Gram matrix with the diagonal at `⊥`. -/
theorem sRm_apply (x : Feat) (a b : Fin 8192) :
    val_main_v14 (F := Ideal) x (ix2 a b) = sRm (fn (toMat x)) a b := by
  rw [val_main_v14_apply]
  unfold sRm
  by_cases h : a = b
  · rw [if_pos h, (diag_apply a b).mpr h, select_one, val_main_call1_v1_apply, val_main_call1_v0_apply,
      val_main_cst_1_apply, Ideal.ofBits_def]
    exact negInfW_eq
  · rw [if_neg h, eq_zero_of_ne_one (mt (diag_apply a b).mp h), select_zero, sR_apply]

/-! ## The row maximum -/

/-- The reference reduces over the column axis. -/
theorem reducesCols : S8192x8192.Reduces [1] S8192 := by decide

/-- Inserting column `k` into the row index. -/
theorem lift_cols (i : S8192.Idx) (k : Fin 8192) : reducesCols.lift i k = ix2 (i 0) k := by
  funext c
  match c with
  | ⟨0, _⟩ => rfl
  | ⟨1, _⟩ => rfl

/-- The row maximum of the logits: the fold from `-∞`, then the maximum with `-∞` once more. -/
theorem rowMax_apply (x : Feat) (i : S8192.Idx) :
    val_main_call2_v2 (F := Ideal) x i = rowMax (sRm (fn (toMat x))) (i 0) := by
  rw [val_main_call2_v2_apply, val_main_call2_v1_apply, val_main_call2_cst_0_apply, Ideal.ofBits_def, Ideal.maximumf_def]
  unfold val_main_call2_v0
  rw [Host.reduce_eq_fold_single FloatOps.maximumf _ _ reducesTo_S8192x8192_S8192_d1 reducesCols h_S_ i,
    val_main_call2_cst_apply, Ideal.ofBits_def]
  have e : (val_main_v14 (F := Ideal) x ∘ reducesCols.lift i) = sRm (fn (toMat x)) (i 0) := funext fun k =>
    (congrArg (val_main_v14 (F := Ideal) x) (lift_cols i k)).trans (sRm_apply x (i 0) k)
  rw [e]
  change max negInfW (Finset.univ.fold max negInfW _) = _
  rw [negInfW_eq, max_bot_left]
  rfl

/-! ## The log-softmax -/

/-- The logits less their row's maximum. -/
theorem shift_apply (x : Feat) (a b : Fin 8192) :
    val_main_call2_v5 (F := Ideal) x (ix2 a b) = sRm (fn (toMat x)) a b - rowMax (sRm (fn (toMat x))) a := by
  rw [val_main_call2_v5_apply, sRm_apply, val_main_call2_v4_apply, val_main_call2_v3_apply, rowMax_apply, Ideal.subf_def]
  rfl

/-- The row's sum of exponentials of the shifted logits. -/
theorem sumExp_apply (x : Feat) (a : Fin 8192) :
    val_main_call2_v7 (F := Ideal) x (ix1 a)
      = ∑ j : Fin 8192, Ideal.exp (sRm (fn (toMat x)) a j - rowMax (sRm (fn (toMat x))) a) := by
  rw [val_main_call2_v7_apply, val_main_call2_cst_1_apply, Ideal.ofBits_def, Ideal.ofBits_zero_f32, zero_add]
  refine Finset.sum_congr rfl fun k _ => ?_
  rw [val_main_call2_v6_apply, Ideal.hostUnary_exp_def]
  have e : idx_main_call2_v7 (ix1 a) k = ix2 a k := by
    funext c; match c with | ⟨0, _⟩ => rfl | ⟨1, _⟩ => rfl
  rw [e, shift_apply]

/-- The log-softmax of the logits. -/
theorem logp_apply (x : Feat) (a b : Fin 8192) :
    val_main_v20 (F := Ideal) x (ix2 a b) = logp (sRm (fn (toMat x))) a b := by
  rw [val_main_v20_apply, shift_apply, val_main_call2_v10_apply, val_main_call2_v9_apply, val_main_call2_v8_apply,
    Ideal.subf_def, Ideal.hostUnary_log_def]
  have e : idx_main_call2_v8 (idx_main_call2_v10 (ix2 a b)) = ix1 a := by
    funext c; match c with | ⟨0, _⟩ => rfl
  rw [e, sumExp_apply]
  rfl

/-! ## The gather's start indices -/

/-- A row number as a 32-bit word is below 2³¹. -/
theorem word_lt (r : Fin 8192) : (BitVec.ofNat 32 r.val).toNat < 2 ^ 31 := by
  rw [BitVec.toNat_ofNat]
  have := r.isLt
  omega

/-- A word below 2³¹ is not negative. -/
theorem not_neg (w : BitVec 32) (hw : w.toNat < 2 ^ 31) : ¬ IntOp.cmpi .slt w 0#32 = 1#1 := by
  rw [StableHlo.Predicate.slt_iff_toNat hw (by decide)]
  exact Nat.not_lt_zero _

/-- The row coordinate's word: the wrap of negative indices leaves a row number alone. -/
theorem rowIdx_apply (r : Fin 8192) : val_main_v26 (F := Ideal) (ix1 r) = BitVec.ofNat 32 r.val := by
  rw [val_main_v26_apply]
  have hn : ¬ val_main_v23 (F := Ideal) (ix1 r) = 1#1 := by
    rw [val_main_v23_apply, val_main_v21_apply, val_main_v22_apply, val_main_c_3_apply]
    exact not_neg _ (word_lt r)
  rw [eq_zero_of_ne_one hn, select_zero, val_main_v21_apply]

/-- The label of row `r` as a word: the paired row's number. -/
theorem lab_apply (r : Fin 8192) : val_main_v19 (F := Ideal) (ix1 r) = BitVec.ofNat 32 (lab r).val := by
  unfold val_main_v19
  by_cases h : r.val < 4096
  · rw [concatenate_pair_apply_left (0 : Fin S8192.rank) _ _ concatenates_S4096_S4096_S8192_d0 (ix1 r) rfl
      (ix1 (⟨r.val, h⟩ : Fin 4096)) (fun b => by match b with | ⟨0, _⟩ => rfl)]
    rw [val_main_v17_apply, val_main_v15_apply, val_main_v16_apply, val_main_c_2_apply]
    unfold lab
    rw [dif_pos h]
    exact (BitVec.ofNat_add r.val 4096).symm
  · rw [concatenate_pair_apply_right (0 : Fin S8192.rank) _ _ concatenates_S4096_S4096_S8192_d0 (ix1 r) rfl rfl
      (ix1 (⟨r.val - 4096, by have := r.isLt; omega⟩ : Fin 4096))
      (fun b hb => absurd (by match b with | ⟨0, _⟩ => rfl) hb)
      (by show r.val - 4096 + 4096 = r.val; omega)]
    rw [val_main_v18_apply]
    unfold lab
    rw [dif_neg h]

/-- The column coordinate's word: the label, which the wrap of negative indices leaves alone. -/
theorem colIdx_apply (r : Fin 8192) : val_main_v31 (F := Ideal) (ix1 r) = BitVec.ofNat 32 (lab r).val := by
  rw [val_main_v31_apply]
  have hn : ¬ val_main_v28 (F := Ideal) (ix1 r) = 1#1 := by
    rw [val_main_v28_apply, lab_apply, val_main_v27_apply, val_main_c_5_apply]
    exact not_neg _ (word_lt (lab r))
  rw [eq_zero_of_ne_one hn, select_zero, lab_apply]

/-- Row `r` of the start indices, first component: the row. -/
theorem start0_apply (r : Fin 8192) :
    val_main_v34 (F := Ideal) (ix2 r (0 : Fin 2)) = BitVec.ofNat 32 r.val := by
  unfold val_main_v34
  rw [concatenate_pair_apply_left (1 : Fin S8192x2.rank) _ _ concatenates_S8192x1_S8192x1_S8192x2_d1 (ix2 r (0 : Fin 2)) rfl
    (ix2 r (0 : Fin 1)) (fun b => by match b with | ⟨0, _⟩ => rfl | ⟨1, _⟩ => rfl)]
  rw [val_main_v32_apply]
  have e : idx_main_v32 (ix2 r (0 : Fin 1)) = ix1 r := by
    funext c; match c with | ⟨0, _⟩ => rfl
  rw [e, rowIdx_apply]

/-- Row `r` of the start indices, second component: the label. -/
theorem start1_apply (r : Fin 8192) :
    val_main_v34 (F := Ideal) (ix2 r (1 : Fin 2)) = BitVec.ofNat 32 (lab r).val := by
  unfold val_main_v34
  rw [concatenate_pair_apply_right (1 : Fin S8192x2.rank) _ _ concatenates_S8192x1_S8192x1_S8192x2_d1 (ix2 r (1 : Fin 2)) rfl rfl
    (ix2 r (0 : Fin 1))
    (fun b hb => by match b, hb with | ⟨0, _⟩, _ => rfl | ⟨1, _⟩, hb => exact absurd rfl hb)
    rfl]
  rw [val_main_v33_apply]
  have e : idx_main_v33 (ix2 r (0 : Fin 1)) = ix1 r := by
    funext c; match c with | ⟨0, _⟩ => rfl
  rw [e, colIdx_apply]

/-! ## The gather -/

/-- The start-indices index at which row `r` of the result reads its start index's first component. -/
theorem siIdx0 (r : Fin 8192) : gather_S8192x8192_S8192x2_S8192_n_01_n_n_01_1_11.siIdx (ix1 r)
    ⟨List.idxOf (0 : Fin 2) gather_S8192x8192_S8192x2_S8192_n_01_n_n_01_1_11.startIndexMap,
      List.idxOf_lt_length_iff.2 (by decide)⟩ = ix2 r (0 : Fin 2) := by
  funext b; refine Fin.ext ?_
  match b with
  | ⟨0, _⟩ => rfl
  | ⟨1, _⟩ => rfl

/-- The same for the second component. -/
theorem siIdx1 (r : Fin 8192) : gather_S8192x8192_S8192x2_S8192_n_01_n_n_01_1_11.siIdx (ix1 r)
    ⟨List.idxOf (1 : Fin 2) gather_S8192x8192_S8192x2_S8192_n_01_n_n_01_1_11.startIndexMap,
      List.idxOf_lt_length_iff.2 (by decide)⟩ = ix2 r (1 : Fin 2) := by
  funext b; refine Fin.ext ?_
  match b with
  | ⟨0, _⟩ => rfl
  | ⟨1, _⟩ => rfl

/-- The operand's row that row `r` of the result reads: `r`. -/
theorem operandIdx_row (r : Fin 8192) :
    (gather_S8192x8192_S8192x2_S8192_n_01_n_n_01_1_11.operandIdx (ix1 r) (val_main_v34 (F := Ideal)) (0 : Fin 2)).val = r.val := by
  show gather_S8192x8192_S8192x2_S8192_n_01_n_n_01_1_11.start (ix1 r) (val_main_v34 (F := Ideal)) (0 : Fin 2)
      + gather_S8192x8192_S8192x2_S8192_n_01_n_n_01_1_11.batchCoord (ix1 r) (0 : Fin 2)
      + gather_S8192x8192_S8192x2_S8192_n_01_n_n_01_1_11.offCoord (ix1 r) (0 : Fin 2) = _
  rw [GatherDims.batchCoord_eq_zero _ _ _ List.not_mem_nil,
    GatherDims.offCoord_eq_zero _ _ _ (fun h => ((GatherDims.mem_sKept _ _).mp h).1 (by decide))]
  simp only [Nat.add_zero]
  unfold GatherDims.start
  rw [dif_pos (show (0 : Fin 2) ∈ gather_S8192x8192_S8192x2_S8192_n_01_n_n_01_1_11.startIndexMap by decide), siIdx0,
    start0_apply, StableHlo.Predicate.toInt_ofNat_small _ (by have := r.isLt; omega), Int.toNat_natCast]
  have := r.isLt
  show min r.val (8192 - 1) = r.val
  omega

/-- The operand's column that row `r` of the result reads: the label. -/
theorem operandIdx_col (r : Fin 8192) :
    (gather_S8192x8192_S8192x2_S8192_n_01_n_n_01_1_11.operandIdx (ix1 r) (val_main_v34 (F := Ideal)) (1 : Fin 2)).val = (lab r).val := by
  show gather_S8192x8192_S8192x2_S8192_n_01_n_n_01_1_11.start (ix1 r) (val_main_v34 (F := Ideal)) (1 : Fin 2)
      + gather_S8192x8192_S8192x2_S8192_n_01_n_n_01_1_11.batchCoord (ix1 r) (1 : Fin 2)
      + gather_S8192x8192_S8192x2_S8192_n_01_n_n_01_1_11.offCoord (ix1 r) (1 : Fin 2) = _
  rw [GatherDims.batchCoord_eq_zero _ _ _ List.not_mem_nil,
    GatherDims.offCoord_eq_zero _ _ _ (fun h => ((GatherDims.mem_sKept _ _).mp h).1 (by decide))]
  simp only [Nat.add_zero]
  unfold GatherDims.start
  rw [dif_pos (show (1 : Fin 2) ∈ gather_S8192x8192_S8192x2_S8192_n_01_n_n_01_1_11.startIndexMap by decide), siIdx1,
    start1_apply, StableHlo.Predicate.toInt_ofNat_small _ (by have := (lab r).isLt; omega), Int.toNat_natCast]
  have := (lab r).isLt
  show min (lab r).val (8192 - 1) = (lab r).val
  omega

/-- The operand index row `r` of the result reads: row `r`, column `lab r`. -/
theorem operandIdx_apply (r : Fin 8192) :
    gather_S8192x8192_S8192x2_S8192_n_01_n_n_01_1_11.operandIdx (ix1 r) (val_main_v34 (F := Ideal)) = ix2 r (lab r) := by
  funext a
  refine Fin.ext ?_
  match a with
  | ⟨0, _⟩ => exact operandIdx_row r
  | ⟨1, _⟩ => exact operandIdx_col r

/-- The gathered log-probabilities: row `r` at its paired column. -/
theorem gather_apply (x : Feat) (r : Fin 8192) :
    val_main_v35 (F := Ideal) x (ix1 r) = logp (sRm (fn (toMat x))) r (lab r) := by
  unfold val_main_v35 Host.gather
  rw [operandIdx_apply, logp_apply]

/-! ## The loss -/

/-- The reference's result is the loss of the features. -/
theorem ref_value (x : Feat) : val_main_v38 (F := Ideal) x = fun _ => lossR (toMat x) := by
  funext i
  rw [val_main_v38_apply, val_main_v37_apply, val_main_v36_apply, val_main_cst_7_apply, val_main_cst_8_apply,
    Ideal.hostNegf_def, Ideal.negf_def, Ideal.hostDivf_def, Ideal.ofBits_def, Ideal.ofBits_def, Ideal.ofBits_zero_f32, zero_add,
    ← Equiv.sum_comp (idxEquiv1 (n := 8192)).symm]
  unfold lossR nW
  refine congrArg (fun s => -(Ideal.div s _)) (Finset.sum_congr rfl fun r _ => ?_)
  exact gather_apply x r

/-! ## The run -/

/-- Every weakly fair execution of the reference ends with its result at the loss of the features it was launched
    with, and the features unchanged. -/
theorem ref_run (m : (ℓ : Loc nD τ sig) → Buf (Elt Ideal) ℓ) (ρ : Dev nD → PrngReg) :
    θ_run Cert.ReferenceIdeal.defs (onTc (τ := τ) (Cert.ReferenceIdeal.main (F := Ideal))) ⟨m, fun _ => 0, ρ⟩
      (fun r => ∀ c : Dev nD,
        r.2.mem ((c.tc : Thread nD τ).loc main_v38)
            = (fun _ => lossR (toMat (m ((c.tc : Thread nD τ).loc main_arg0))))
          ∧ r.2.mem ((c.tc : Thread nD τ).loc main_arg0) = m ((c.tc : Thread nD τ).loc main_arg0)) :=
  (θ_run Cert.ReferenceIdeal.defs _ _).mono
    (fun _ h c => ⟨((h c main_v38).trans (Cert.ReferenceIdeal.Stages.after_ops (F := Ideal) (launchContents m c))).trans (ref_value _),
      (h c main_arg0).trans (Cert.ReferenceIdeal.Stages.after_arg0 (F := Ideal) (launchContents m c))⟩)
    (Cert.ReferenceIdeal.ValueQ.run_after (F := Ideal) m ρ)

end Cert.ReferenceIdeal.RefValueQ

end
-- ==== Proof.Finite.lean ====
/-
  From the claim's precondition to the form the specification needs. The precondition says that the conjunction,
  over every entry of the 8192 × 1024 argument, of "the entry's absolute value is below +∞" is true. In the extended
  reals the absolute value of `⊥` and of `⊤` is `⊤`, which is not below `⊤`; so every entry is a real number.
-/
import proofs.«164746_j32564442038466_1_alg».proof.Defs
import proofs.«164746_j32564442038466_1_alg».proof.Proof.Gen.Pre_finite_inputs
import proofs.«164746_j32564442038466_1_alg».proof.Proof.Spec
import Idealize.ShloMosaic.Lib.ReduceAll
import Idealize.ShloMosaic.Lib.IdealHost

noncomputable section

namespace Cert.Finite

open Idealize.ShloMosaic Idealize.ShloMosaic.ValueIdx

/-- The word `0x7F800000` is `+∞`. -/
theorem posInf_eq : Ideal.ofBits .f32 0x7F800000#32 = ⊤ := by simp [Ideal.ofBits, Ideal.ieee]

/-- An extended real whose absolute value `max a (-a)` is below `⊤` is a real number. -/
theorem real_of_abs_lt_top (a : EReal) (h : max a (-a) < ⊤) : ∃ r : ℝ, a = (r : EReal) := by
  induction a using EReal.rec with
  | bot => rw [EReal.neg_bot, max_eq_right bot_le] at h; exact absurd h (lt_irrefl _)
  | top => rw [EReal.neg_top, max_eq_left bot_le] at h; exact absurd h (lt_irrefl _)
  | coe r => exact ⟨r, rfl⟩

/-- Where the precondition holds of an array, every entry of the array is a real number. -/
theorem real_of_pre [Cert.Pre_finite_inputs.Facts] (x : FVec Ideal Cert.Pre_finite_inputs.S8192x1024 .f32)
    (h : Cert.Pre_finite_inputs.fn (F := Ideal) x = fun _ => 1#1) :
    ∀ (i : Fin 8192) (d : Fin 1024), ∃ r : ℝ, Cert.Spec.toMat x i d = (r : EReal) := by
  intro i d
  haveI : Subsingleton Cert.Pre_finite_inputs.S_.Idx := ⟨fun a b => funext fun k => k.elim0⟩
  have h0 := congrFun h ix0
  dsimp only [Cert.Pre_finite_inputs.fn] at h0
  have he := Host.reduce_andi_all _ _ _ _ _ h0 (ix2 i d)
  rw [cmpf_apply, broadcastInDim_scalar_apply] at he
  have hlt : max (x (ix2 i d)) (-(x (ix2 i d))) < ⊤ := by
    have he' : Ideal.cmp .olt (max (x (ix2 i d)) (-(x (ix2 i d)))) (Ideal.ofBits .f32 0x7F800000#32) = 1#1 := he
    rw [posInf_eq] at he'
    by_contra hn
    simp [Ideal.cmp, hn] at he'
  exact real_of_abs_lt_top _ hlt

/-- The same, from the idealized kernel's precondition, of its argument on every device. -/
theorem real_of_preK [Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    ∀ (i : Fin 8192) (d : Fin 1024),
      ∃ r : ℝ, Cert.Spec.toMat (m ((c.tc : Thread Cert.KernelIdeal.nD Cert.KernelIdeal.τ).loc Cert.KernelIdeal.main_arg0)) i d
        = (r : EReal) :=
  real_of_pre _ (h c)

end Cert.Finite

end
-- ==== Proof.lean ====
/-
  The certificate of a contrastive loss over 8192 feature rows of length 1024.

  Both programs first divide each row of the features `x` by its Euclidean norm clamped below at the word ε, take
  the Gram matrix of the normalized rows, scale it by the temperature, mask the diagonal to `⊥`, and return minus
  the mean over rows `i` of the log-softmax of row `i` at its paired column `i ± 4096`. They differ in two ways.
  The kernel's program multiplies the Gram matrix by a named reciprocal of the temperature where the reference
  divides by the temperature word; the name's value is exactly one over the word's value, so the two scalings are
  one. And the kernel's program never holds a whole row of logits: it walks the 16 column blocks of 512, carrying
  per row a running maximum, a running sum of exponentials rescaled to that maximum, and the paired logit, and
  closes with maximum plus logarithm of the sum; the reference takes the row maximum and the sum in one pass.
  Rescaling a partial sum by `exp (old maximum − new maximum)` is the law that joins them; over the extended
  reals the two losses are equal when every entry of `x` is a real number (`Cert.Spec.loss_eq`), and the
  precondition, every entry of `x` finite, says exactly that (`Cert.Finite.real_of_preK`).

  The claims: each of the three programs runs to its end and leaves its argument as launched; the kernel's
  idealization differs from the word-level program only in the two named constants (the reciprocal temperature and
  the mask value); and over the extended reals the idealized kernel and the reference, started from agreeing
  arguments, end with equal results.
-/
import proofs.«164746_j32564442038466_1_alg».proof.Defs
import proofs.«164746_j32564442038466_1_alg».proof.Proof.Gen.Kernel
import proofs.«164746_j32564442038466_1_alg».proof.Proof.Gen.KernelIdeal
import proofs.«164746_j32564442038466_1_alg».proof.Proof.Gen.ReferenceIdeal
import proofs.«164746_j32564442038466_1_alg».proof.Proof.Gen.Pre_finite_inputs
import proofs.«164746_j32564442038466_1_alg».proof.Proof.Kernel.RunMain
import proofs.«164746_j32564442038466_1_alg».proof.Proof.KernelIdeal.RunMain
import proofs.«164746_j32564442038466_1_alg».proof.Proof.KernelIdeal.KValue
import proofs.«164746_j32564442038466_1_alg».proof.Proof.RefValueQ
import proofs.«164746_j32564442038466_1_alg».proof.Proof.Finite
import proofs.«164746_j32564442038466_1_alg».proof.Proof.Spec
import Idealize.ShloMosaic.Adequacy
import Idealize.ShloMosaic.Init

noncomputable section

/-! ## The claims -/

namespace Cert.Proof.Claims

open Idealize.ShloMosaic Idealize.SL.Sem

/-- The word-level program runs to the end and leaves its argument as launched. -/
theorem frame_k : Cert.frame_Kernel := fun m ρ _ => Cert.Kernel.Hand.frame (F := Bits) m ρ

/-- So does its idealization, over the extended reals. -/
theorem frame_ki : Cert.frame_KernelIdeal := fun m ρ _ => Cert.KernelIdeal.Hand.frame (F := Ideal) m ρ

/-- The reference is host operations only: its frame is its run with the result dropped. -/
theorem frame_ri : Cert.frame_ReferenceIdeal := fun m ρ _ =>
  (θ_run Cert.ReferenceIdeal.defs _ _).mono (fun _ h c => (h c).2) (Cert.ReferenceIdeal.RefValueQ.ref_run m ρ)

/-- The two named constants: the table gives the reciprocal temperature the rational `134217728 / 9395241`
    (exactly one over the temperature word's value) and the mask value `⊥`, and each printed constant is its
    table value over the extended reals. -/
theorem preserves : Cert.preserves_Kernel_KernelIdeal :=
  ⟨IdealRules.named_const.statement Cert.KernelIdeal.κ "inv_temp" .f32 0x41649249#32 ((134217728 / 9395241 : ℝ) : EReal) rfl,
   IdealRules.named_const.statement Cert.KernelIdeal.κ "neg_big" .f32 0xF149F2CA#32 ⊥ rfl⟩

/-- Over the extended reals the kernel's program ends at `lossK` of its argument and the reference at `lossR`
    of an argument that agrees; the precondition makes every entry a real number, and on real entries the online
    recurrence and the one-pass log-softmax are one function (`Cert.Spec.loss_eq`). -/
theorem algebraic : Cert.algebraic_KernelIdeal_ReferenceIdeal := by
  intro m ρ m' ρ' hpre hagree
  refine ⟨fun c => fun _ => Cert.Spec.lossK (Cert.Spec.toMat
      (m ((c.tc : Thread Cert.KernelIdeal.nD Cert.KernelIdeal.τ).loc Cert.KernelIdeal.main_arg0))),
    Cert.KernelIdeal.Hand.kernel_run m ρ, ?_⟩
  refine (θ_run Cert.ReferenceIdeal.defs _ _).mono (fun _ h c => ⟨(h c).1.trans ?_, (h c).2⟩)
    (Cert.ReferenceIdeal.RefValueQ.ref_run m' ρ')
  rw [hagree c]
  exact funext fun _ => (Cert.Spec.loss_eq _ (Cert.Finite.real_of_preK m hpre c)).symm

end Cert.Proof.Claims

namespace Cert.Proof

theorem claim : Cert.Claim :=
  ⟨Cert.Kernel.Gen.facts, Cert.KernelIdeal.Gen.facts, Cert.ReferenceIdeal.Gen.facts, Cert.Pre_finite_inputs.Gen.facts,
    Claims.frame_k, Claims.frame_ki, Claims.frame_ri, Claims.preserves, Claims.algebraic⟩

end Cert.Proof

end
